-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S32768x512 : Shape := ⟨2, ![32768, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  main_v3
-- ==== Kernel.lean ====
abbrev S1024x512 : Shape := ⟨2, ![1024, 512]⟩
abbrev S1x512 : Shape := ⟨2, ![1, 512]⟩
abbrev S31x1x512 : Shape := ⟨3, ![31, 1, 512]⟩
abbrev S31 : Shape := ⟨1, ![31]⟩
abbrev S_ : Shape := ⟨0, ![]⟩
abbrev S512 : Shape := ⟨1, ![512]⟩
abbrev S1 : Shape := ⟨1, ![1]⟩
abbrev S1x1x512 : Shape := ⟨3, ![1, 1, 512]⟩
abbrev S31x512 : Shape := ⟨2, ![31, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S1024x512, .f32⟩
  | .local _ .vmem, ⟨2, _⟩ => ⟨S1x512, .f32⟩
  | .local _ .vmem, ⟨3, _⟩ => ⟨S31x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v415 : BitVec 32 := Scalar.addi v2 c1_i32_284
  let c32_i32_285 : BitVec 32 := 32#32
  let c0_i32_286 : BitVec 32 := 0#32
  let v416 : BitVec 1 := Scalar.cmpi .eq c32_i32_285 c0_i32_286
  let c1_i32_287 : BitVec 32 := 1#32
  let v417 : BitVec 32 := Scalar.select v416 c1_i32_287 c32_i32_285
  let v418 : BitVec 32 := Scalar.remsi v415 v417
  let c0_i32_289 : BitVec 32 := 0#32
  let v420 : BitVec 1 := Scalar.cmpi .slt v418 c0_i32_289
  let c0_i32_290 : BitVec 32 := 0#32
  let v421 : BitVec 1 := Scalar.cmpi .slt v417 c0_i32_290
  let v422 : BitVec 1 := Scalar.xori v420 v421
  let c0_i32_288 : BitVec 32 := 0#32
  let v419 : BitVec 1 := Scalar.cmpi .ne v418 c0_i32_288
  let v423 : BitVec 1 := Scalar.andi v422 v419
  let v424 : BitVec 32 := Scalar.addi v418 v417
  let v425 : BitVec 32 := Scalar.select v423 v424 v418
  let c1_i32_294 : BitVec 32 := 1#32
  let v426 : BitVec 32 := Scalar.muli v425 c1_i32_294
  let v427 : BitVec 32 := Scalar.addi c0_i32_295 v426
  v427.toNat
def k0_dev33 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v434 : BitVec 32 := Scalar.addi v2 c2_i32_298
  let c32_i32_299 : BitVec 32 := 32#32
  let c0_i32_300 : BitVec 32 := 0#32
  let v435 : BitVec 1 := Scalar.cmpi .eq c32_i32_299 c0_i32_300
  let c1_i32_301 : BitVec 32 := 1#32
  let v436 : BitVec 32 := Scalar.select v435 c1_i32_301 c32_i32_299
  let v437 : BitVec 32 := Scalar.remsi v434 v436
  let c0_i32_303 : BitVec 32 := 0#32
  let v439 : BitVec 1 := Scalar.cmpi .slt v437 c0_i32_303
  let c0_i32_304 : BitVec 32 := 0#32
  let v440 : BitVec 1 := Scalar.cmpi .slt v436 c0_i32_304
  let v441 : BitVec 1 := Scalar.xori v439 v440
  let c0_i32_302 : BitVec 32 := 0#32
  let v438 : BitVec 1 := Scalar.cmpi .ne v437 c0_i32_302
  let v442 : BitVec 1 := Scalar.andi v441 v438
  let v443 : BitVec 32 := Scalar.addi v437 v436
  let v444 : BitVec 32 := Scalar.select v442 v443 v437
  let c1_i32_308 : BitVec 32 := 1#32
  let v445 : BitVec 32 := Scalar.muli v444 c1_i32_308
  let v446 : BitVec 32 := Scalar.addi c0_i32_309 v445
  v446.toNat
def k0_dev34 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_312 : BitVec 32 := 3#32
  let v453 : BitVec 32 := Scalar.addi v2 c3_i32_312
  let c32_i32_313 : BitVec 32 := 32#32
  let c0_i32_314 : BitVec 32 := 0#32
  let v454 : BitVec 1 := Scalar.cmpi .eq c32_i32_313 c0_i32_314
  let c1_i32_315 : BitVec 32 := 1#32
  let v455 : BitVec 32 := Scalar.select v454 c1_i32_315 c32_i32_313
  let v456 : BitVec 32 := Scalar.remsi v453 v455
  let c0_i32_317 : BitVec 32 := 0#32
  let v458 : BitVec 1 := Scalar.cmpi .slt v456 c0_i32_317
  let c0_i32_318 : BitVec 32 := 0#32
  let v459 : BitVec 1 := Scalar.cmpi .slt v455 c0_i32_318
  let v460 : BitVec 1 := Scalar.xori v458 v459
  let c0_i32_316 : BitVec 32 := 0#32
  let v457 : BitVec 1 := Scalar.cmpi .ne v456 c0_i32_316
  let v461 : BitVec 1 := Scalar.andi v460 v457
  let v462 : BitVec 32 := Scalar.addi v456 v455
  let v463 : BitVec 32 := Scalar.select v461 v462 v456
  let c1_i32_322 : BitVec 32 := 1#32
  let v464 : BitVec 32 := Scalar.muli v463 c1_i32_322
  let v465 : BitVec 32 := Scalar.addi c0_i32_323 v464
  v465.toNat
def k0_dev35 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_326 : BitVec 32 := 4#32
  let v472 : BitVec 32 := Scalar.addi v2 c4_i32_326
  let c32_i32_327 : BitVec 32 := 32#32
  let c0_i32_328 : BitVec 32 := 0#32
  let v473 : BitVec 1 := Scalar.cmpi .eq c32_i32_327 c0_i32_328
  let c1_i32_329 : BitVec 32 := 1#32
  let v474 : BitVec 32 := Scalar.select v473 c1_i32_329 c32_i32_327
  let v475 : BitVec 32 := Scalar.remsi v472 v474
  let c0_i32_331 : BitVec 32 := 0#32
  let v477 : BitVec 1 := Scalar.cmpi .slt v475 c0_i32_331
  let c0_i32_332 : BitVec 32 := 0#32
  let v478 : BitVec 1 := Scalar.cmpi .slt v474 c0_i32_332
  let v479 : BitVec 1 := Scalar.xori v477 v478
  let c0_i32_330 : BitVec 32 := 0#32
  let v476 : BitVec 1 := Scalar.cmpi .ne v475 c0_i32_330
  let v480 : BitVec 1 := Scalar.andi v479 v476
  let v481 : BitVec 32 := Scalar.addi v475 v474
  let v482 : BitVec 32 := Scalar.select v480 v481 v475
  let c1_i32_336 : BitVec 32 := 1#32
  let v483 : BitVec 32 := Scalar.muli v482 c1_i32_336
  let v484 : BitVec 32 := Scalar.addi c0_i32_337 v483
  v484.toNat
def k0_dev36 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_340 : BitVec 32 := 5#32
  let v491 : BitVec 32 := Scalar.addi v2 c5_i32_340
  let c32_i32_341 : BitVec 32 := 32#32
  let c0_i32_342 : BitVec 32 := 0#32
  let v492 : BitVec 1 := Scalar.cmpi .eq c32_i32_341 c0_i32_342
  let c1_i32_343 : BitVec 32 := 1#32
  let v493 : BitVec 32 := Scalar.select v492 c1_i32_343 c32_i32_341
  let v494 : BitVec 32 := Scalar.remsi v491 v493
  let c0_i32_345 : BitVec 32 := 0#32
  let v496 : BitVec 1 := Scalar.cmpi .slt v494 c0_i32_345
  let c0_i32_346 : BitVec 32 := 0#32
  let v497 : BitVec 1 := Scalar.cmpi .slt v493 c0_i32_346
  let v498 : BitVec 1 := Scalar.xori v496 v497
  let c0_i32_344 : BitVec 32 := 0#32
  let v495 : BitVec 1 := Scalar.cmpi .ne v494 c0_i32_344
  let v499 : BitVec 1 := Scalar.andi v498 v495
  let v500 : BitVec 32 := Scalar.addi v494 v493
  let v501 : BitVec 32 := Scalar.select v499 v500 v494
  let c1_i32_350 : BitVec 32 := 1#32
  let v502 : BitVec 32 := Scalar.muli v501 c1_i32_350
  let v503 : BitVec 32 := Scalar.addi c0_i32_351 v502
  v503.toNat
def k0_dev37 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_354 : BitVec 32 := 6#32
  let v510 : BitVec 32 := Scalar.addi v2 c6_i32_354
  let c32_i32_355 : BitVec 32 := 32#32
  let c0_i32_356 : BitVec 32 := 0#32
  let v511 : BitVec 1 := Scalar.cmpi .eq c32_i32_355 c0_i32_356
  let c1_i32_357 : BitVec 32 := 1#32
  let v512 : BitVec 32 := Scalar.select v511 c1_i32_357 c32_i32_355
  let v513 : BitVec 32 := Scalar.remsi v510 v512
  let c0_i32_359 : BitVec 32 := 0#32
  let v515 : BitVec 1 := Scalar.cmpi .slt v513 c0_i32_359
  let c0_i32_360 : BitVec 32 := 0#32
  let v516 : BitVec 1 := Scalar.cmpi .slt v512 c0_i32_360
  let v517 : BitVec 1 := Scalar.xori v515 v516
  let c0_i32_358 : BitVec 32 := 0#32
  let v514 : BitVec 1 := Scalar.cmpi .ne v513 c0_i32_358
  let v518 : BitVec 1 := Scalar.andi v517 v514
  let v519 : BitVec 32 := Scalar.addi v513 v512
  let v520 : BitVec 32 := Scalar.select v518 v519 v513
  let c1_i32_364 : BitVec 32 := 1#32
  let v521 : BitVec 32 := Scalar.muli v520 c1_i32_364
  let v522 : BitVec 32 := Scalar.addi c0_i32_365 v521
  v522.toNat
def k0_dev38 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_368 : BitVec 32 := 7#32
  let v529 : BitVec 32 := Scalar.addi v2 c7_i32_368
  let c32_i32_369 : BitVec 32 := 32#32
  let c0_i32_370 : BitVec 32 := 0#32
  let v530 : BitVec 1 := Scalar.cmpi .eq c32_i32_369 c0_i32_370
  let c1_i32_371 : BitVec 32 := 1#32
  let v531 : BitVec 32 := Scalar.select v530 c1_i32_371 c32_i32_369
  let v532 : BitVec 32 := Scalar.remsi v529 v531
  let c0_i32_373 : BitVec 32 := 0#32
  let v534 : BitVec 1 := Scalar.cmpi .slt v532 c0_i32_373
  let c0_i32_374 : BitVec 32 := 0#32
  let v535 : BitVec 1 := Scalar.cmpi .slt v531 c0_i32_374
  let v536 : BitVec 1 := Scalar.xori v534 v535
  let c0_i32_372 : BitVec 32 := 0#32
  let v533 : BitVec 1 := Scalar.cmpi .ne v532 c0_i32_372
  let v537 : BitVec 1 := Scalar.andi v536 v533
  let v538 : BitVec 32 := Scalar.addi v532 v531
  let v539 : BitVec 32 := Scalar.select v537 v538 v532
  let c1_i32_378 : BitVec 32 := 1#32
  let v540 : BitVec 32 := Scalar.muli v539 c1_i32_378
  let v541 : BitVec 32 := Scalar.addi c0_i32_379 v540
  v541.toNat
def k0_dev39 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_382 : BitVec 32 := 8#32
  let v548 : BitVec 32 := Scalar.addi v2 c8_i32_382
  let c32_i32_383 : BitVec 32 := 32#32
  let c0_i32_384 : BitVec 32 := 0#32
  let v549 : BitVec 1 := Scalar.cmpi .eq c32_i32_383 c0_i32_384
  let c1_i32_385 : BitVec 32 := 1#32
  let v550 : BitVec 32 := Scalar.select v549 c1_i32_385 c32_i32_383
  let v551 : BitVec 32 := Scalar.remsi v548 v550
  let c0_i32_387 : BitVec 32 := 0#32
  let v553 : BitVec 1 := Scalar.cmpi .slt v551 c0_i32_387
  let c0_i32_388 : BitVec 32 := 0#32
  let v554 : BitVec 1 := Scalar.cmpi .slt v550 c0_i32_388
  let v555 : BitVec 1 := Scalar.xori v553 v554
  let c0_i32_386 : BitVec 32 := 0#32
  let v552 : BitVec 1 := Scalar.cmpi .ne v551 c0_i32_386
  let v556 : BitVec 1 := Scalar.andi v555 v552
  let v557 : BitVec 32 := Scalar.addi v551 v550
  let v558 : BitVec 32 := Scalar.select v556 v557 v551
  let c1_i32_392 : BitVec 32 := 1#32
  let v559 : BitVec 32 := Scalar.muli v558 c1_i32_392
  let v560 : BitVec 32 := Scalar.addi c0_i32_393 v559
  v560.toNat
def k0_dev40 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_396 : BitVec 32 := 9#32
  let v567 : BitVec 32 := Scalar.addi v2 c9_i32_396
  let c32_i32_397 : BitVec 32 := 32#32
  let c0_i32_398 : BitVec 32 := 0#32
  let v568 : BitVec 1 := Scalar.cmpi .eq c32_i32_397 c0_i32_398
  let c1_i32_399 : BitVec 32 := 1#32
  let v569 : BitVec 32 := Scalar.select v568 c1_i32_399 c32_i32_397
  let v570 : BitVec 32 := Scalar.remsi v567 v569
  let c0_i32_401 : BitVec 32 := 0#32
  let v572 : BitVec 1 := Scalar.cmpi .slt v570 c0_i32_401
  let c0_i32_402 : BitVec 32 := 0#32
  let v573 : BitVec 1 := Scalar.cmpi .slt v569 c0_i32_402
  let v574 : BitVec 1 := Scalar.xori v572 v573
  let c0_i32_400 : BitVec 32 := 0#32
  let v571 : BitVec 1 := Scalar.cmpi .ne v570 c0_i32_400
  let v575 : BitVec 1 := Scalar.andi v574 v571
  let v576 : BitVec 32 := Scalar.addi v570 v569
  let v577 : BitVec 32 := Scalar.select v575 v576 v570
  let c1_i32_406 : BitVec 32 := 1#32
  let v578 : BitVec 32 := Scalar.muli v577 c1_i32_406
  let v579 : BitVec 32 := Scalar.addi c0_i32_407 v578
  v579.toNat
def k0_dev41 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_410 : BitVec 32 := 10#32
  let v586 : BitVec 32 := Scalar.addi v2 c10_i32_410
  let c32_i32_411 : BitVec 32 := 32#32
  let c0_i32_412 : BitVec 32 := 0#32
  let v587 : BitVec 1 := Scalar.cmpi .eq c32_i32_411 c0_i32_412
  let c1_i32_413 : BitVec 32 := 1#32
  let v588 : BitVec 32 := Scalar.select v587 c1_i32_413 c32_i32_411
  let v589 : BitVec 32 := Scalar.remsi v586 v588
  let c0_i32_415 : BitVec 32 := 0#32
  let v591 : BitVec 1 := Scalar.cmpi .slt v589 c0_i32_415
  let c0_i32_416 : BitVec 32 := 0#32
  let v592 : BitVec 1 := Scalar.cmpi .slt v588 c0_i32_416
  let v593 : BitVec 1 := Scalar.xori v591 v592
  let c0_i32_414 : BitVec 32 := 0#32
  let v590 : BitVec 1 := Scalar.cmpi .ne v589 c0_i32_414
  let v594 : BitVec 1 := Scalar.andi v593 v590
  let v595 : BitVec 32 := Scalar.addi v589 v588
  let v596 : BitVec 32 := Scalar.select v594 v595 v589
  let c1_i32_420 : BitVec 32 := 1#32
  let v597 : BitVec 32 := Scalar.muli v596 c1_i32_420
  let v598 : BitVec 32 := Scalar.addi c0_i32_421 v597
  v598.toNat
def k0_dev42 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_424 : BitVec 32 := 11#32
  let v605 : BitVec 32 := Scalar.addi v2 c11_i32_424
  let c32_i32_425 : BitVec 32 := 32#32
  let c0_i32_426 : BitVec 32 := 0#32
  let v606 : BitVec 1 := Scalar.cmpi .eq c32_i32_425 c0_i32_426
  let c1_i32_427 : BitVec 32 := 1#32
  let v607 : BitVec 32 := Scalar.select v606 c1_i32_427 c32_i32_425
  let v608 : BitVec 32 := Scalar.remsi v605 v607
  let c0_i32_429 : BitVec 32 := 0#32
  let v610 : BitVec 1 := Scalar.cmpi .slt v608 c0_i32_429
  let c0_i32_430 : BitVec 32 := 0#32
  let v611 : BitVec 1 := Scalar.cmpi .slt v607 c0_i32_430
  let v612 : BitVec 1 := Scalar.xori v610 v611
  let c0_i32_428 : BitVec 32 := 0#32
  let v609 : BitVec 1 := Scalar.cmpi .ne v608 c0_i32_428
  let v613 : BitVec 1 := Scalar.andi v612 v609
  let v614 : BitVec 32 := Scalar.addi v608 v607
  let v615 : BitVec 32 := Scalar.select v613 v614 v608
  let c1_i32_434 : BitVec 32 := 1#32
  let v616 : BitVec 32 := Scalar.muli v615 c1_i32_434
  let v617 : BitVec 32 := Scalar.addi c0_i32_435 v616
  v617.toNat
def k0_dev43 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_438 : BitVec 32 := 12#32
  let v624 : BitVec 32 := Scalar.addi v2 c12_i32_438
  let c32_i32_439 : BitVec 32 := 32#32
  let c0_i32_440 : BitVec 32 := 0#32
  let v625 : BitVec 1 := Scalar.cmpi .eq c32_i32_439 c0_i32_440
  let c1_i32_441 : BitVec 32 := 1#32
  let v626 : BitVec 32 := Scalar.select v625 c1_i32_441 c32_i32_439
  let v627 : BitVec 32 := Scalar.remsi v624 v626
  let c0_i32_443 : BitVec 32 := 0#32
  let v629 : BitVec 1 := Scalar.cmpi .slt v627 c0_i32_443
  let c0_i32_444 : BitVec 32 := 0#32
  let v630 : BitVec 1 := Scalar.cmpi .slt v626 c0_i32_444
  let v631 : BitVec 1 := Scalar.xori v629 v630
  let c0_i32_442 : BitVec 32 := 0#32
  let v628 : BitVec 1 := Scalar.cmpi .ne v627 c0_i32_442
  let v632 : BitVec 1 := Scalar.andi v631 v628
  let v633 : BitVec 32 := Scalar.addi v627 v626
  let v634 : BitVec 32 := Scalar.select v632 v633 v627
  let c1_i32_448 : BitVec 32 := 1#32
  let v635 : BitVec 32 := Scalar.muli v634 c1_i32_448
  let v636 : BitVec 32 := Scalar.addi c0_i32_449 v635
  v636.toNat
def k0_dev44 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_452 : BitVec 32 := 13#32
  let v643 : BitVec 32 := Scalar.addi v2 c13_i32_452
  let c32_i32_453 : BitVec 32 := 32#32
  let c0_i32_454 : BitVec 32 := 0#32
  let v644 : BitVec 1 := Scalar.cmpi .eq c32_i32_453 c0_i32_454
  let c1_i32_455 : BitVec 32 := 1#32
  let v645 : BitVec 32 := Scalar.select v644 c1_i32_455 c32_i32_453
  let v646 : BitVec 32 := Scalar.remsi v643 v645
  let c0_i32_457 : BitVec 32 := 0#32
  let v648 : BitVec 1 := Scalar.cmpi .slt v646 c0_i32_457
  let c0_i32_458 : BitVec 32 := 0#32
  let v649 : BitVec 1 := Scalar.cmpi .slt v645 c0_i32_458
  let v650 : BitVec 1 := Scalar.xori v648 v649
  let c0_i32_456 : BitVec 32 := 0#32
  let v647 : BitVec 1 := Scalar.cmpi .ne v646 c0_i32_456
  let v651 : BitVec 1 := Scalar.andi v650 v647
  let v652 : BitVec 32 := Scalar.addi v646 v645
  let v653 : BitVec 32 := Scalar.select v651 v652 v646
  let c1_i32_462 : BitVec 32 := 1#32
  let v654 : BitVec 32 := Scalar.muli v653 c1_i32_462
  let v655 : BitVec 32 := Scalar.addi c0_i32_463 v654
  v655.toNat
def k0_dev45 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_466 : BitVec 32 := 14#32
  let v662 : BitVec 32 := Scalar.addi v2 c14_i32_466
  let c32_i32_467 : BitVec 32 := 32#32
  let c0_i32_468 : BitVec 32 := 0#32
  let v663 : BitVec 1 := Scalar.cmpi .eq c32_i32_467 c0_i32_468
  let c1_i32_469 : BitVec 32 := 1#32
  let v664 : BitVec 32 := Scalar.select v663 c1_i32_469 c32_i32_467
  let v665 : BitVec 32 := Scalar.remsi v662 v664
  let c0_i32_471 : BitVec 32 := 0#32
  let v667 : BitVec 1 := Scalar.cmpi .slt v665 c0_i32_471
  let c0_i32_472 : BitVec 32 := 0#32
  let v668 : BitVec 1 := Scalar.cmpi .slt v664 c0_i32_472
  let v669 : BitVec 1 := Scalar.xori v667 v668
  let c0_i32_470 : BitVec 32 := 0#32
  let v666 : BitVec 1 := Scalar.cmpi .ne v665 c0_i32_470
  let v670 : BitVec 1 := Scalar.andi v669 v666
  let v671 : BitVec 32 := Scalar.addi v665 v664
  let v672 : BitVec 32 := Scalar.select v670 v671 v665
  let c1_i32_476 : BitVec 32 := 1#32
  let v673 : BitVec 32 := Scalar.muli v672 c1_i32_476
  let v674 : BitVec 32 := Scalar.addi c0_i32_477 v673
  v674.toNat
def k0_dev46 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_480 : BitVec 32 := 15#32
  let v681 : BitVec 32 := Scalar.addi v2 c15_i32_480
  let c32_i32_481 : BitVec 32 := 32#32
  let c0_i32_482 : BitVec 32 := 0#32
  let v682 : BitVec 1 := Scalar.cmpi .eq c32_i32_481 c0_i32_482
  let c1_i32_483 : BitVec 32 := 1#32
  let v683 : BitVec 32 := Scalar.select v682 c1_i32_483 c32_i32_481
  let v684 : BitVec 32 := Scalar.remsi v681 v683
  let c0_i32_485 : BitVec 32 := 0#32
  let v686 : BitVec 1 := Scalar.cmpi .slt v684 c0_i32_485
  let c0_i32_486 : BitVec 32 := 0#32
  let v687 : BitVec 1 := Scalar.cmpi .slt v683 c0_i32_486
  let v688 : BitVec 1 := Scalar.xori v686 v687
  let c0_i32_484 : BitVec 32 := 0#32
  let v685 : BitVec 1 := Scalar.cmpi .ne v684 c0_i32_484
  let v689 : BitVec 1 := Scalar.andi v688 v685
  let v690 : BitVec 32 := Scalar.addi v684 v683
  let v691 : BitVec 32 := Scalar.select v689 v690 v684
  let c1_i32_490 : BitVec 32 := 1#32
  let v692 : BitVec 32 := Scalar.muli v691 c1_i32_490
  let v693 : BitVec 32 := Scalar.addi c0_i32_491 v692
  v693.toNat
def k0_dev47 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_494 : BitVec 32 := 16#32
  let v700 : BitVec 32 := Scalar.addi v2 c16_i32_494
  let c32_i32_495 : BitVec 32 := 32#32
  let c0_i32_496 : BitVec 32 := 0#32
  let v701 : BitVec 1 := Scalar.cmpi .eq c32_i32_495 c0_i32_496
  let c1_i32_497 : BitVec 32 := 1#32
  let v702 : BitVec 32 := Scalar.select v701 c1_i32_497 c32_i32_495
  let v703 : BitVec 32 := Scalar.remsi v700 v702
  let c0_i32_499 : BitVec 32 := 0#32
  let v705 : BitVec 1 := Scalar.cmpi .slt v703 c0_i32_499
  let c0_i32_500 : BitVec 32 := 0#32
  let v706 : BitVec 1 := Scalar.cmpi .slt v702 c0_i32_500
  let v707 : BitVec 1 := Scalar.xori v705 v706
  let c0_i32_498 : BitVec 32 := 0#32
  let v704 : BitVec 1 := Scalar.cmpi .ne v703 c0_i32_498
  let v708 : BitVec 1 := Scalar.andi v707 v704
  let v709 : BitVec 32 := Scalar.addi v703 v702
  let v710 : BitVec 32 := Scalar.select v708 v709 v703
  let c1_i32_504 : BitVec 32 := 1#32
  let v711 : BitVec 32 := Scalar.muli v710 c1_i32_504
  let v712 : BitVec 32 := Scalar.addi c0_i32_505 v711
  v712.toNat
def k0_dev48 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_508 : BitVec 32 := 17#32
  let v719 : BitVec 32 := Scalar.addi v2 c17_i32_508
  let c32_i32_509 : BitVec 32 := 32#32
  let c0_i32_510 : BitVec 32 := 0#32
  let v720 : BitVec 1 := Scalar.cmpi .eq c32_i32_509 c0_i32_510
  let c1_i32_511 : BitVec 32 := 1#32
  let v721 : BitVec 32 := Scalar.select v720 c1_i32_511 c32_i32_509
  let v722 : BitVec 32 := Scalar.remsi v719 v721
  let c0_i32_513 : BitVec 32 := 0#32
  let v724 : BitVec 1 := Scalar.cmpi .slt v722 c0_i32_513
  let c0_i32_514 : BitVec 32 := 0#32
  let v725 : BitVec 1 := Scalar.cmpi .slt v721 c0_i32_514
  let v726 : BitVec 1 := Scalar.xori v724 v725
  let c0_i32_512 : BitVec 32 := 0#32
  let v723 : BitVec 1 := Scalar.cmpi .ne v722 c0_i32_512
  let v727 : BitVec 1 := Scalar.andi v726 v723
  let v728 : BitVec 32 := Scalar.addi v722 v721
  let v729 : BitVec 32 := Scalar.select v727 v728 v722
  let c1_i32_518 : BitVec 32 := 1#32
  let v730 : BitVec 32 := Scalar.muli v729 c1_i32_518
  let v731 : BitVec 32 := Scalar.addi c0_i32_519 v730
  v731.toNat
def k0_dev49 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_522 : BitVec 32 := 18#32
  let v738 : BitVec 32 := Scalar.addi v2 c18_i32_522
  let c32_i32_523 : BitVec 32 := 32#32
  let c0_i32_524 : BitVec 32 := 0#32
  let v739 : BitVec 1 := Scalar.cmpi .eq c32_i32_523 c0_i32_524
  let c1_i32_525 : BitVec 32 := 1#32
  let v740 : BitVec 32 := Scalar.select v739 c1_i32_525 c32_i32_523
  let v741 : BitVec 32 := Scalar.remsi v738 v740
  let c0_i32_527 : BitVec 32 := 0#32
  let v743 : BitVec 1 := Scalar.cmpi .slt v741 c0_i32_527
  let c0_i32_528 : BitVec 32 := 0#32
  let v744 : BitVec 1 := Scalar.cmpi .slt v740 c0_i32_528
  let v745 : BitVec 1 := Scalar.xori v743 v744
  let c0_i32_526 : BitVec 32 := 0#32
  let v742 : BitVec 1 := Scalar.cmpi .ne v741 c0_i32_526
  let v746 : BitVec 1 := Scalar.andi v745 v742
  let v747 : BitVec 32 := Scalar.addi v741 v740
  let v748 : BitVec 32 := Scalar.select v746 v747 v741
  let c1_i32_532 : BitVec 32 := 1#32
  let v749 : BitVec 32 := Scalar.muli v748 c1_i32_532
  let v750 : BitVec 32 := Scalar.addi c0_i32_533 v749
  v750.toNat
def k0_dev50 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_536 : BitVec 32 := 19#32
  let v757 : BitVec 32 := Scalar.addi v2 c19_i32_536
  let c32_i32_537 : BitVec 32 := 32#32
  let c0_i32_538 : BitVec 32 := 0#32
  let v758 : BitVec 1 := Scalar.cmpi .eq c32_i32_537 c0_i32_538
  let c1_i32_539 : BitVec 32 := 1#32
  let v759 : BitVec 32 := Scalar.select v758 c1_i32_539 c32_i32_537
  let v760 : BitVec 32 := Scalar.remsi v757 v759
  let c0_i32_541 : BitVec 32 := 0#32
  let v762 : BitVec 1 := Scalar.cmpi .slt v760 c0_i32_541
  let c0_i32_542 : BitVec 32 := 0#32
  let v763 : BitVec 1 := Scalar.cmpi .slt v759 c0_i32_542
  let v764 : BitVec 1 := Scalar.xori v762 v763
  let c0_i32_540 : BitVec 32 := 0#32
  let v761 : BitVec 1 := Scalar.cmpi .ne v760 c0_i32_540
  let v765 : BitVec 1 := Scalar.andi v764 v761
  let v766 : BitVec 32 := Scalar.addi v760 v759
  let v767 : BitVec 32 := Scalar.select v765 v766 v760
  let c1_i32_546 : BitVec 32 := 1#32
  let v768 : BitVec 32 := Scalar.muli v767 c1_i32_546
  let v769 : BitVec 32 := Scalar.addi c0_i32_547 v768
  v769.toNat
def k0_dev51 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_550 : BitVec 32 := 20#32
  let v776 : BitVec 32 := Scalar.addi v2 c20_i32_550
  let c32_i32_551 : BitVec 32 := 32#32
  let c0_i32_552 : BitVec 32 := 0#32
  let v777 : BitVec 1 := Scalar.cmpi .eq c32_i32_551 c0_i32_552
  let c1_i32_553 : BitVec 32 := 1#32
  let v778 : BitVec 32 := Scalar.select v777 c1_i32_553 c32_i32_551
  let v779 : BitVec 32 := Scalar.remsi v776 v778
  let c0_i32_555 : BitVec 32 := 0#32
  let v781 : BitVec 1 := Scalar.cmpi .slt v779 c0_i32_555
  let c0_i32_556 : BitVec 32 := 0#32
  let v782 : BitVec 1 := Scalar.cmpi .slt v778 c0_i32_556
  let v783 : BitVec 1 := Scalar.xori v781 v782
  let c0_i32_554 : BitVec 32 := 0#32
  let v780 : BitVec 1 := Scalar.cmpi .ne v779 c0_i32_554
  let v784 : BitVec 1 := Scalar.andi v783 v780
  let v785 : BitVec 32 := Scalar.addi v779 v778
  let v786 : BitVec 32 := Scalar.select v784 v785 v779
  let c1_i32_560 : BitVec 32 := 1#32
  let v787 : BitVec 32 := Scalar.muli v786 c1_i32_560
  let v788 : BitVec 32 := Scalar.addi c0_i32_561 v787
  v788.toNat
def k0_dev52 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_564 : BitVec 32 := 21#32
  let v795 : BitVec 32 := Scalar.addi v2 c21_i32_564
  let c32_i32_565 : BitVec 32 := 32#32
  let c0_i32_566 : BitVec 32 := 0#32
  let v796 : BitVec 1 := Scalar.cmpi .eq c32_i32_565 c0_i32_566
  let c1_i32_567 : BitVec 32 := 1#32
  let v797 : BitVec 32 := Scalar.select v796 c1_i32_567 c32_i32_565
  let v798 : BitVec 32 := Scalar.remsi v795 v797
  let c0_i32_569 : BitVec 32 := 0#32
  let v800 : BitVec 1 := Scalar.cmpi .slt v798 c0_i32_569
  let c0_i32_570 : BitVec 32 := 0#32
  let v801 : BitVec 1 := Scalar.cmpi .slt v797 c0_i32_570
  let v802 : BitVec 1 := Scalar.xori v800 v801
  let c0_i32_568 : BitVec 32 := 0#32
  let v799 : BitVec 1 := Scalar.cmpi .ne v798 c0_i32_568
  let v803 : BitVec 1 := Scalar.andi v802 v799
  let v804 : BitVec 32 := Scalar.addi v798 v797
  let v805 : BitVec 32 := Scalar.select v803 v804 v798
  let c1_i32_574 : BitVec 32 := 1#32
  let v806 : BitVec 32 := Scalar.muli v805 c1_i32_574
  let v807 : BitVec 32 := Scalar.addi c0_i32_575 v806
  v807.toNat
def k0_dev53 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_578 : BitVec 32 := 22#32
  let v814 : BitVec 32 := Scalar.addi v2 c22_i32_578
  let c32_i32_579 : BitVec 32 := 32#32
  let c0_i32_580 : BitVec 32 := 0#32
  let v815 : BitVec 1 := Scalar.cmpi .eq c32_i32_579 c0_i32_580
  let c1_i32_581 : BitVec 32 := 1#32
  let v816 : BitVec 32 := Scalar.select v815 c1_i32_581 c32_i32_579
  let v817 : BitVec 32 := Scalar.remsi v814 v816
  let c0_i32_583 : BitVec 32 := 0#32
  let v819 : BitVec 1 := Scalar.cmpi .slt v817 c0_i32_583
  let c0_i32_584 : BitVec 32 := 0#32
  let v820 : BitVec 1 := Scalar.cmpi .slt v816 c0_i32_584
  let v821 : BitVec 1 := Scalar.xori v819 v820
  let c0_i32_582 : BitVec 32 := 0#32
  let v818 : BitVec 1 := Scalar.cmpi .ne v817 c0_i32_582
  let v822 : BitVec 1 := Scalar.andi v821 v818
  let v823 : BitVec 32 := Scalar.addi v817 v816
  let v824 : BitVec 32 := Scalar.select v822 v823 v817
  let c1_i32_588 : BitVec 32 := 1#32
  let v825 : BitVec 32 := Scalar.muli v824 c1_i32_588
  let v826 : BitVec 32 := Scalar.addi c0_i32_589 v825
  v826.toNat
def k0_dev54 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_592 : BitVec 32 := 23#32
  let v833 : BitVec 32 := Scalar.addi v2 c23_i32_592
  let c32_i32_593 : BitVec 32 := 32#32
  let c0_i32_594 : BitVec 32 := 0#32
  let v834 : BitVec 1 := Scalar.cmpi .eq c32_i32_593 c0_i32_594
  let c1_i32_595 : BitVec 32 := 1#32
  let v835 : BitVec 32 := Scalar.select v834 c1_i32_595 c32_i32_593
  let v836 : BitVec 32 := Scalar.remsi v833 v835
  let c0_i32_597 : BitVec 32 := 0#32
  let v838 : BitVec 1 := Scalar.cmpi .slt v836 c0_i32_597
  let c0_i32_598 : BitVec 32 := 0#32
  let v839 : BitVec 1 := Scalar.cmpi .slt v835 c0_i32_598
  let v840 : BitVec 1 := Scalar.xori v838 v839
  let c0_i32_596 : BitVec 32 := 0#32
  let v837 : BitVec 1 := Scalar.cmpi .ne v836 c0_i32_596
  let v841 : BitVec 1 := Scalar.andi v840 v837
  let v842 : BitVec 32 := Scalar.addi v836 v835
  let v843 : BitVec 32 := Scalar.select v841 v842 v836
  let c1_i32_602 : BitVec 32 := 1#32
  let v844 : BitVec 32 := Scalar.muli v843 c1_i32_602
  let v845 : BitVec 32 := Scalar.addi c0_i32_603 v844
  v845.toNat
def k0_dev55 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_606 : BitVec 32 := 24#32
  let v852 : BitVec 32 := Scalar.addi v2 c24_i32_606
  let c32_i32_607 : BitVec 32 := 32#32
  let c0_i32_608 : BitVec 32 := 0#32
  let v853 : BitVec 1 := Scalar.cmpi .eq c32_i32_607 c0_i32_608
  let c1_i32_609 : BitVec 32 := 1#32
  let v854 : BitVec 32 := Scalar.select v853 c1_i32_609 c32_i32_607
  let v855 : BitVec 32 := Scalar.remsi v852 v854
  let c0_i32_611 : BitVec 32 := 0#32
  let v857 : BitVec 1 := Scalar.cmpi .slt v855 c0_i32_611
  let c0_i32_612 : BitVec 32 := 0#32
  let v858 : BitVec 1 := Scalar.cmpi .slt v854 c0_i32_612
  let v859 : BitVec 1 := Scalar.xori v857 v858
  let c0_i32_610 : BitVec 32 := 0#32
  let v856 : BitVec 1 := Scalar.cmpi .ne v855 c0_i32_610
  let v860 : BitVec 1 := Scalar.andi v859 v856
  let v861 : BitVec 32 := Scalar.addi v855 v854
  let v862 : BitVec 32 := Scalar.select v860 v861 v855
  let c1_i32_616 : BitVec 32 := 1#32
  let v863 : BitVec 32 := Scalar.muli v862 c1_i32_616
  let v864 : BitVec 32 := Scalar.addi c0_i32_617 v863
  v864.toNat
def k0_dev56 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_620 : BitVec 32 := 25#32
  let v871 : BitVec 32 := Scalar.addi v2 c25_i32_620
  let c32_i32_621 : BitVec 32 := 32#32
  let c0_i32_622 : BitVec 32 := 0#32
  let v872 : BitVec 1 := Scalar.cmpi .eq c32_i32_621 c0_i32_622
  let c1_i32_623 : BitVec 32 := 1#32
  let v873 : BitVec 32 := Scalar.select v872 c1_i32_623 c32_i32_621
  let v874 : BitVec 32 := Scalar.remsi v871 v873
  let c0_i32_625 : BitVec 32 := 0#32
  let v876 : BitVec 1 := Scalar.cmpi .slt v874 c0_i32_625
  let c0_i32_626 : BitVec 32 := 0#32
  let v877 : BitVec 1 := Scalar.cmpi .slt v873 c0_i32_626
  let v878 : BitVec 1 := Scalar.xori v876 v877
  let c0_i32_624 : BitVec 32 := 0#32
  let v875 : BitVec 1 := Scalar.cmpi .ne v874 c0_i32_624
  let v879 : BitVec 1 := Scalar.andi v878 v875
  let v880 : BitVec 32 := Scalar.addi v874 v873
  let v881 : BitVec 32 := Scalar.select v879 v880 v874
  let c1_i32_630 : BitVec 32 := 1#32
  let v882 : BitVec 32 := Scalar.muli v881 c1_i32_630
  let v883 : BitVec 32 := Scalar.addi c0_i32_631 v882
  v883.toNat
def k0_dev57 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_634 : BitVec 32 := 26#32
  let v890 : BitVec 32 := Scalar.addi v2 c26_i32_634
  let c32_i32_635 : BitVec 32 := 32#32
  let c0_i32_636 : BitVec 32 := 0#32
  let v891 : BitVec 1 := Scalar.cmpi .eq c32_i32_635 c0_i32_636
  let c1_i32_637 : BitVec 32 := 1#32
  let v892 : BitVec 32 := Scalar.select v891 c1_i32_637 c32_i32_635
  let v893 : BitVec 32 := Scalar.remsi v890 v892
  let c0_i32_639 : BitVec 32 := 0#32
  let v895 : BitVec 1 := Scalar.cmpi .slt v893 c0_i32_639
  let c0_i32_640 : BitVec 32 := 0#32
  let v896 : BitVec 1 := Scalar.cmpi .slt v892 c0_i32_640
  let v897 : BitVec 1 := Scalar.xori v895 v896
  let c0_i32_638 : BitVec 32 := 0#32
  let v894 : BitVec 1 := Scalar.cmpi .ne v893 c0_i32_638
  let v898 : BitVec 1 := Scalar.andi v897 v894
  let v899 : BitVec 32 := Scalar.addi v893 v892
  let v900 : BitVec 32 := Scalar.select v898 v899 v893
  let c1_i32_644 : BitVec 32 := 1#32
  let v901 : BitVec 32 := Scalar.muli v900 c1_i32_644
  let v902 : BitVec 32 := Scalar.addi c0_i32_645 v901
  v902.toNat
def k0_dev58 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_648 : BitVec 32 := 27#32
  let v909 : BitVec 32 := Scalar.addi v2 c27_i32_648
  let c32_i32_649 : BitVec 32 := 32#32
  let c0_i32_650 : BitVec 32 := 0#32
  let v910 : BitVec 1 := Scalar.cmpi .eq c32_i32_649 c0_i32_650
  let c1_i32_651 : BitVec 32 := 1#32
  let v911 : BitVec 32 := Scalar.select v910 c1_i32_651 c32_i32_649
  let v912 : BitVec 32 := Scalar.remsi v909 v911
  let c0_i32_653 : BitVec 32 := 0#32
  let v914 : BitVec 1 := Scalar.cmpi .slt v912 c0_i32_653
  let c0_i32_654 : BitVec 32 := 0#32
  let v915 : BitVec 1 := Scalar.cmpi .slt v911 c0_i32_654
  let v916 : BitVec 1 := Scalar.xori v914 v915
  let c0_i32_652 : BitVec 32 := 0#32
  let v913 : BitVec 1 := Scalar.cmpi .ne v912 c0_i32_652
  let v917 : BitVec 1 := Scalar.andi v916 v913
  let v918 : BitVec 32 := Scalar.addi v912 v911
  let v919 : BitVec 32 := Scalar.select v917 v918 v912
  let c1_i32_658 : BitVec 32 := 1#32
  let v920 : BitVec 32 := Scalar.muli v919 c1_i32_658
  let v921 : BitVec 32 := Scalar.addi c0_i32_659 v920
  v921.toNat
def k0_dev59 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_662 : BitVec 32 := 28#32
  let v928 : BitVec 32 := Scalar.addi v2 c28_i32_662
  let c32_i32_663 : BitVec 32 := 32#32
  let c0_i32_664 : BitVec 32 := 0#32
  let v929 : BitVec 1 := Scalar.cmpi .eq c32_i32_663 c0_i32_664
  let c1_i32_665 : BitVec 32 := 1#32
  let v930 : BitVec 32 := Scalar.select v929 c1_i32_665 c32_i32_663
  let v931 : BitVec 32 := Scalar.remsi v928 v930
  let c0_i32_667 : BitVec 32 := 0#32
  let v933 : BitVec 1 := Scalar.cmpi .slt v931 c0_i32_667
  let c0_i32_668 : BitVec 32 := 0#32
  let v934 : BitVec 1 := Scalar.cmpi .slt v930 c0_i32_668
  let v935 : BitVec 1 := Scalar.xori v933 v934
  let c0_i32_666 : BitVec 32 := 0#32
  let v932 : BitVec 1 := Scalar.cmpi .ne v931 c0_i32_666
  let v936 : BitVec 1 := Scalar.andi v935 v932
  let v937 : BitVec 32 := Scalar.addi v931 v930
  let v938 : BitVec 32 := Scalar.select v936 v937 v931
  let c1_i32_672 : BitVec 32 := 1#32
  let v939 : BitVec 32 := Scalar.muli v938 c1_i32_672
  let v940 : BitVec 32 := Scalar.addi c0_i32_673 v939
  v940.toNat
def k0_dev60 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_676 : BitVec 32 := 29#32
  let v947 : BitVec 32 := Scalar.addi v2 c29_i32_676
  let c32_i32_677 : BitVec 32 := 32#32
  let c0_i32_678 : BitVec 32 := 0#32
  let v948 : BitVec 1 := Scalar.cmpi .eq c32_i32_677 c0_i32_678
  let c1_i32_679 : BitVec 32 := 1#32
  let v949 : BitVec 32 := Scalar.select v948 c1_i32_679 c32_i32_677
  let v950 : BitVec 32 := Scalar.remsi v947 v949
  let c0_i32_681 : BitVec 32 := 0#32
  let v952 : BitVec 1 := Scalar.cmpi .slt v950 c0_i32_681
  let c0_i32_682 : BitVec 32 := 0#32
  let v953 : BitVec 1 := Scalar.cmpi .slt v949 c0_i32_682
  let v954 : BitVec 1 := Scalar.xori v952 v953
  let c0_i32_680 : BitVec 32 := 0#32
  let v951 : BitVec 1 := Scalar.cmpi .ne v950 c0_i32_680
  let v955 : BitVec 1 := Scalar.andi v954 v951
  let v956 : BitVec 32 := Scalar.addi v950 v949
  let v957 : BitVec 32 := Scalar.select v955 v956 v950
  let c1_i32_686 : BitVec 32 := 1#32
  let v958 : BitVec 32 := Scalar.muli v957 c1_i32_686
  let v959 : BitVec 32 := Scalar.addi c0_i32_687 v958
  v959.toNat
def k0_dev61 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_690 : BitVec 32 := 30#32
  let v966 : BitVec 32 := Scalar.addi v2 c30_i32_690
  let c32_i32_691 : BitVec 32 := 32#32
  let c0_i32_692 : BitVec 32 := 0#32
  let v967 : BitVec 1 := Scalar.cmpi .eq c32_i32_691 c0_i32_692
  let c1_i32_693 : BitVec 32 := 1#32
  let v968 : BitVec 32 := Scalar.select v967 c1_i32_693 c32_i32_691
  let v969 : BitVec 32 := Scalar.remsi v966 v968
  let c0_i32_695 : BitVec 32 := 0#32
  let v971 : BitVec 1 := Scalar.cmpi .slt v969 c0_i32_695
  let c0_i32_696 : BitVec 32 := 0#32
  let v972 : BitVec 1 := Scalar.cmpi .slt v968 c0_i32_696
  let v973 : BitVec 1 := Scalar.xori v971 v972
  let c0_i32_694 : BitVec 32 := 0#32
  let v970 : BitVec 1 := Scalar.cmpi .ne v969 c0_i32_694
  let v974 : BitVec 1 := Scalar.andi v973 v970
  let v975 : BitVec 32 := Scalar.addi v969 v968
  let v976 : BitVec 32 := Scalar.select v974 v975 v969
  let c1_i32_700 : BitVec 32 := 1#32
  let v977 : BitVec 32 := Scalar.muli v976 c1_i32_700
  let v978 : BitVec 32 := Scalar.addi c0_i32_701 v977
  v978.toNat
def k0_dev62 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_704 : BitVec 32 := 31#32
  let v985 : BitVec 32 := Scalar.addi v2 c31_i32_704
  let c32_i32_705 : BitVec 32 := 32#32
  let c0_i32_706 : BitVec 32 := 0#32
  let v986 : BitVec 1 := Scalar.cmpi .eq c32_i32_705 c0_i32_706
  let c1_i32_707 : BitVec 32 := 1#32
  let v987 : BitVec 32 := Scalar.select v986 c1_i32_707 c32_i32_705
  let v988 : BitVec 32 := Scalar.remsi v985 v987
  let c0_i32_709 : BitVec 32 := 0#32
  let v990 : BitVec 1 := Scalar.cmpi .slt v988 c0_i32_709
  let c0_i32_710 : BitVec 32 := 0#32
  let v991 : BitVec 1 := Scalar.cmpi .slt v987 c0_i32_710
  let v992 : BitVec 1 := Scalar.xori v990 v991
  let c0_i32_708 : BitVec 32 := 0#32
  let v989 : BitVec 1 := Scalar.cmpi .ne v988 c0_i32_708
  let v993 : BitVec 1 := Scalar.andi v992 v989
  let v994 : BitVec 32 := Scalar.addi v988 v987
  let v995 : BitVec 32 := Scalar.select v993 v994 v988
  let c1_i32_714 : BitVec 32 := 1#32
  let v996 : BitVec 32 := Scalar.muli v995 c1_i32_714
  let v997 : BitVec 32 := Scalar.addi c0_i32_715 v996
  v997.toNat
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  hamt_31 : (31#32 : BitVec 32).msb = false
  inb_S31_S1_0 : ∀ a, (![0] : Fin 1 → Nat) a + S1.size a ≤ S31.size a
  squeezes_S1_S_ : S1.Squeezes S_
  inb_S31x1x512_S1x1x512_0_0_0 : ∀ a, (![0, 0, 0] : Fin 3 → Nat) a + S1x1x512.size a ≤ S31x1x512.size a
  squeezes_S1x1x512_S1x512 : S1x1x512.Squeezes S1x512
  inb_S31_S1_1 : ∀ a, (![1] : Fin 1 → Nat) a + S1.size a ≤ S31.size a
  inb_S31x1x512_S1x1x512_1_0_0 : ∀ a, (![1, 0, 0] : Fin 3 → Nat) a + S1x1x512.size a ≤ S31x1x512.size a
  inb_S31_S1_2 : ∀ a, (![2] : Fin 1 → Nat) a + S1.size a ≤ S31.size a
  inb_S31x1x512_S1x1x512_2_0_0 : ∀ a, (![2, 0, 0] : Fin 3 → Nat) a + S1x1x512.size a ≤ S31x1x512.size a
  inb_S31_S1_3 : ∀ a, (![3] : Fin 1 → Nat) a + S1.size a ≤ S31.size a
  inb_S31x1x512_S1x1x512_3_0_0 : ∀ a, (![3, 0, 0] : Fin 3 → Nat) a + S1x1x512.size a ≤ S31x1x512.size a
  inb_S31_S1_4 : ∀ a, (![4] : Fin 1 → Nat) a + S1.size a ≤ S31.size a
  inb_S31x1x512_S1x1x512_4_0_0 : ∀ a, (![4, 0, 0] : Fin 3 → Nat) a + S1x1x512.size a ≤ S31x1x512.size a
  inb_S31_S1_5 : ∀ a, (![5] : Fin 1 → Nat) a + S1.size a ≤ S31.size a
  inb_S31x1x512_S1x1x512_5_0_0 : ∀ a, (![5, 0, 0] : Fin 3 → Nat) a + S1x1x512.size a ≤ S31x1x512.size a
  inb_S31_S1_6 : ∀ a, (![6] : Fin 1 → Nat) a + S1.size a ≤ S31.size a
  inb_S31x1x512_S1x1x512_6_0_0 : ∀ a, (![6, 0, 0] : Fin 3 → Nat) a + S1x1x512.size a ≤ S31x1x512.size a
  inb_S31_S1_7 : ∀ a, (![7] : Fin 1 → Nat) a + S1.size a ≤ S31.size a
  inb_S31x1x512_S1x1x512_7_0_0 : ∀ a, (![7, 0, 0] : Fin 3 → Nat) a + S1x1x512.size a ≤ S31x1x512.size a
  inb_S31_S1_8 : ∀ a, (![8] : Fin 1 → Nat) a + S1.size a ≤ S31.size a
  inb_S31x1x512_S1x1x512_8_0_0 : ∀ a, (![8, 0, 0] : Fin 3 → Nat) a + S1x1x512.size a ≤ S31x1x512.size a
  inb_S31_S1_9 : ∀ a, (![9] : Fin 1 → Nat) a + S1.size a ≤ S31.size a
  inb_S31x1x512_S1x1x512_9_0_0 : ∀ a, (![9, 0, 0] : Fin 3 → Nat) a + S1x1x512.size a ≤ S31x1x512.size a
  inb_S31_S1_10 : ∀ a, (![10] : Fin 1 → Nat) a + S1.size a ≤ S31.size a
  inb_S31x1x512_S1x1x512_10_0_0 : ∀ a, (![10, 0, 0] : Fin 3 → Nat) a + S1x1x512.size a ≤ S31x1x512.size a
  inb_S31_S1_11 : ∀ a, (![11] : Fin 1 → Nat) a + S1.size a ≤ S31.size a
  inb_S31x1x512_S1x1x512_11_0_0 : ∀ a, (![11, 0, 0] : Fin 3 → Nat) a + S1x1x512.size a ≤ S31x1x512.size a
  inb_S31_S1_12 : ∀ a, (![12] : Fin 1 → Nat) a + S1.size a ≤ S31.size a
  inb_S31x1x512_S1x1x512_12_0_0 : ∀ a, (![12, 0, 0] : Fin 3 → Nat) a + S1x1x512.size a ≤ S31x1x512.size a
  inb_S31_S1_13 : ∀ a, (![13] : Fin 1 → Nat) a + S1.size a ≤ S31.size a
  inb_S31x1x512_S1x1x512_13_0_0 : ∀ a, (![13, 0, 0] : Fin 3 → Nat) a + S1x1x512.size a ≤ S31x1x512.size a
  inb_S31_S1_14 : ∀ a, (![14] : Fin 1 → Nat) a + S1.size a ≤ S31.size a
  inb_S31x1x512_S1x1x512_14_0_0 : ∀ a, (![14, 0, 0] : Fin 3 → Nat) a + S1x1x512.size a ≤ S31x1x512.size a
  inb_S31_S1_15 : ∀ a, (![15] : Fin 1 → Nat) a + S1.size a ≤ S31.size a
  inb_S31x1x512_S1x1x512_15_0_0 : ∀ a, (![15, 0, 0] : Fin 3 → Nat) a + S1x1x512.size a ≤ S31x1x512.size a
  inb_S31_S1_16 : ∀ a, (![16] : Fin 1 → Nat) a + S1.size a ≤ S31.size a
  inb_S31x1x512_S1x1x512_16_0_0 : ∀ a, (![16, 0, 0] : Fin 3 → Nat) a + S1x1x512.size a ≤ S31x1x512.size a
  inb_S31_S1_17 : ∀ a, (![17] : Fin 1 → Nat) a + S1.size a ≤ S31.size a
  inb_S31x1x512_S1x1x512_17_0_0 : ∀ a, (![17, 0, 0] : Fin 3 → Nat) a + S1x1x512.size a ≤ S31x1x512.size a
  inb_S31_S1_18 : ∀ a, (![18] : Fin 1 → Nat) a + S1.size a ≤ S31.size a
  inb_S31x1x512_S1x1x512_18_0_0 : ∀ a, (![18, 0, 0] : Fin 3 → Nat) a + S1x1x512.size a ≤ S31x1x512.size a
  inb_S31_S1_19 : ∀ a, (![19] : Fin 1 → Nat) a + S1.size a ≤ S31.size a
  inb_S31x1x512_S1x1x512_19_0_0 : ∀ a, (![19, 0, 0] : Fin 3 → Nat) a + S1x1x512.size a ≤ S31x1x512.size a
  inb_S31_S1_20 : ∀ a, (![20] : Fin 1 → Nat) a + S1.size a ≤ S31.size a
  inb_S31x1x512_S1x1x512_20_0_0 : ∀ a, (![20, 0, 0] : Fin 3 → Nat) a + S1x1x512.size a ≤ S31x1x512.size a
  inb_S31_S1_21 : ∀ a, (![21] : Fin 1 → Nat) a + S1.size a ≤ S31.size a
  inb_S31x1x512_S1x1x512_21_0_0 : ∀ a, (![21, 0, 0] : Fin 3 → Nat) a + S1x1x512.size a ≤ S31x1x512.size a
  inb_S31_S1_22 : ∀ a, (![22] : Fin 1 → Nat) a + S1.size a ≤ S31.size a
  inb_S31x1x512_S1x1x512_22_0_0 : ∀ a, (![22, 0, 0] : Fin 3 → Nat) a + S1x1x512.size a ≤ S31x1x512.size a
  inb_S31_S1_23 : ∀ a, (![23] : Fin 1 → Nat) a + S1.size a ≤ S31.size a
  inb_S31x1x512_S1x1x512_23_0_0 : ∀ a, (![23, 0, 0] : Fin 3 → Nat) a + S1x1x512.size a ≤ S31x1x512.size a
  inb_S31_S1_24 : ∀ a, (![24] : Fin 1 → Nat) a + S1.size a ≤ S31.size a
  inb_S31x1x512_S1x1x512_24_0_0 : ∀ a, (![24, 0, 0] : Fin 3 → Nat) a + S1x1x512.size a ≤ S31x1x512.size a
  inb_S31_S1_25 : ∀ a, (![25] : Fin 1 → Nat) a + S1.size a ≤ S31.size a
  inb_S31x1x512_S1x1x512_25_0_0 : ∀ a, (![25, 0, 0] : Fin 3 → Nat) a + S1x1x512.size a ≤ S31x1x512.size a
  inb_S31_S1_26 : ∀ a, (![26] : Fin 1 → Nat) a + S1.size a ≤ S31.size a
  inb_S31x1x512_S1x1x512_26_0_0 : ∀ a, (![26, 0, 0] : Fin 3 → Nat) a + S1x1x512.size a ≤ S31x1x512.size a
  inb_S31_S1_27 : ∀ a, (![27] : Fin 1 → Nat) a + S1.size a ≤ S31.size a
  inb_S31x1x512_S1x1x512_27_0_0 : ∀ a, (![27, 0, 0] : Fin 3 → Nat) a + S1x1x512.size a ≤ S31x1x512.size a
  inb_S31_S1_28 : ∀ a, (![28] : Fin 1 → Nat) a + S1.size a ≤ S31.size a
  inb_S31x1x512_S1x1x512_28_0_0 : ∀ a, (![28, 0, 0] : Fin 3 → Nat) a + S1x1x512.size a ≤ S31x1x512.size a
  inb_S31_S1_29 : ∀ a, (![29] : Fin 1 → Nat) a + S1.size a ≤ S31.size a
  inb_S31x1x512_S1x1x512_29_0_0 : ∀ a, (![29, 0, 0] : Fin 3 → Nat) a + S1x1x512.size a ≤ S31x1x512.size a
  inb_S31_S1_30 : ∀ a, (![30] : Fin 1 → Nat) a + S1.size a ≤ S31.size a
  inb_S31x1x512_S1x1x512_30_0_0 : ∀ a, (![30, 0, 0] : Fin 3 → Nat) a + S1x1x512.size a ≤ S31x1x512.size a
  shapeCasts_S1x512_S512 : S1x512.ShapeCasts S512
  inb_S31x1x512_S31x1x512_0_0_0 : ∀ a, (![0, 0, 0] : Fin 3 → Nat) a + S31x1x512.size a ≤ S31x1x512.size a
  h_S31x1x512 : 0 < S31x1x512.numel
  shapeCasts_S31x1x512_S31x512 : S31x1x512.ShapeCasts S31x512
  reduces_S31x512_S512 : S31x512.Reduces [0] S512
  hcc0_scratch3 : 1 + S31.numel ≤ 64
  hcc0_scratch4 : 32 + S31.numel ≤ 64
  hcc0_scratch5 : 63 + S_.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole

variable [Facts₀]

abbrev cc0_scratch3 : DmaSems sig S31 := SemArray.consecutive 1 S31 hcc0_scratch3
abbrev cc0_scratch4 : DmaSems sig S31 := SemArray.consecutive 32 S31 hcc0_scratch4
abbrev cc0_scratch5 : DmaSems sig S_ := SemArray.consecutive 63 S_ hcc0_scratch5

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x512_S512_d0 : S32768x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Spec.lean ====
/-
  The ring of 32 devices and what each device computes, as pure functions of the devices' blocks.

  Every device `c` reduces its block of 1024 rows to one row of scaled column sums (its PARTIAL: the column
  sums times 2^-15), sends that row to every other device — the device `k + 1` places after it receives it in
  row `k` of its landing buffer — and adds its own partial to the column sums of the 31 rows that landed.
  So row `k` of device `c`'s landing buffer holds the partial of the device `k + 1` places BEFORE `c`.
-/
import proofs.«900937_g7700000000000938_dist_mean_ax0_shard0_i_m1024_n512_v7x_i32_f32_1_alg».proof.Proof.Gen.KernelIdeal
import proofs.«900937_g7700000000000938_dist_mean_ax0_shard0_i_m1024_n512_v7x_i32_f32_1_alg».proof.Proof.Gen.KernelIdeal.Skeleton
import Idealize.ShloMosaic.Lib.ValueIdx

noncomputable section

namespace Cert.KernelIdeal.Mean

open Cert.KernelIdeal Cert.KernelIdeal.Gen
open Idealize.ShloMosaic

variable {F : FTy → Type} [FloatOps F]

/-- The device `k + 1` places after `c` on the ring of 32: whom `c` addresses at offset `k + 1`. -/
def dst (c : Dev nD) (k : Fin 31) : Dev nD := ⟨(c.val + k.val + 1) % 32, Nat.mod_lt _ (by decide)⟩

/-- The device `k + 1` places before `c`: the one whose offset `k + 1` addresses `c`. -/
def src (c : Dev nD) (k : Fin 31) : Dev nD := ⟨(c.val + 31 - k.val) % 32, Nat.mod_lt _ (by decide)⟩

/-- The offset that leads back: `k + 1` and `rev k + 1` add up to 32. -/
def rev (k : Fin 31) : Fin 31 := ⟨30 - k.val, by omega⟩

/-- Device `c`'s partial: the column sums of its block, times 2^-15. -/
def part (x : Dev nD → Vec F S1024x512 .f32) (c : Dev nD) : FVec F S1x512 .f32 := k0_pay2 (x c)

/-- Device `c`'s landing buffer once all 31 rows have landed: row `k` is the partial of `src c k`. -/
def recvd (x : Dev nD → Vec F S1024x512 .f32) (c : Dev nD) : Vec F S31x1x512 .f32 :=
  fun i => part x (src c (i 0)) (ValueIdx.ix2 (0 : Fin 1) (i 2))

/-- Device `c`'s result row: its own partial plus the column sums of the landed rows. -/
def outAt (x : Dev nD → Vec F S1024x512 .f32) (c : Dev nD) : FVec F S1x512 .f32 := k0_pay1 (part x c) (recvd x c)

end Cert.KernelIdeal.Mean

end
-- ==== Proof.Views.lean ====
/-
  The memory views of the kernel's scratch buffers on a device of the ring, and how the landing buffer is held by rows.

  A device's landing buffer has 31 rows of 512 words; row `k` is where the partial of the device `k + 1` places
  before it lands. Row `k` as a view is the unit-stride rectangle of the buffer at offset `(k, 0, 0)` with sizes
  `(1, 1, 512)`, indexed as a `1 × 512` array. The 31 rows are pairwise disjoint and cover the buffer, so the buffer
  held outright is its 31 rows held outright (SPLIT), and 31 rows held outright, row `k` overwritten by the source row
  `p k`, are the buffer held outright at the contents whose row `k` is `p k` (JOIN). Reading or writing a whole buffer
  through the rectangle of its own sizes at offset zero reads or writes its contents; a whole-to-whole copy leaves the
  source's contents in the destination.
-/
import proofs.«900937_g7700000000000938_dist_mean_ax0_shard0_i_m1024_n512_v7x_i32_f32_1_alg».proof.Proof.Spec
import proofs.«900937_g7700000000000938_dist_mean_ax0_shard0_i_m1024_n512_v7x_i32_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Pipeline.Value

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: two copies side by side, the staging cells' and the ring's cells' (one duty per offset `k + 1`, named `k : Fin 31`) -/

abbrev UB : Type := URounds (GSem nD τ sig) (Fin 31)
abbrev UU : Type := UR sig nD τ × UB

local notation "𝕄" => MT nD τ sig Unit (Elt F) ℕ UU ℕ

/-! ## The memrefs -/

/-- The source of all 31 remote copies: the device's row of partial sums. -/
abbrev srcM : Memref sig .tc .vmem S1x512 .f32 := Memref.whole cc0_scratch1
/-- The landing buffer, whole. -/
abbrev rcvM : Memref sig .tc .vmem S31x1x512 .f32 := Memref.whole cc0_scratch2

/-- Row `k` lies inside the landing buffer. -/
theorem row_inb (k : Fin 31) : ∀ a, (![k.val, 0, 0] : Fin 3 → Nat) a + S1x1x512.size a ≤ S31x1x512.size a := by
  intro a; fin_cases a
  · show k.val + 1 ≤ 31; omega
  · show 0 + 1 ≤ 1; omega
  · show 0 + 512 ≤ 512; omega

/-- Row `k` of the landing buffer, as a `1 × 512` array. -/
def rowM (k : Fin 31) : Memref sig .tc .vmem S1x512 .f32 :=
  (rcvM.slice (Rect.unit (s := S31x1x512) ![k.val, 0, 0] S1x1x512.size (row_inb k)) (fun _ => rfl)).squeeze S1x512 squeezes_S1x1x512_S1x512

/-- A row is a view of the landing buffer. -/
theorem rowM_loc (k : Fin 31) (c : Dev nD) : (rowM k).view.loc (c : Thread nD τ) = (c : Thread nD τ).loc cc0_scratch2 := rfl

/-- What the landing of one row pays its cell. -/
abbrev N : ℕ := (rowM 0).view.dmaCredit
theorem N_pos : 0 < N := View.dmaCredit_pos _ (by decide)
theorem row_amount (k : Fin 31) (q : DmaSem sig) : (rowM k).view.amount (.dma q) = N := rfl

/-! ## Holding rows -/

/-- Row `k` of device `c`'s landing buffer held outright at contents `f`. -/
def rowPts (c : Dev nD) (k : Fin 31) (f : Buf (Elt F) ((rowM k).view.loc (c : Thread nD τ))) : sProp 𝕄 :=
  (rowM k).view.loc (c : Thread nD τ) ↦[(rowM k).view.set]{fullShare} f

/-- A share of device `c`'s row of partial sums at contents `f`. -/
def srcPts (c : Dev nD) (q : PosShare TreeShare) (f : (cc0_scratch1 : Ref sig .tc).ty.Contents (Elt F)) : sProp 𝕄 :=
  srcM.view.loc (c : Thread nD τ) ↦[srcM.view.set]{q} f

/-- What a landing leaves in row `k`: the row overwritten by the source's contents. -/
def landRow (c : Dev nD) (k : Fin 31) (p : (cc0_scratch1 : Ref sig .tc).ty.Contents (Elt F)) : sProp 𝕄 :=
  iprop(∃ fd, rowPts c k ((rowM k).view.write (Elt F) fd (srcM.view.read (Elt F) p) Finset.univ))

/-! ## The rows' element sets: pairwise disjoint, covering the buffer -/

/-- Row `k`'s elements are the rectangle at offset `(k, 0, 0)` of sizes `(1, 1, 512)`. -/
theorem row_set (k : Fin 31) :
    ((rowM k).view.set : Finset S31x1x512.Idx) = (Rect.unit (s := S31x1x512) ![k.val, 0, 0] S1x1x512.size (row_inb k)).set := by
  exact (View.set_reshape _ _).trans (View.set_slice_whole cc0_scratch2 _)

/-- An element of the landing buffer is in row `k` exactly when its leading coordinate is `k`. -/
theorem mem_row {k : Fin 31} {i : S31x1x512.Idx} : i ∈ ((rowM k).view.set : Finset S31x1x512.Idx) ↔ (i 0).val = k.val := by
  refine (Finset.ext_iff.mp (row_set k) i).trans (Rect.mem_set_unit.trans ⟨fun h => ?_, fun h a => ?_⟩)
  · have h0 : k.val ≤ (i 0).val ∧ (i 0).val < k.val + 1 := h 0
    omega
  · fin_cases a
    · show k.val ≤ (i 0).val ∧ (i 0).val < k.val + 1
      omega
    · have h1 : (i 1).val < 1 := (i 1).isLt
      show 0 ≤ (i 1).val ∧ (i 1).val < 0 + 1
      omega
    · have h2 : (i 2).val < 512 := (i 2).isLt
      show 0 ≤ (i 2).val ∧ (i 2).val < 0 + 512
      omega

/-- Two rows share no element. -/
theorem rows_disjoint {k k' : Fin 31} (h : k ≠ k') :
    Disjoint ((rowM k).view.set : Finset S31x1x512.Idx) ((rowM k').view.set : Finset S31x1x512.Idx) :=
  Finset.disjoint_left.mpr fun i hi hi' => h (Fin.ext ((mem_row.mp hi).symm.trans (mem_row.mp hi')))

/-- Every element of the landing buffer is in a row: the one its leading coordinate names. -/
theorem rows_cover :
    (Finset.univ : Finset S31x1x512.Idx) = Finset.univ.biUnion fun k : Fin 31 => ((rowM k).view.set : Finset S31x1x512.Idx) :=
  Finset.ext fun i => ⟨fun _ => Finset.mem_biUnion.mpr ⟨i 0, Finset.mem_univ _, mem_row.mpr rfl⟩, fun _ => Finset.mem_univ i⟩

/-- The landing buffer held outright at `f` is its 31 rows held outright at `f`. -/
theorem pointsTo_rows_eq (c : Dev nD) (f : Buf (Elt F) ((c : Thread nD τ).loc cc0_scratch2)) :
    ((((c : Thread nD τ).loc cc0_scratch2) ↦{fullShare} f) : sProp 𝕄)
      = bigSep Finset.univ fun k : Fin 31 => ((c : Thread nD τ).loc cc0_scratch2) ↦[(rowM k).view.set]{fullShare} f := by
  have h := pointsTo_biUnion (Ix := Unit) (Name := ℕ) (U := UU) (Lvl := ℕ) (Val := Elt F) (ℓ := (c : Thread nD τ).loc cc0_scratch2)
    (q := fullShare) (f := f) Finset.univ (fun k : Fin 31 => (rowM k).view.set) (fun k _ k' _ hk => rows_disjoint hk)
  rw [← rows_cover] at h
  exact h

/-- SPLIT: the landing buffer held outright at some contents is its 31 rows, each held outright at some contents. -/
theorem rows_split (c : Dev nD) :
    iprop(∃ f : Buf (Elt F) ((c : Thread nD τ).loc cc0_scratch2), ((c : Thread nD τ).loc cc0_scratch2) ↦{fullShare} f)
      ⊢ (bigSep Finset.univ fun k : Fin 31 => iprop(∃ f, rowPts c k f) : sProp 𝕄) := by
  refine exists_elim fun f => ?_
  rw [pointsTo_rows_eq]
  exact bigSep_mono fun k _ => exists_intro (Φ := fun f => rowPts c k f) f

/-! ## What the landed rows hold -/

/-- Where index `x` of row `k` sits in the landing buffer: at `(k, 0, x₁)`. -/
theorem row_emb (k : Fin 31) (x : S1x512.Idx) :
    (rowM k).view.emb x = (ValueIdx.ix3 k (0 : Fin 1) (x 1) : S31x1x512.Idx) := by
  have hx0 : (x 0).val = 0 := by have h : (x 0).val < 1 := (x 0).isLt; omega
  have hre : Shape.reshapeEquiv (squeezes_S1x1x512_S1x512).numel_eq x = (ValueIdx.ix3 (0 : Fin 1) (0 : Fin 1) (x 1) : S1x1x512.Idx) := by
    apply Shape.reshapeEquiv_eq_of_rowMajor
    rw [Shape.rowMajor_val_three, Shape.rowMajor_val_two]
    show (0 * 1 + 0) * 512 + (x 1).val = (x 0).val * 512 + (x 1).val
    omega
  show (Rect.unit (s := S31x1x512) ![k.val, 0, 0] S1x1x512.size (row_inb k)).emb (Shape.reshapeEquiv (squeezes_S1x1x512_S1x512).numel_eq x) = _
  rw [hre]
  funext a
  apply Fin.ext
  rw [Rect.emb_apply]
  fin_cases a
  · show k.val + 1 * 0 = k.val; omega
  · show 0 + 1 * 0 = 0; omega
  · show 0 + 1 * (x 1).val = (x 1).val; omega

/-- A landed row reads, at each of its elements, the source row at that element's column. -/
theorem landed_apply (c : Dev nD) (k : Fin 31) (fd : Buf (Elt F) ((rowM k).view.loc (c : Thread nD τ)))
    (p : (cc0_scratch1 : Ref sig .tc).ty.Contents (Elt F)) (i : S31x1x512.Idx) (hi : i ∈ ((rowM k).view.set : Finset S31x1x512.Idx)) :
    (rowM k).view.write (Elt F) fd (srcM.view.read (Elt F) p) Finset.univ i = p (ValueIdx.ix2 (0 : Fin 1) (i 2)) := by
  obtain ⟨x, hx⟩ := View.exists_emb_of_mem_set _ hi
  have hi3 : i = ValueIdx.ix3 k (0 : Fin 1) (x 1) := hx.symm.trans (row_emb k x)
  have hw := View.write_emb_of_mem (Val := Elt F) (v := (rowM k).view) fd (srcM.view.read (Elt F) p) (M := Finset.univ)
    (Finset.mem_univ x)
  have hx0 : x = ValueIdx.ix2 (0 : Fin 1) (x 1) := by
    funext a
    fin_cases a
    · exact Fin.ext (by have h : (x 0).val < 1 := (x 0).isLt; show (x 0).val = 0; omega)
    · rfl
  have h1 : (rowM k).view.write (Elt F) fd (srcM.view.read (Elt F) p) Finset.univ i
      = (rowM k).view.write (Elt F) fd (srcM.view.read (Elt F) p) Finset.univ ((rowM k).view.emb x) :=
    congrArg (fun j => (rowM k).view.write (Elt F) fd (srcM.view.read (Elt F) p) Finset.univ j) hx.symm
  have h2 : (rowM k).view.write (Elt F) fd (srcM.view.read (Elt F) p) Finset.univ ((rowM k).view.emb x) = p x := hw
  have h3 : p x = p (ValueIdx.ix2 (0 : Fin 1) (i 2)) := by rw [hi3]; exact congrArg p hx0
  exact h1.trans (h2.trans h3)

/-- JOIN: 31 landed rows, row `k` overwritten by the source row `p k`, are the landing buffer held outright at the
    contents whose row `k` is `p k`. -/
theorem rows_join (c : Dev nD) (p : Fin 31 → (cc0_scratch1 : Ref sig .tc).ty.Contents (Elt F)) :
    (bigSep Finset.univ fun k : Fin 31 => landRow c k (p k) : sProp 𝕄)
      ⊢ (((c : Thread nD τ).loc cc0_scratch2) ↦{fullShare} (fun i : S31x1x512.Idx => p (i 0) (ValueIdx.ix2 (0 : Fin 1) (i 2)))) := by
  rw [pointsTo_rows_eq]
  refine bigSep_mono fun k _ => exists_elim fun fd => Entails.of_eq (pointsTo_congr fun (i : S31x1x512.Idx) hi => ?_)
  have hk : i 0 = k := Fin.ext (mem_row.mp hi)
  rw [landed_apply c k fd (p k) i hi, hk]

/-- JOIN at the ring's contents: row `k` overwritten by the partial of the device `k + 1` places before `c`. -/
theorem rows_join_recvd (x : Dev nD → Vec F S1024x512 .f32) (c : Dev nD) :
    (bigSep Finset.univ fun k : Fin 31 => landRow c k (part x (src c k)) : sProp 𝕄)
      ⊢ (((c : Thread nD τ).loc cc0_scratch2) ↦{fullShare} recvd x c) :=
  rows_join c fun k => part x (src c k)

/-! ## Whole buffers read, written and copied -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole block buffer reads its contents. -/
theorem read_xvmem (f : (cc0_scratch0 : Ref sig .tc).ty.Contents (Elt F)) :
    (Memref.whole cc0_scratch0 : Memref sig .tc .vmem S1024x512 .f32).view.readAt (Elt F)
      (Rect.unit (s := S1024x512) ![0, 0] S1024x512.size inb_S1024x512_S1024x512_0_0).toLoadRect f = f :=
  Memref.readAt_unit_zero (Elt F) cc0_scratch0 hz2 _ f

/-- A load of the whole row of partial sums reads its contents. -/
theorem read_src (f : (cc0_scratch1 : Ref sig .tc).ty.Contents (Elt F)) :
    srcM.view.readAt (Elt F) (Rect.unit (s := S1x512) ![0, 0] S1x512.size inb_S1x512_S1x512_0_0).toLoadRect f = f :=
  Memref.readAt_unit_zero (Elt F) cc0_scratch1 hz2 _ f

/-- A load of the whole landing buffer reads its contents. -/
theorem read_rcv (f : (cc0_scratch2 : Ref sig .tc).ty.Contents (Elt F)) :
    rcvM.view.readAt (Elt F) (Rect.unit (s := S31x1x512) ![0, 0, 0] S31x1x512.size inb_S31x1x512_S31x1x512_0_0_0).toLoadRect f = f :=
  Memref.readAt_unit_zero (Elt F) cc0_scratch2 hz3 _ f

/-- An unmasked store through the whole row of partial sums leaves the payload. -/
theorem write_src (f w : (cc0_scratch1 : Ref sig .tc).ty.Contents (Elt F)) :
    (srcM.access (Rect.unit (s := S1x512) ![0, 0] S1x512.size inb_S1x512_S1x512_0_0) : View sig .tc _ _ _).write (Elt F) f w Finset.univ = w :=
  Memref.write_access_unit_zero_univ (Elt F) cc0_scratch1 hz2 _ f w

/-- An unmasked store through the whole staging buffer of the result leaves the payload. -/
theorem write_out (f w : (cc0_stg0_0 : Ref sig .tc).ty.Contents (Elt F)) :
    ((Memref.whole cc0_stg0_0 : Memref sig .tc .vmem S1x512 .f32).access
      (Rect.unit (s := S1x512) ![0, 0] S1x512.size inb_S1x512_S1x512_0_0) : View sig .tc _ _ _).write (Elt F) f w Finset.univ = w :=
  Memref.write_access_unit_zero_univ (Elt F) cc0_stg0_0 hz2 _ f w

/-- The local copy of the device's block into its block buffer, whole to whole, leaves the block there. -/
theorem copy_whole (c : Dev nD) (fd : Buf (Elt F) ((c : Thread nD τ).loc cc0_scratch0)) (fs : Buf (Elt F) ((c : Thread nD τ).loc main_arg0)) :
    (Memref.whole cc0_scratch0 : Memref sig .tc .vmem S1024x512 .f32).view.write (Elt F) fd
      ((Memref.whole main_arg0 : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-- info: 'Cert.KernelIdeal.Mean.rows_split' depends on axioms: [propext, Classical.choice, Quot.sound] -/
#guard_msgs in #print axioms rows_split

/-- info: 'Cert.KernelIdeal.Mean.rows_join_recvd' depends on axioms: [propext, Classical.choice, Quot.sound] -/
#guard_msgs in #print axioms rows_join_recvd

/-- info: 'Cert.KernelIdeal.Mean.copy_whole' depends on axioms: [propext, Classical.choice, Quot.sound] -/
#guard_msgs in #print axioms copy_whole

end Cert.KernelIdeal.Mean

end
-- ==== Proof.Sched.lean ====
/-
  The protocol of the all-to-all mean on the ring of 32, as a schedule of rounds.

  Every device has one barrier cell, 31 send cells, 31 receive cells and one cell for its local copy; each has
  one round. A device's barrier cell has 31 duties of one unit each: duty `j` is paid by the device `j + 1` places
  before it, which thereby hands over row `rev j` of ITS OWN landing buffer (the row this device's transfer at
  offset `rev j + 1` will write) and the fact that the receive cell of that row is at round 0. Send cell `k` has one
  duty, paid by the device's own transfer `k`; it gives back share `k` of the 31 shares the source row was cut into.
  Receive cell `k` has one duty, paid by the transfer of the device `k + 1` places before; it hands the landing row
  `k` overwritten with that device's partial. The copy cell's one duty is the local copy of the block into VMEM.
  Levels: a barrier cell lies below every receive cell, every other cell below both, so each wait happens while
  only higher cells are owed.
-/
import proofs.«900937_g7700000000000938_dist_mean_ax0_shard0_i_m1024_n512_v7x_i32_f32_1_alg».proof.Proof.Views
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The devices' blocks as launched. -/
def xs : Dev nD → Vec F S1024x512 .f32 := fun c => m ((c : Thread nD τ).loc main_arg0)

/-! ## The cells -/

abbrev barS : Sem sig := (SemArray.scalar (sig.barrier 0 rfl) : Sems sig S_).sem
def sendQ (k : Fin 31) : DmaSem sig := ⟨1 + k.val, Nat.lt_of_lt_of_le (Nat.add_lt_add_left k.isLt 1) (by decide)⟩
def recvQ (k : Fin 31) : DmaSem sig := ⟨32 + k.val, Nat.lt_of_lt_of_le (Nat.add_lt_add_left k.isLt 32) (by decide)⟩
abbrev copyQ : DmaSem sig := (cc0_scratch5 : DmaSems sig S_).sem

abbrev barCell (c : Dev nD) : GSem nD τ sig := ((c : Thread nD τ), .reg barS)
abbrev sendCell (c : Dev nD) (k : Fin 31) : GSem nD τ sig := ((c : Thread nD τ), .dma (sendQ k))
abbrev recvCell (c : Dev nD) (k : Fin 31) : GSem nD τ sig := ((c : Thread nD τ), .dma (recvQ k))
abbrev copyCell (c : Dev nD) : GSem nD τ sig := ((c : Thread nD τ), .dma copyQ)

/-- What a semaphore is in the protocol. -/
inductive Role where
  | bar | send (k : Fin 31) | recv (k : Fin 31) | copy | none
deriving DecidableEq

def roleOf : SemLoc sig → Role
  | .reg s => if s = barS then .bar else .none
  | .dma q =>
    if h : 1 ≤ q.val ∧ q.val ≤ 31 then .send ⟨q.val - 1, by omega⟩
    else if h : 32 ≤ q.val ∧ q.val ≤ 62 then .recv ⟨q.val - 32, by omega⟩
    else if q.val = 63 then .copy else .none

omit [FloatOps F] in
theorem role_bar : roleOf (.reg barS) = .bar := by
  show (if (barS : Sem sig) = barS then Role.bar else Role.none) = Role.bar
  exact if_pos rfl
omit [FloatOps F] in
theorem role_send (k : Fin 31) : roleOf (.dma (sendQ k)) = .send k := by
  have hk := k.isLt
  show (if h : 1 ≤ (sendQ k).val ∧ (sendQ k).val ≤ 31 then Role.send ⟨(sendQ k).val - 1, by omega⟩
    else if h : 32 ≤ (sendQ k).val ∧ (sendQ k).val ≤ 62 then Role.recv ⟨(sendQ k).val - 32, by omega⟩
    else if (sendQ k).val = 63 then Role.copy else Role.none) = Role.send k
  have hv : (sendQ k).val = 1 + k.val := rfl
  rw [dif_pos ⟨by omega, by omega⟩]
  exact congrArg Role.send (Fin.ext (by show (sendQ k).val - 1 = k.val; omega))
omit [FloatOps F] in
theorem role_recv (k : Fin 31) : roleOf (.dma (recvQ k)) = .recv k := by
  have hk := k.isLt
  show (if h : 1 ≤ (recvQ k).val ∧ (recvQ k).val ≤ 31 then Role.send ⟨(recvQ k).val - 1, by omega⟩
    else if h : 32 ≤ (recvQ k).val ∧ (recvQ k).val ≤ 62 then Role.recv ⟨(recvQ k).val - 32, by omega⟩
    else if (recvQ k).val = 63 then Role.copy else Role.none) = Role.recv k
  have hv : (recvQ k).val = 32 + k.val := rfl
  rw [dif_neg (fun h => by omega), dif_pos ⟨by omega, by omega⟩]
  exact congrArg Role.recv (Fin.ext (by show (recvQ k).val - 32 = k.val; omega))
omit [FloatOps F] in
theorem role_copy : roleOf (.dma copyQ) = .copy := by decide

/-- The credit of the local copy of a block. -/
def NX : ℕ := (Memref.whole cc0_scratch0 : Memref sig .tc .vmem S1024x512 .f32).view.dmaCredit
omit [FloatOps F] in
theorem NX_pos : 0 < NX := by unfold NX; exact View.dmaCredit_pos _ (by decide)

/-! ## The payloads -/

/-- Duty `j` of device `c`'s barrier cell: the payer `dst c (rev j)` hands over row `rev j` of its landing buffer and
    that its receive cell of that row is at round 0. -/
def barPay (c : Dev nD) (j : Fin 31) : sProp 𝕄 :=
  iprop((∃ f, rowPts (F := F) (dst c (rev j)) (rev j) f) ∗ reached ER (recvCell (dst c (rev j)) (rev j)) 0)
/-- Send cell `k` gives back share `k` of the source row. -/
def sendPay (c : Dev nD) (k : Fin 31) : sProp 𝕄 := srcPts c (shareTok fullShare 31 k) (part (xs m) c)
/-- Receive cell `k` hands row `k` holding the partial of the device `k + 1` places before. -/
def recvPay (c : Dev nD) (k : Fin 31) : sProp 𝕄 := landRow c k (part (xs m) (src c k))
/-- The copy cell hands the block in VMEM and the block's array back. -/
def copyPay (c : Dev nD) : sProp 𝕄 :=
  iprop((((c : Thread nD τ).loc cc0_scratch0) ↦{fullShare} (xs m c : Buf (Elt F) ((c : Thread nD τ).loc cc0_scratch0)))
    ∗ (((c : Thread nD τ).loc main_arg0) ↦{fullShare} m ((c : Thread nD τ).loc main_arg0)))

/-! ## The schedule -/

def rd : Rounds.Schedule (GSem nD τ sig) (Fin 31) 𝕄 where
  duties g r :=
    if r = 0 ∧ g.1.2 = .tc then
      (match roleOf g.2 with | .bar => Finset.univ | .send _ => {0} | .recv _ => {0} | .copy => {0} | .none => ∅)
    else ∅
  amount g _ _ := match roleOf g.2 with | .bar => 1 | .send _ => N | .recv _ => N | .copy => NX | .none => 1
  payload g _ d := match roleOf g.2 with
    | .bar => barPay g.1.1 d
    | .send k => sendPay m g.1.1 k
    | .recv k => recvPay m g.1.1 k
    | .copy => copyPay m g.1.1
    | .none => iprop(emp)
  amount_pos g _ _ _ := by
    cases roleOf g.2 <;> first | exact Nat.one_pos | exact N_pos | exact NX_pos

end Cert.KernelIdeal.Mean

end
-- ==== Proof.Ring.lean ====
/-
  The arithmetic of the ring of 32 devices.

  Device `c` addresses, at offset `k + 1` (`k = 0, …, 30`), the device `dst c k = (c + k + 1) mod 32`; the device
  that addresses `c` at that offset is `src c k = (c + 31 - k) mod 32`.  Since `(k + 1) + (rev k + 1) = 32`,
  going `k + 1` places forward is going `rev k + 1` places backward, so `dst` and `src` are inverse to each
  other in the device, exchange under `rev` in the offset, never fix a device, and are injective in each
  argument.  For a fixed `c` the 31 devices `src c k` are exactly the devices other than `c`; hence a sum over
  all 32 devices is the term at `c` plus the sum over the offsets of the terms at `src c k`.
-/
import proofs.«900937_g7700000000000938_dist_mean_ax0_shard0_i_m1024_n512_v7x_i32_f32_1_alg».proof.Proof.Spec
import Mathlib.Algebra.BigOperators.Group.Finset.Basic
import Mathlib.Data.Fintype.Basic
import Mathlib.Logic.Equiv.Defs

noncomputable section

namespace Cert.KernelIdeal.Mean

open Cert.KernelIdeal Idealize.ShloMosaic

/-! ## The values of `dst`, `src`, `rev` as natural numbers -/

theorem dst_val (c : Dev nD) (k : Fin 31) : (dst c k).val = (c.val + k.val + 1) % 32 := rfl

theorem src_val (c : Dev nD) (k : Fin 31) : (src c k).val = (c.val + 31 - k.val) % 32 := rfl

theorem rev_val (k : Fin 31) : (rev k).val = 30 - k.val := rfl

/-- A device's number is below 32. -/
theorem dev_lt (c : Dev nD) : c.val < 32 := c.isLt

/-! ## `dst` and `src` undo each other; `rev` exchanges them -/

/-- Going `k + 1` places back and then `k + 1` places forward returns to `c`. -/
theorem dst_src (c : Dev nD) (k : Fin 31) : dst (src c k) k = c := by
  have hc := dev_lt c
  have hk := k.isLt
  apply Fin.ext
  rw [dst_val, src_val]
  omega

/-- Going `k + 1` places forward and then `k + 1` places back returns to `c`. -/
theorem src_dst (c : Dev nD) (k : Fin 31) : src (dst c k) k = c := by
  have hc := dev_lt c
  have hk := k.isLt
  apply Fin.ext
  rw [src_val, dst_val]
  omega

/-- `30 - (30 - k) = k` for `k ≤ 30`. -/
theorem rev_rev (k : Fin 31) : rev (rev k) = k := by
  have hk := k.isLt
  apply Fin.ext
  rw [rev_val, rev_val]
  omega

/-- `k + 1` places forward is `32 - (k + 1) = (30 - k) + 1` places back. -/
theorem dst_eq_src_rev (c : Dev nD) (k : Fin 31) : dst c k = src c (rev k) := by
  have hc := dev_lt c
  have hk := k.isLt
  apply Fin.ext
  rw [dst_val, src_val, rev_val]
  omega

/-- `k + 1` places back is `(30 - k) + 1` places forward. -/
theorem src_eq_dst_rev (c : Dev nD) (k : Fin 31) : src c k = dst c (rev k) := by
  rw [dst_eq_src_rev, rev_rev]

/-- `(k + 1) + (rev k + 1) = 32` places forward is a full turn. -/
theorem dst_dst_rev (c : Dev nD) (k : Fin 31) : dst (dst c k) (rev k) = c := by
  rw [dst_eq_src_rev (dst c k) (rev k), rev_rev, src_dst]

/-- `32` places back is a full turn. -/
theorem src_src_rev (c : Dev nD) (k : Fin 31) : src (src c k) (rev k) = c := by
  rw [src_eq_dst_rev (src c k) (rev k), rev_rev, dst_src]

/-! ## No offset `1, …, 31` fixes a device -/

theorem dst_ne_self (c : Dev nD) (k : Fin 31) : dst c k ≠ c := by
  have hc := dev_lt c
  have hk := k.isLt
  intro h
  have hv := congrArg Fin.val h
  rw [dst_val] at hv
  omega

theorem src_ne_self (c : Dev nD) (k : Fin 31) : src c k ≠ c := by
  intro h
  have h2 := dst_src c k
  rw [h] at h2
  exact dst_ne_self c k h2

/-! ## Injectivity in the offset and in the device -/

/-- Distinct offsets below 32 lead to distinct devices. -/
theorem dst_inj (c : Dev nD) : Function.Injective (dst c) := by
  intro k k' h
  have hc := dev_lt c
  have hk := k.isLt
  have hk' := k'.isLt
  have hv := congrArg Fin.val h
  rw [dst_val, dst_val] at hv
  apply Fin.ext
  omega

theorem src_inj (c : Dev nD) : Function.Injective (src c) := by
  intro k k' h
  have hc := dev_lt c
  have hk := k.isLt
  have hk' := k'.isLt
  have hv := congrArg Fin.val h
  rw [src_val, src_val] at hv
  apply Fin.ext
  omega

/-- A rotation of the ring is injective: it has the opposite rotation as a left inverse. -/
theorem dst_inj_left (k : Fin 31) : Function.Injective (fun c => dst c k) := by
  intro c c' h
  have h2 := congrArg (fun d => src d k) h
  simpa only [src_dst] using h2

theorem src_inj_left (k : Fin 31) : Function.Injective (fun c => src c k) := by
  intro c c' h
  have h2 := congrArg (fun d => dst d k) h
  simpa only [dst_src] using h2

/-- The rotation by `k + 1` places as a permutation of the devices; its inverse is the rotation back. -/
def dstEquiv (k : Fin 31) : Dev nD ≃ Dev nD where
  toFun := fun c => dst c k
  invFun := fun c => src c k
  left_inv := fun c => src_dst c k
  right_inv := fun c => dst_src c k

/-! ## The 31 devices `src c k` are the devices other than `c` -/

/-- A device `d ≠ c` lies `k + 1` places before `c` for `k = (c + 31 - d) mod 32`, which is below 31
since `c - d` is not a multiple of 32. -/
theorem exists_src_of_ne {c d : Dev nD} (h : d ≠ c) : ∃ k : Fin 31, src c k = d := by
  have hc := dev_lt c
  have hd := dev_lt d
  have hne : d.val ≠ c.val := fun e => h (Fin.ext e)
  refine ⟨⟨(c.val + 31 - d.val) % 32, by omega⟩, ?_⟩
  apply Fin.ext
  rw [src_val]
  show (c.val + 31 - (c.val + 31 - d.val) % 32) % 32 = d.val
  omega

/-- A sum over all devices: the term at `c`, plus the terms at the 31 devices before `c`. -/
theorem sum_all_devices {M : Type} [AddCommMonoid M] (f : Dev nD → M) (c : Dev nD) :
    ∑ d : Dev nD, f d = f c + ∑ k : Fin 31, f (src c k) := by
  have himg : (Finset.univ : Finset (Fin 31)).image (src c) = (Finset.univ : Finset (Dev nD)).erase c := by
    ext d
    simp only [Finset.mem_image, Finset.mem_univ, true_and, Finset.mem_erase, and_true]
    constructor
    · rintro ⟨k, rfl⟩
      exact src_ne_self c k
    · intro hd
      exact exists_src_of_ne hd
  rw [← Finset.add_sum_erase Finset.univ f (Finset.mem_univ c), ← himg,
    Finset.sum_image (fun a _ b _ hab => src_inj c hab)]

end Cert.KernelIdeal.Mean

end
-- ==== Proof.Ghost.lean ====
/-
  The ghost state of the protocol: every cell of a device under one index, what a device owes at launch, the
  levels that order the waits, and what the launch deals each device.

  A device's 64 cells are indexed 0 (barrier), 1 + k (send cell k), 32 + k (receive cell k), 63 (copy). At launch a
  device owes one unit to the barrier cell of each of the 31 others and a row's credit to receive cell `k` of the
  device `k + 1` places after it, for every `k`. A barrier cell has level 1, a receive cell level 2, every other
  cell level 0: the copy wait and the staging waits (level 0) and the barrier wait (level 1) happen while only
  cells of a higher level are owed; the send and receive waits happen when nothing is owed.
-/
import proofs.«900937_g7700000000000938_dist_mean_ax0_shard0_i_m1024_n512_v7x_i32_f32_1_alg».proof.Proof.Sched
import proofs.«900937_g7700000000000938_dist_mean_ax0_shard0_i_m1024_n512_v7x_i32_f32_1_alg».proof.Proof.Ring

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-! ## Every cell of a device under one index -/

def csem (j : Fin 64) : SemLoc sig := if j.val = 0 then .reg barS else .dma ⟨j.val, j.isLt⟩
abbrev kcell (cj : Dev nD × Fin 64) : GSem nD τ sig := ((cj.1 : Thread nD τ), csem cj.2)
def jS (k : Fin 31) : Fin 64 := ⟨1 + k.val, by omega⟩
def jR (k : Fin 31) : Fin 64 := ⟨32 + k.val, by omega⟩

omit [FloatOps F] in
theorem csem_zero : csem 0 = .reg barS := if_pos rfl
omit [FloatOps F] in
theorem csem_jS (k : Fin 31) : csem (jS k) = .dma (sendQ k) := by
  unfold csem jS; rw [if_neg (by simp only; omega)]; rfl
omit [FloatOps F] in
theorem csem_jR (k : Fin 31) : csem (jR k) = .dma (recvQ k) := by
  unfold csem jR; rw [if_neg (by simp only; omega)]; rfl
omit [FloatOps F] in
theorem csem_copy : csem 63 = .dma copyQ := by decide
omit [FloatOps F] in
theorem kcell_bar (c : Dev nD) : kcell (c, 0) = barCell c := Prod.ext rfl csem_zero
omit [FloatOps F] in
theorem kcell_send (c : Dev nD) (k : Fin 31) : kcell (c, jS k) = sendCell c k := Prod.ext rfl (csem_jS k)
omit [FloatOps F] in
theorem kcell_recv (c : Dev nD) (k : Fin 31) : kcell (c, jR k) = recvCell c k := Prod.ext rfl (csem_jR k)
omit [FloatOps F] in
theorem kcell_copy (c : Dev nD) : kcell (c, 63) = copyCell c := Prod.ext rfl csem_copy

omit [FloatOps F] in
theorem csem_injective : Function.Injective csem := by
  intro i j h
  unfold csem at h
  by_cases hi : i.val = 0 <;> by_cases hj : j.val = 0
  · exact Fin.ext (hi.trans hj.symm)
  · rw [if_pos hi, if_neg hj] at h; cases h
  · rw [if_neg hi, if_pos hj] at h; cases h
  · rw [if_neg hi, if_neg hj] at h
    exact Fin.ext (congrArg (fun q : DmaSem sig => q.val) (SemLoc.dma.inj h))

omit [FloatOps F] in
theorem kcell_injective : Function.Injective (kcell : Dev nD × Fin 64 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-! ## What a device owes, peeled offset by offset -/

/-- The 31 offsets in the kernel's order. -/
def all31 : List (Fin 31) := [0, 1, 2, 3, 4, 5, 6, 7, 8, 9, 10, 11, 12, 13, 14, 15, 16, 17, 18, 19, 20, 21, 22, 23, 24, 25, 26, 27, 28, 29, 30]

/-- One unit to the barrier cell of each device still to be signalled. -/
def owedB (c : Dev nD) : List (Fin 31) → CellTallies nD τ sig Unit
  | [] => 0
  | k :: ks => owedB c ks + tallyAt (barCell (dst c k)) () 1
/-- A row's credit to receive cell `k` of each device still to be sent to. -/
def owedR (c : Dev nD) : List (Fin 31) → CellTallies nD τ sig Unit
  | [] => 0
  | k :: ks => owedR c ks + tallyAt (recvCell (dst c k) k) () N

def O₀ (c : Dev nD) : CellTallies nD τ sig Unit := owedR c all31 + owedB c all31

/-! ## The levels -/

def L (g : GSem nD τ sig) : Finset Unit := if g.1.2 = .tc then {()} else ∅
def lv (g : GSem nD τ sig) (_ : Unit) : ℕ := match roleOf g.2 with | .bar => 1 | .recv _ => 2 | _ => 0

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem lv_bar (c : Dev nD) (u : Unit) : lv (barCell c) u = 1 := by unfold lv; rw [role_bar]
omit [FloatOps F] in
theorem lv_recv (c : Dev nD) (k : Fin 31) (u : Unit) : lv (recvCell c k) u = 2 := by unfold lv; rw [role_recv]
omit [FloatOps F] in
theorem lv_send (c : Dev nD) (k : Fin 31) (u : Unit) : lv (sendCell c k) u = 0 := by unfold lv; rw [role_send]
omit [FloatOps F] in
theorem lv_copy (c : Dev nD) (u : Unit) : lv (copyCell c) u = 0 := by unfold lv; rw [role_copy]

/-! ## The ghost state -/

/-- Every cell's invariant, at the names the launch allocated them, and that round 0 of each is reached: persistent. -/
def records (K : Dev nD × Fin 64 → ℕ) : sProp 𝕄 :=
  iprop((bigSep Finset.univ fun cj : Dev nD × Fin 64 => cellInv ER (rd m) (K cj) (kcell cj))
    ∗ bigSep Finset.univ fun cj : Dev nD × Fin 64 => reached ER (kcell cj) 0)

instance records_persistent (K : Dev nD × Fin 64 → ℕ) : BI.Persistent (records m K) := by unfold records; infer_instance

/-- The tokens of the duties device `c` pays: per offset its unit on the addressed device's barrier cell, the landing
    on that device's receive cell, its own send cell; and its copy cell. -/
def payToks (c : Dev nD) : sProp 𝕄 :=
  iprop((bigSep Finset.univ fun k : Fin 31 =>
      iprop(dutyTok ER (barCell (dst c k)) 0 k ∗ dutyTok ER (recvCell (dst c k) k) 0 0 ∗ dutyTok ER (sendCell c k) 0 0))
    ∗ dutyTok ER (copyCell c) 0 0)

/-- Device `c` at round 0 of each of its 64 cells. -/
def positions (c : Dev nD) : sProp 𝕄 := bigSep Finset.univ fun j : Fin 64 => atPos ER (kcell (c, j)) 0 ∅ 0

def ghost (K : Dev nD × Fin 64 → ℕ) (c : Dev nD) : sProp 𝕄 := iprop(records m K ∗ positions c ∗ payToks c)

/-- Every token of a device's own cells as minted: cell index and duty name. -/
def toks (c : Dev nD) : sProp 𝕄 := bigSep Finset.univ fun jd : Fin 64 × Fin 31 => dutyTok ER (kcell (c, jd.1)) 0 jd.2

/-- What the launch element deals device `c`. -/
def G (c : Dev nD) : sProp 𝕄 :=
  iprop((bigSep Finset.univ fun j : Fin 64 => roundState ER (rd m) (kcell (c, j)) 0)
    ∗ (bigSep Finset.univ fun j : Fin 64 => iprop(atPos ER (kcell (c, j)) 0 ∅ 0 ∗ reached ER (kcell (c, j)) 0)) ∗ toks c)

/-- What the global step makes of it. -/
def G' (c : Dev nD) : sProp 𝕄 := iprop(∃ K, ghost m K c)

/-- The cells and tokens of the launch element. -/
def ringCells : Finset (GSem nD τ sig) := Finset.univ.map ⟨kcell, kcell_injective⟩
abbrev tokOf (x : Dev nD × Fin 64 × Fin 31) : GSem nD τ sig × ℕ × Fin 31 := (kcell (x.1, x.2.1), 0, x.2.2)
omit [FloatOps F] in
theorem tokOf_injective : Function.Injective (tokOf : Dev nD × Fin 64 × Fin 31 → GSem nD τ sig × ℕ × Fin 31) := by
  rintro ⟨c, j, d⟩ ⟨c', j', d'⟩ h
  have h1 := kcell_injective (congrArg (fun x : GSem nD τ sig × ℕ × Fin 31 => x.1) h)
  have h2 : d = d' := congrArg (fun x : GSem nD τ sig × ℕ × Fin 31 => x.2.2) h
  cases h1; cases h2; rfl
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The kernel's own (scoped) semaphores: DMA semaphores 1 to 63. -/
abbrev osem : Fin 63 → SemLoc sig := fun i => .dma ⟨i.val + 1, Nat.lt_of_lt_of_le (Nat.add_lt_add_right i.isLt 1) (by decide)⟩

end Cert.KernelIdeal.Mean

end
-- ==== Proof.Tables.lean ====
/-
  The schedule read cell by cell: which duties, amounts and payloads each kind of cell has at round 0, what a whole
  round expects (31 units on a barrier cell, one row's credit on a send or receive cell, a block's credit on the
  copy cell), and that no cell has a duty after round 0.
-/
import proofs.«900937_g7700000000000938_dist_mean_ax0_shard0_i_m1024_n512_v7x_i32_f32_1_alg».proof.Proof.Ghost

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

section Tables
variable (c : Dev nD) (k : Fin 31)

theorem duties_bar : (rd m).duties (barCell c) 0 = Finset.univ := by
  dsimp only [rd]; rw [if_pos ⟨rfl, rfl⟩, role_bar]
theorem duties_send : (rd m).duties (sendCell c k) 0 = {0} := by
  dsimp only [rd]; rw [if_pos ⟨rfl, rfl⟩, role_send]
theorem duties_recv : (rd m).duties (recvCell c k) 0 = {0} := by
  dsimp only [rd]; rw [if_pos ⟨rfl, rfl⟩, role_recv]
theorem duties_copy : (rd m).duties (copyCell c) 0 = {0} := by
  dsimp only [rd]; rw [if_pos ⟨rfl, rfl⟩, role_copy]
theorem duties_later (g : GSem nD τ sig) : ∀ r, 1 ≤ r → (rd m).duties g r = ∅ :=
  fun r hr => by dsimp only [rd]; rw [if_neg fun h => by omega]

theorem amount_bar (d : Fin 31) : (rd m).amount (barCell c) 0 d = 1 := by dsimp only [rd]; rw [role_bar]
theorem amount_send (d : Fin 31) : (rd m).amount (sendCell c k) 0 d = N := by dsimp only [rd]; rw [role_send]
theorem amount_recv (d : Fin 31) : (rd m).amount (recvCell c k) 0 d = N := by dsimp only [rd]; rw [role_recv]
theorem amount_copy (d : Fin 31) : (rd m).amount (copyCell c) 0 d = NX := by dsimp only [rd]; rw [role_copy]

theorem payload_bar (d : Fin 31) : (rd m).payload (barCell c) 0 d = barPay c d := by dsimp only [rd]; rw [role_bar]
theorem payload_send (d : Fin 31) : (rd m).payload (sendCell c k) 0 d = sendPay m c k := by dsimp only [rd]; rw [role_send]
theorem payload_recv (d : Fin 31) : (rd m).payload (recvCell c k) 0 d = recvPay m c k := by dsimp only [rd]; rw [role_recv]
theorem payload_copy (d : Fin 31) : (rd m).payload (copyCell c) 0 d = copyPay m c := by dsimp only [rd]; rw [role_copy]

theorem expect_bar : (rd m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (rd m).expect (sendCell c k) 0 = N := by
  show ∑ d ∈ (rd m).duties (sendCell c k) 0, (rd m).amount (sendCell c k) 0 d = N
  rw [duties_send]; exact (Finset.sum_singleton _ _).trans (amount_send m c k 0)
theorem expect_recv : (rd m).expect (recvCell c k) 0 = N := by
  show ∑ d ∈ (rd m).duties (recvCell c k) 0, (rd m).amount (recvCell c k) 0 d = N
  rw [duties_recv]; exact (Finset.sum_singleton _ _).trans (amount_recv m c k 0)
theorem expect_copy : (rd m).expect (copyCell c) 0 = NX := by
  show ∑ d ∈ (rd m).duties (copyCell c) 0, (rd m).amount (copyCell c) 0 d = NX
  rw [duties_copy]; exact (Finset.sum_singleton _ _).trans (amount_copy m c 0)

/-- The rest of a one-duty round, no duty taken, is the duty's payload. -/
theorem rest_send : bigSep ((rd m).duties (sendCell c k) 0 \ ∅) (fun d => (rd m).payload (sendCell c k) 0 d) = sendPay m c k := by
  rw [Finset.sdiff_empty, duties_send, bigSep_singleton, payload_send]
theorem rest_recv : bigSep ((rd m).duties (recvCell c k) 0 \ ∅) (fun d => (rd m).payload (recvCell c k) 0 d) = recvPay m c k := by
  rw [Finset.sdiff_empty, duties_recv, bigSep_singleton, payload_recv]
theorem rest_copy : bigSep ((rd m).duties (copyCell c) 0 \ ∅) (fun d => (rd m).payload (copyCell c) 0 d) = copyPay m c := by
  rw [Finset.sdiff_empty, duties_copy, bigSep_singleton, payload_copy]
/-- The rest of the barrier cell's round is all 31 payloads. -/
theorem rest_bar : bigSep ((rd m).duties (barCell c) 0 \ ∅) (fun d => (rd m).payload (barCell c) 0 d) = bigSep Finset.univ (fun d : Fin 31 => barPay (F := F) c d) := by
  rw [Finset.sdiff_empty, duties_bar]
  exact bigSep_congr fun d _ => payload_bar m c d

end Tables

/-! ## The records read at a cell -/

variable (K : Dev nD × Fin 64 → ℕ)

theorem rec_inv (cj : Dev nD × Fin 64) : records m K ⊢ cellInv ER (rd m) (K cj) (kcell cj) := by
  unfold records
  iintro ⟨H, -⟩
  iapply (show (bigSep Finset.univ fun cj : Dev nD × Fin 64 => (cellInv ER (rd m) (K cj) (kcell cj) : sProp 𝕄)) ⊢ cellInv ER (rd m) (K cj) (kcell cj)
    from bigSep_elim (Finset.mem_univ cj))
  iexact H
theorem rec_reached (cj : Dev nD × Fin 64) : records m K ⊢ (reached ER (kcell cj) 0 : sProp 𝕄) := by
  unfold records
  iintro ⟨-, H⟩
  iapply (show (bigSep Finset.univ fun cj : Dev nD × Fin 64 => (reached ER (kcell cj) 0 : sProp 𝕄)) ⊢ reached ER (kcell cj) 0
    from bigSep_elim (Finset.mem_univ cj))
  iexact H

theorem inv_bar (c : Dev nD) : records m K ⊢ cellInv ER (rd m) (K (c, 0)) (barCell c) := (rec_inv m K (c, 0)).trans (Entails.of_eq (by rw [kcell_bar]))
theorem inv_send (c : Dev nD) (k : Fin 31) : records m K ⊢ cellInv ER (rd m) (K (c, jS k)) (sendCell c k) := (rec_inv m K (c, jS k)).trans (Entails.of_eq (by rw [kcell_send]))
theorem inv_recv (c : Dev nD) (k : Fin 31) : records m K ⊢ cellInv ER (rd m) (K (c, jR k)) (recvCell c k) := (rec_inv m K (c, jR k)).trans (Entails.of_eq (by rw [kcell_recv]))
theorem inv_copy (c : Dev nD) : records m K ⊢ cellInv ER (rd m) (K (c, 63)) (copyCell c) := (rec_inv m K (c, 63)).trans (Entails.of_eq (by rw [kcell_copy]))
theorem reached_bar (c : Dev nD) : records m K ⊢ (reached ER (barCell c) 0 : sProp 𝕄) := (rec_reached m K (c, 0)).trans (Entails.of_eq (by rw [kcell_bar]))
theorem reached_send (c : Dev nD) (k : Fin 31) : records m K ⊢ (reached ER (sendCell c k) 0 : sProp 𝕄) := (rec_reached m K (c, jS k)).trans (Entails.of_eq (by rw [kcell_send]))
theorem reached_recv (c : Dev nD) (k : Fin 31) : records m K ⊢ (reached ER (recvCell c k) 0 : sProp 𝕄) := (rec_reached m K (c, jR k)).trans (Entails.of_eq (by rw [kcell_recv]))
theorem reached_copy (c : Dev nD) : records m K ⊢ (reached ER (copyCell c) 0 : sProp 𝕄) := (rec_reached m K (c, 63)).trans (Entails.of_eq (by rw [kcell_copy]))

end Cert.KernelIdeal.Mean

end
-- ==== Proof.Steps.lean ====
/-
  One step of the protocol at a symbolic device `c` and offset `k`, as a rule for the effect that makes it: the
  signal to the device `k + 1` places after `c` (which hands that device row `rev k` of `c`'s landing buffer), the
  local copy of the block, the transfer of the partial to row `k` of that device, and the waits: on the barrier
  cell for all 31 units (which brings the 31 rows `c` may write), on the copy cell, on receive cell `k` (which brings
  row `k` holding the partial of the device `k + 1` places before) and on send cell `k` (which brings share `k` of the
  source row back). A wait on one of the device's own cells also closes the cell: its counter is back at zero.
-/
import proofs.«900937_g7700000000000938_dist_mean_ax0_shard0_i_m1024_n512_v7x_i32_f32_1_alg».proof.Proof.Tables

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

abbrev 𝒱₀ : Variants := Variants.none

omit [FloatOps F] in
/-- A list's head split off, in the separating conjunction's own spelling. -/
theorem bigSepL_cons' {I : Type} (i : I) (l : List I) (Φ : I → sProp 𝕄) : bigSepL (i :: l) Φ = iprop(Φ i ∗ bigSepL l Φ) :=
  bigSepL_cons i l Φ

/-- What the signal at offset `k + 1` pays with: the duty's token and row `rev k` of the device's own landing buffer. -/
def sigRes (c : Dev nD) (k : Fin 31) : sProp 𝕄 :=
  iprop(dutyTok ER (barCell (dst c k)) 0 k ∗ ∃ f, rowPts (F := F) c (rev k) f)

/-- What the transfer at offset `k + 1` pays with: both duties' tokens, share `k` of the source row, and row `k` of the
    addressed device's landing buffer. -/
def sendRes (c : Dev nD) (k : Fin 31) : sProp 𝕄 :=
  iprop(dutyTok ER (sendCell c k) 0 0 ∗ dutyTok ER (recvCell (dst c k) k) 0 0
    ∗ srcPts c (shareTok fullShare 31 k) (part (xs m) c) ∗ ∃ f, rowPts (F := F) (dst c k) k f)

/-- What the wait on receive cell `k` needs: its credit and the device's position at round 0 of the cell. -/
def recvRes (c : Dev nD) (k : Fin 31) : sProp 𝕄 :=
  iprop(cred (tallyAt (recvCell c k) () N) ∗ atPos ER (recvCell c k) 0 ∅ 0)
/-- and brings: the landed row, the cell's counter at zero. -/
def recvGot (c : Dev nD) (k : Fin 31) : sProp 𝕄 := iprop(recvPay m c k ∗ semVal (recvCell c k) 0)

def sendWaitRes (c : Dev nD) (k : Fin 31) : sProp 𝕄 :=
  iprop(cred (tallyAt (sendCell c k) () N) ∗ atPos ER (sendCell c k) 0 ∅ 0)
def sendGot (c : Dev nD) (k : Fin 31) : sProp 𝕄 := iprop(sendPay m c k ∗ semVal (sendCell c k) 0)
/-- The credit a transfer leaves on its send cell. -/
def credS (c : Dev nD) (k : Fin 31) : sProp 𝕄 := cred (tallyAt (sendCell c k) () N)

theorem barPay_self (c : Dev nD) (k : Fin 31) :
    barPay (F := F) (dst c k) k = iprop((∃ f, rowPts (F := F) c (rev k) f) ∗ reached ER (recvCell c (rev k)) 0) :=
  congrArg (fun d : Dev nD => (iprop((∃ f, rowPts (F := F) d (rev k) f) ∗ reached ER (recvCell d (rev k)) 0) : sProp 𝕄)) (dst_dst_rev c k)

/-! ## The signal -/

theorem step_signal (c : Dev nD) (k : Fin 31) (ks : List (Fin 31)) (OR : CellTallies nD τ sig Unit) (W : Waits sig Unit)
    {α : Type} {Q : α → sProp 𝕄} {cont : PUnit → Prog (TpuEff nD τ sig (Elt F) Λ₀ .tc) α} :
    iprop(records m K ∗ owes (c : Thread nD τ) (OR + owedB c (k :: ks)) W ∗ bigSepL (k :: ks) (sigRes (F := F) c))
      ⊢ iprop(((owes (c : Thread nD τ) (OR + owedB c ks) W ∗ bigSepL ks (sigRes (F := F) c)) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((dst c k : Dev nD) : Thread nD τ) barS (1#32).toNat) cont) Q) := by
  rw [bigSepL_cons']; unfold sigRes
  iintro ⟨#HR, HO, ⟨Htok, ⟨%f, Hrow⟩⟩, Hrest⟩ Hk
  iapply (Rounds.wp_signal 𝒱₀ ER (rd m) (c : Thread nD τ) none (dst := ((dst c k : Dev nD) : Thread nD τ)) (κ := K (dst c k, 0))
      (d := k) (by rw [duties_bar]; exact Finset.mem_univ _) ((amount_bar m (dst c k) k).trans (by decide)) ()
      (O₀ := OR + owedB c (k :: ks)) (OR + owedB c ks)
      (show OR + owedB c (k :: ks) = (OR + owedB c ks) + tallyAt (barCell (dst c k)) () (1#32).toNat from (add_assoc _ _ _).symm)) $$ [HO Htok Hrow]
  · isplitr; · iapply (inv_bar m K (dst c k)); iexact HR
    isplitl [HO]; · iexact HO
    isplitl [Htok]; · iexact Htok
    isplitl [Hrow]
    · rw [payload_bar, barPay_self]
      isplitl [Hrow]; · iexists f; iexact Hrow
      iapply (reached_recv m K c (rev k)); iexact HR
    · iapply (reached_bar m K (dst c k)); iexact HR
  iintro HO
  iapply Hk
  isplitl [HO]; · iexact HO
  iexact Hrest

/-! ## The local copy and its wait -/

theorem step_copy (c : Dev nD) (fd : Buf (Elt F) ((c : Thread nD τ).loc cc0_scratch0))
    {hsrc : (Memref.whole main_arg0 : Memref sig .tc .hbm S1024x512 .f32).view.WordExact}
    {hdst : (Memref.whole cc0_scratch0 : Memref sig .tc .vmem S1024x512 .f32).view.WordExact}
    {hsem : DmaTarget.Typed (nD := nD) .hbm (.dma copyQ) (DmaTarget.here (p := (Proc.tc : Proc τ)) (Memref.whole cc0_scratch0 : Memref sig .tc .vmem S1024x512 .f32))}
    {α : Type} {Q : α → sProp 𝕄} {cont : PUnit → Prog (TpuEff nD τ sig (Elt F) Λ₀ .tc) α} :
    iprop(records m K ∗ (((c : Thread nD τ).loc main_arg0) ↦{fullShare} m ((c : Thread nD τ).loc main_arg0))
        ∗ (((c : Thread nD τ).loc cc0_scratch0) ↦{fullShare} fd) ∗ dutyTok ER (copyCell c) 0 0)
      ⊢ iprop((cred (tallyAt (copyCell c) () NX) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (Memref.whole main_arg0 : Memref sig .tc .hbm S1024x512 .f32) (DmaTarget.here (p := (Proc.tc : Proc τ)) (Memref.whole cc0_scratch0 : Memref sig .tc .vmem S1024x512 .f32)) (.dma copyQ) hsrc hdst hsem) cont) Q) := by
  iintro ⟨#HR, Hsrc, Hdst, Htok⟩ Hk
  iapply (Rounds.wp_copy_pointsTo 𝒱₀ ER (rd m) (c : Thread nD τ) none (κ := K (c, 63)) (r := 0) (d := 0)
      (fs := m ((c : Thread nD τ).loc main_arg0)) (fd := fd) (q := fullShare)
      (by rw [duties_copy]; exact Finset.mem_singleton_self _) () NX rfl (amount_copy m c 0)
      (by rw [payload_copy]; unfold copyPay; simp only [Memref.view_whole, View.set_whole, View.read_whole]
          rw [View.write_whole_univ]; exact Entails.refl _)) $$ [Hsrc Hdst Htok]
  · isplitr; · iapply (inv_copy m K c); iexact HR
    isplitl [Hsrc]; · simp only [Memref.view_whole, View.set_whole]; iexact Hsrc
    isplitl [Hdst]; · simp only [Memref.view_whole, View.set_whole]; iexact Hdst
    isplitl [Htok]; · iexact Htok
    iapply (reached_copy m K c); iexact HR
  iexact Hk

theorem step_copy_wait (c : Dev nD) (O : CellTallies nD τ sig Unit) (W : Waits sig Unit)
    (hMay : (levAts L lv : sProp 𝕄) ⊢ MayWait (c : Thread nD τ) (.dma copyQ) () O)
    {hs : (Memref.whole main_arg0 : Memref sig .tc .hbm S1024x512 .f32).view.WordExact}
    {hd : (Memref.whole cc0_scratch0 : Memref sig .tc .vmem S1024x512 .f32).view.WordExact}
    {α : Type} {Q : α → sProp 𝕄} {cont : PUnit → Prog (TpuEff nD τ sig (Elt F) Λ₀ .tc) α} :
    iprop(records m K ∗ levAts L lv ∗ cred (tallyAt (copyCell c) () NX) ∗ owes (c : Thread nD τ) O W ∗ atPos ER (copyCell c) 0 ∅ 0)
      ⊢ iprop(((owes (c : Thread nD τ) O (insert (SemLoc.dma copyQ, ()) W) ∗ copyPay m c ∗ semVal (copyCell c) 0) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 copyQ (Memref.whole main_arg0 : Memref sig .tc .hbm S1024x512 .f32) (Memref.whole cc0_scratch0 : Memref sig .tc .vmem S1024x512 .f32) hs hd) cont) Q) := by
  iintro ⟨#HR, #Hlev, Hc, HO, Hat⟩ Hk
  iapply (Rounds.wp_wait_rest_token 𝒱₀ ER (rd m) (c : Thread nD τ) none (κ := K (c, 63))
      (wpE_waitDma2_eq 𝒱₀ (c : Thread nD τ) none Set.univ) (Set.mem_univ _) () (O := O) (W := W) (R := 0) (m := 0) (T := ∅)
      (by rw [Nat.zero_add, expect_copy]; rfl)) $$ [Hc HO Hat]
  · isplitr; · iapply (inv_copy m K c); iexact HR
    isplitl [Hc]; · iexact Hc
    isplitl [HO]; · iexact HO
    isplitr; · iapply hMay; iexact Hlev
    iexact Hat
  iintro ⟨HO, Hat, -, Hpay⟩
  ihave Hp := (Entails.of_eq (rest_copy m c)) $$ Hpay
  imod (Rounds.cell_close ER (rd m) (Set.mem_univ (K (c, 63))) (fun h => h) (R := 0 + 1) (duties_later m (copyCell c))) $$ [Hat] with Hz
  · isplitr; · iapply (inv_copy m K c); iexact HR
    iexact Hat
  iapply Hk
  isplitl [HO]; · iexact HO
  isplitl [Hp]; · iexact Hp
  iexact Hz

/-! ## The barrier wait -/

theorem step_bar_wait (c : Dev nD) (O : CellTallies nD τ sig Unit) (W : Waits sig Unit)
    (hMay : (levAts L lv : sProp 𝕄) ⊢ MayWait (c : Thread nD τ) (.reg barS) () O)
    {α : Type} {Q : α → sProp 𝕄} {cont : PUnit → Prog (TpuEff nD τ sig (Elt F) Λ₀ .tc) α} :
    iprop(records m K ∗ levAts L lv ∗ cred (tallyAt (barCell c) () 31) ∗ owes (c : Thread nD τ) O W ∗ atPos ER (barCell c) 0 ∅ 0)
      ⊢ iprop(((owes (c : Thread nD τ) O (insert (SemLoc.reg barS, ()) W) ∗ bigSep Finset.univ (fun d : Fin 31 => barPay (F := F) c d)) -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32).toNat) cont) Q) := by
  iintro ⟨#HR, #Hlev, Hc, HO, Hat⟩ Hk
  iapply (Rounds.wp_wait_rest_token 𝒱₀ ER (rd m) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply hMay; iexact Hlev
    iexact Hat
  iintro ⟨HO, -, -, Hpay⟩
  ihave Hp := (Entails.of_eq (rest_bar m c)) $$ Hpay
  iapply Hk
  isplitl [HO]; · iexact HO
  iexact Hp

/-! ## The transfer -/

theorem step_send (c : Dev nD) (k : Fin 31) (n : Dev nD) (hn : n = dst c k) (ks : List (Fin 31)) (OB : CellTallies nD τ sig Unit) (W : Waits sig Unit)
    {hsc : (rowM k : Memref sig (Dev.tc n : Thread nD τ).2.kind .vmem S1x512 .f32).view.ref.isScScratch = false}
    {hsrc : (srcM : Memref sig .tc .vmem S1x512 .f32).view.WordExact} {hdst : (rowM k : Memref sig .tc .vmem S1x512 .f32).view.WordExact}
    {hsem : DmaTarget.Typed .vmem (.dma (recvQ k)) (.remote (Dev.tc n : Thread nD τ) (rowM k : Memref sig .tc .vmem S1x512 .f32) (.dma (sendQ k)) hsc)}
    {α : Type} {Q : α → sProp 𝕄} {cont : PUnit → Prog (TpuEff nD τ sig (Elt F) Λ₀ .tc) α}
    (acc : List (Fin 31)) :
    iprop(records m K ∗ owes (c : Thread nD τ) (owedR c (k :: ks) + OB) W ∗ bigSepL (k :: ks) (sendRes m c) ∗ bigSepL acc (credS (F := F) c))
      ⊢ iprop(((owes (c : Thread nD τ) (owedR c ks + OB) W ∗ bigSepL ks (sendRes m c) ∗ bigSepL (k :: acc) (credS (F := F) c)) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma srcM (.remote (Dev.tc n : Thread nD τ) (rowM k) (.dma (sendQ k)) hsc) (.dma (recvQ k)) hsrc hdst hsem) cont) Q) := by
  subst hn
  rw [bigSepL_cons', bigSepL_cons']; unfold sendRes credS
  iintro ⟨#HR, HO, ⟨⟨HtS, HtR, Hsrc, ⟨%fn, Hrow⟩⟩, Hrest⟩, Hacc⟩ Hk
  unfold srcPts rowPts
  iapply (Rounds.wp_send_pointsTo 𝒱₀ ER (rd m) (c : Thread nD τ) none (κ₁ := K (c, jS k)) (κ₂ := K (dst c k, jR k))
      (r₁ := 0) (r₂ := 0) (d₁ := 0) (d₂ := 0) (fd := fn)
      (by rw [duties_send]; exact Finset.mem_singleton_self _) (by rw [duties_recv]; exact Finset.mem_singleton_self _)
      () () N (row_amount k _) (amount_send m c k 0) (amount_recv m (dst c k) k 0)
      (O₀ := owedR c (k :: ks) + OB) (owedR c ks + OB)
      (show owedR c (k :: ks) + OB = (owedR c ks + OB) + tallyAt (recvCell (dst c k) k) () N from add_right_comm _ _ _) (W := W)
      (by rw [payload_send]; exact BI.Entails.refl _)
      (by rw [payload_recv]; unfold recvPay landRow rowPts; rw [src_dst]; iintro H; iexists fn; iexact H)) $$ [Hsrc Hrow HO HtS HtR]
  · isplitr; · iapply (inv_send m K c k); iexact HR
    isplitr; · iapply (inv_recv m K (dst c k) k); iexact HR
    isplitl [Hsrc]; · iexact Hsrc
    isplitl [Hrow]; · iexact Hrow
    isplitl [HO]; · iexact HO
    isplitl [HtS]; · iexact HtS
    isplitr; · iapply (reached_send m K c k); iexact HR
    isplitl [HtR]; · iexact HtR
    iapply (reached_recv m K (dst c k) k); iexact HR
  iintro ⟨HcS, HO⟩
  iapply Hk
  isplitl [HO]; · iexact HO
  isplitl [Hrest]; · iexact Hrest
  isplitl [HcS]; · iexact HcS
  iexact Hacc

/-! ## The waits on the device's own receive and send cells -/

theorem step_recv_wait (c : Dev nD) (k : Fin 31) (ks : List (Fin 31)) (W : Waits sig Unit)
    {hs : (srcM : Memref sig .tc .vmem S1x512 .f32).view.WordExact} {hd : (rowM k : Memref sig .tc .vmem S1x512 .f32).view.WordExact}
    {α : Type} {Q : α → sProp 𝕄} {cont : PUnit → Prog (TpuEff nD τ sig (Elt F) Λ₀ .tc) α}
    (acc : List (Fin 31)) :
    iprop(records m K ∗ owes (c : Thread nD τ) 0 W ∗ bigSepL (k :: ks) (recvRes (F := F) c) ∗ bigSepL acc (recvGot m c))
      ⊢ iprop(((owes (c : Thread nD τ) 0 (insert (SemLoc.dma (recvQ k), ()) W) ∗ bigSepL ks (recvRes (F := F) c) ∗ bigSepL (k :: acc) (recvGot m c)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvQ k) srcM (rowM k) hs hd) cont) Q) := by
  rw [bigSepL_cons', bigSepL_cons']; unfold recvRes
  iintro ⟨#HR, HO, ⟨⟨Hc, Hat⟩, Hrest⟩, Hacc⟩ Hk
  iapply (Rounds.wp_wait_rest_token 𝒱₀ ER (rd m) (c : Thread nD τ) none (κ := K (c, jR k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  imod (Rounds.cell_close ER (rd m) (Set.mem_univ (K (c, jR k))) (fun h => h) (R := 0 + 1) (duties_later m (recvCell c k))) $$ [Hat] with Hz
  · isplitr; · iapply (inv_recv m K c k); iexact HR
    iexact Hat
  iapply Hk
  isplitl [HO]; · iexact HO
  isplitl [Hrest]; · iexact Hrest
  isplitl [Hp Hz]
  · unfold recvGot; isplitl [Hp]; · iexact Hp
    iexact Hz
  iexact Hacc

theorem step_send_wait (c : Dev nD) (k : Fin 31) (ks : List (Fin 31)) (W : Waits sig Unit)
    {hs : (rowM k : Memref sig .tc .vmem S1x512 .f32).view.WordExact} {hd : (srcM : Memref sig .tc .vmem S1x512 .f32).view.WordExact}
    {α : Type} {Q : α → sProp 𝕄} {cont : PUnit → Prog (TpuEff nD τ sig (Elt F) Λ₀ .tc) α}
    (acc : List (Fin 31)) :
    iprop(records m K ∗ owes (c : Thread nD τ) 0 W ∗ bigSepL (k :: ks) (sendWaitRes (F := F) c) ∗ bigSepL acc (sendGot m c))
      ⊢ iprop(((owes (c : Thread nD τ) 0 (insert (SemLoc.dma (sendQ k), ()) W) ∗ bigSepL ks (sendWaitRes (F := F) c) ∗ bigSepL (k :: acc) (sendGot m c)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendQ k) (rowM k) srcM hs hd) cont) Q) := by
  rw [bigSepL_cons', bigSepL_cons']; unfold sendWaitRes
  iintro ⟨#HR, HO, ⟨⟨Hc, Hat⟩, Hrest⟩, Hacc⟩ Hk
  iapply (Rounds.wp_wait_rest_token 𝒱₀ ER (rd m) (c : Thread nD τ) none (κ := K (c, jS k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c k); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (rd m) (Set.mem_univ (K (c, jS k))) (fun h => h) (R := 0 + 1) (duties_later m (sendCell c k))) $$ [Hat] with Hz
  · isplitr; · iapply (inv_send m K c k); iexact HR
    iexact Hat
  iapply Hk
  isplitl [HO]; · iexact HO
  isplitl [Hrest]; · iexact Hrest
  isplitl [Hp Hz]
  · unfold sendGot; isplitl [Hp]; · iexact Hp
    iexact Hz
  iexact Hacc

end Cert.KernelIdeal.Mean

end
-- ==== Proof.Data.lean ====
/-
  The proof data of the launch: what the result's staging buffer holds after the body (the device's result row),
  what the kernel holds on entry — the ghost state, the credits of its barrier cell and of its 31 receive cells,
  the levels, its block's array, its three scratch buffers at arbitrary contents — and on exit — the block's array
  unchanged, its 63 own cells back at zero, the scratch buffers —, and what it owes: everything at entry, nothing
  at exit.
-/
import proofs.«900937_g7700000000000938_dist_mean_ax0_shard0_i_m1024_n512_v7x_i32_f32_1_alg».proof.Proof.Steps

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-- The block's array, as launched. -/
def argPts (c : Dev nD) : sProp 𝕄 := ((c : Thread nD τ).loc main_arg0) ↦{fullShare} m ((c : Thread nD τ).loc main_arg0)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c`'s body starts from, beside the scratch buffers. -/
def start (c : Dev nD) : sProp 𝕄 :=
  iprop(G' m c ∗ cred (tallyAt (barCell c) () 31) ∗ (bigSep Finset.univ fun k : Fin 31 => cred (tallyAt (recvCell c k) () N))
    ∗ levAts L lv ∗ argPts m c)

def Φ₀ (c : Dev nD) : sProp 𝕄 := iprop(start m c ∗ scratch (F := F) c)
/-- After the point: the array unchanged, the 63 own cells at zero, the scratch buffers. -/
def Φ₁ (c : Dev nD) : sProp 𝕄 :=
  iprop(argPts m c ∗ (bigSep (Finset.univ.erase (0 : Fin 64)) fun j => semVal (kcell (c, j)) 0) ∗ scratch (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt (xs m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition in the library's form: the entry invariant, what it owes, the result's staging buffer. -/
def bodyPre' (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt (xs m) c))

/-! ## The entry invariant opened: what the body steps from -/

/-- The tokens the transfer at offset `k + 1` pays with. -/
def sendToks (c : Dev nD) (k : Fin 31) : sProp 𝕄 :=
  iprop(dutyTok ER (sendCell c k) 0 0 ∗ dutyTok ER (recvCell (dst c k) k) 0 0)
/-- The device at round 0 of send cell `k`. -/
def sendPos (c : Dev nD) (k : Fin 31) : sProp 𝕄 := atPos ER (sendCell c k) 0 ∅ 0

/-- The entry invariant with the ghost state dealt out offset by offset, in the kernel's order. -/
def bodyOpen (K : Dev nD × Fin 64 → ℕ) (c : Dev nD) : sProp 𝕄 :=
  iprop(records m K ∗ levAts L lv ∗ argPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (atPos ER (barCell c) 0 ∅ 0 ∗ cred (tallyAt (barCell c) () 31))
    ∗ (atPos ER (copyCell c) 0 ∅ 0 ∗ dutyTok ER (copyCell c) 0 0)
    ∗ bigSepL all31 (sigRes (F := F) c)
    ∗ bigSepL all31 (sendToks (F := F) c)
    ∗ bigSepL all31 (recvRes (F := F) c)
    ∗ bigSepL all31 (sendPos (F := F) c))

end Cert.KernelIdeal.Mean

end
-- ==== Proof.LaunchGhost.lean ====
/-
  The ghost state at launch.

  From the launch's resource element every device is dealt the round states, positions and duty tokens of its own 64
  cells; with every semaphore counter at zero each round state becomes a cell invariant; and the tokens are then dealt
  to the devices that PAY the duties: the token of duty `k` of a device's barrier cell and the token of its receive
  cell `k` go to the device `k + 1` places before it (the rotation by `k + 1` places is a permutation of the
  devices), the send and copy tokens stay.  What all devices together owe a device's cells at launch is 31 units on
  its barrier cell (one from each other device: `dst d k = c` has the one solution `d = src c k` for each offset) and
  a row's credit on each receive cell `k` (from `src c k`).  The waits are ordered by level: everything a device can
  owe is a receive cell (level 2) or a barrier cell (level 1), so a wait on a cell of level 0 is always allowed, and a
  wait on the barrier cell is allowed once only receive cells are owed.
-/
import proofs.«900937_g7700000000000938_dist_mean_ax0_shard0_i_m1024_n512_v7x_i32_f32_1_alg».proof.Proof.Ghost

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-! ## The kernel's own semaphores -/

omit [FloatOps F] in
theorem ownSemFacts : Pipeline.OwnSemFacts cfg0.spec osem := by decide

/-! ## The levels -/

omit [FloatOps F] in
/-- What is still owed to receive cells is positive only at a receive cell. -/
theorem owedR_pos {c : Dev nD} {ks : List (Fin 31)} {g : GSem nD τ sig} {u : Unit} (h : 0 < owedR c ks g u) :
    ∃ d k, g = recvCell d k := by
  induction ks with
  | nil => exact absurd h (Nat.lt_irrefl 0)
  | cons k ks ih =>
    rcases Pipeline.add_pos_cases (D₁ := owedR c ks) (D₂ := tallyAt (recvCell (dst c k) k) () N) h with h1 | h2
    · exact ih h1
    · exact ⟨dst c k, k, (Pipeline.tallyAt_pos h2).1⟩

omit [FloatOps F] in
/-- What is still owed to barrier cells is positive only at a barrier cell. -/
theorem owedB_pos {c : Dev nD} {ks : List (Fin 31)} {g : GSem nD τ sig} {u : Unit} (h : 0 < owedB c ks g u) :
    ∃ d, g = barCell d := by
  induction ks with
  | nil => exact absurd h (Nat.lt_irrefl 0)
  | cons k ks ih =>
    rcases Pipeline.add_pos_cases (D₁ := owedB c ks) (D₂ := tallyAt (barCell (dst c k)) () 1) h with h1 | h2
    · exact ih h1
    · exact ⟨dst c k, (Pipeline.tallyAt_pos h2).1⟩

omit [FloatOps F] in
theorem owed_pos {c : Dev nD} {ks ks' : List (Fin 31)} {g : GSem nD τ sig} {u : Unit} (h : 0 < (owedR c ks + owedB c ks') g u) :
    (∃ d k, g = recvCell d k) ∨ (∃ d, g = barCell d) := by
  rcases Pipeline.add_pos_cases h with h1 | h2
  · exact .inl (owedR_pos h1)
  · exact .inr (owedB_pos h2)

omit [FloatOps F] in
/-- A wait on a cell of level 0 is allowed whatever receive and barrier cells are still owed. -/
theorem mayWait_low (c : Dev nD) (sm : SemLoc sig) (hsm : lv ((c : Thread nD τ), sm) () = 0) (ks ks' : List (Fin 31)) :
    (levAts L lv : sProp 𝕄) ⊢ MayWait (c : Thread nD τ) sm () (owedR c ks + owedB c ks') :=
  Pipeline.mayWait_of_levAts (by rw [L_tc]; exact Finset.mem_singleton_self _) fun g i hg => by
    cases i
    rcases owed_pos hg with ⟨d, k, rfl⟩ | ⟨d, rfl⟩
    · exact ⟨by rw [L_tc]; exact Finset.mem_singleton_self _, by rw [hsm, lv_recv]; decide⟩
    · exact ⟨by rw [L_tc]; exact Finset.mem_singleton_self _, by rw [hsm, lv_bar]; decide⟩

omit [FloatOps F] in
/-- The barrier wait happens when only receive cells are owed: they lie above the barrier cell. -/
theorem mayWait_bar (c : Dev nD) (ks : List (Fin 31)) :
    (levAts L lv : sProp 𝕄) ⊢ MayWait (c : Thread nD τ) (.reg barS) () (owedR c ks + owedB c []) :=
  Pipeline.mayWait_of_levAts (by rw [L_tc]; exact Finset.mem_singleton_self _) fun g i hg => by
    cases i
    rcases Pipeline.add_pos_cases hg with h1 | h2
    · obtain ⟨d, k, rfl⟩ := owedR_pos h1
      exact ⟨by rw [L_tc]; exact Finset.mem_singleton_self _, by rw [lv_bar c, lv_recv]; decide⟩
    · exact absurd h2 (Nat.lt_irrefl 0)

omit [FloatOps F] in
/-- A wait on a staging cell, which has no part in the protocol: level 0. -/
theorem mayWait_stage (c : Dev nD) (q : DmaSem sig) (hq : roleOf (.dma q) = .none) (O : CellTallies nD τ sig Unit) (hO : O = O₀ c ∨ O = 0) :
    (levAts L lv : sProp 𝕄) ⊢ MayWait (c : Thread nD τ) (.dma q) () O := by
  rcases hO with rfl | rfl
  · exact mayWait_low c (.dma q) (by unfold lv; rw [hq]) all31 all31
  · rw [MayWait_zero]; iintro -; iempintro

/-! ## What the devices together owe a device's cells at launch -/

omit [FloatOps F] in
/-- The receive credits: offset `k`'s credit on receive cell `k` of `dst d k`, summed over the devices `d`, is one
    credit on receive cell `k` of `c` (from `d = src c k`). -/
theorem credR (c : Dev nD) (ks : List (Fin 31)) :
    (Pipeline.launchCred (fun d => owedR d ks) c : sProp 𝕄) ⊢ bigSepL ks fun k => cred (tallyAt (recvCell c k) () N) := by
  induction ks with
  | nil =>
    exact Entails.of_eq (Pipeline.launchCred_zero c)
  | cons k ks ih =>
    rw [bigSepL_cons]
    refine (Entails.of_eq (Pipeline.launchCred_add (fun d => owedR d ks) (fun d => tallyAt (recvCell (dst d k) k) () N) c)).trans ?_
    refine (BI.sep_mono ih (Pipeline.launchCred_tallyAt (.dma (recvQ k)) (fun d => dst d k) (fun d => src d k)
      (fun d => dst_src d k) (fun d => src_dst d k) () N c)).trans ?_
    exact BI.sep_comm

omit [FloatOps F] in
/-- The barrier units: one unit on the barrier cell of `dst d k` per offset, summed over the devices, is one unit on
    `c`'s barrier cell per offset. -/
theorem credB (c : Dev nD) (ks : List (Fin 31)) :
    (Pipeline.launchCred (fun d => owedB d ks) c : sProp 𝕄) ⊢ cred (tallyAt (barCell c) () ks.length) := by
  induction ks with
  | nil =>
    rw [List.length_nil, tallyAt_zero, cred_zero]
    exact Entails.of_eq (Pipeline.launchCred_zero c)
  | cons k ks ih =>
    refine (Entails.of_eq (Pipeline.launchCred_add (fun d => owedB d ks) (fun d => tallyAt (barCell (dst d k)) () 1) c)).trans ?_
    refine (BI.sep_mono ih (Pipeline.launchCred_tallyAt (.reg barS) (fun d => dst d k) (fun d => src d k)
      (fun d => dst_src d k) (fun d => src_dst d k) () 1 c)).trans ?_
    rw [List.length_cons, ← tallyAt_add]
    exact (cred_add _ _).2

omit [FloatOps F] in
theorem creds (c : Dev nD) :
    (Pipeline.launchCred O₀ c : sProp 𝕄) ⊢ iprop(cred (tallyAt (barCell c) () 31) ∗ bigSep Finset.univ fun k : Fin 31 => cred (tallyAt (recvCell c k) () N)) := by
  rw [bigSep_univ_eq_bigSepL all31 (by decide) (by decide)]
  refine (Entails.of_eq (Pipeline.launchCred_add (fun d => owedR d all31) (fun d => owedB d all31) c)).trans ?_
  exact (BI.sep_mono (credR c all31) (credB c all31)).trans BI.sep_comm

/-! ## The launch element, dealt to the devices -/

/-- Every payload of the schedule can be kept in an invariant. -/
instance rd_payload_storable (g : GSem nD τ sig) (r : ℕ) (d : Fin 31) :
    BI.Storable (upEmb : UEmb _ 𝕄) ((rd m).payload g r d) := by
  show BI.Storable upEmb (match roleOf g.2 with
    | .bar => barPay g.1.1 d | .send k => sendPay m g.1.1 k | .recv k => recvPay m g.1.1 k | .copy => copyPay m g.1.1 | .none => iprop(emp))
  unfold barPay sendPay recvPay copyPay landRow rowPts srcPts
  split <;> infer_instance

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 64 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

omit [FloatOps F] in
/-- Cell `i + 1` of a device is its own semaphore `i`. -/
theorem csem_succ (i : Fin 63) : csem i.succ = osem i := by
  unfold csem
  rw [if_neg (by rw [Fin.val_succ]; exact Nat.succ_ne_zero _)]
  rfl

omit [FloatOps F] in
/-- The cell indices other than 0 are the successors of the 63 indices of the own semaphores. -/
theorem erase_zero_eq : (Finset.univ.erase (0 : Fin 64)) = Finset.univ.map (Fin.succEmb 63) := by
  ext j
  rw [Finset.mem_erase, Finset.mem_map]
  constructor
  · rintro ⟨hj, -⟩
    exact ⟨j.pred hj, Finset.mem_univ _, Fin.succ_pred j hj⟩
  · rintro ⟨i, -, rfl⟩
    exact ⟨Fin.succ_ne_zero i, Finset.mem_univ _⟩

omit [FloatOps F] in
/-- The kernel's own 63 semaphores at zero are the cells 1 to 63 at zero; -/
theorem ownSems0_eq (c : Dev nD) :
    (Pipeline.ownSems0 (Ix := Unit) (Name := ℕ) (U := UU) (Lvl := ℕ) (Val := Elt F) (τ := τ) osem c : sProp 𝕄)
      = bigSep (Finset.univ.erase (0 : Fin 64)) fun j => semVal (kcell (c, j)) 0 := by
  rw [erase_zero_eq, bigSep_map]
  unfold Pipeline.ownSems0
  exact bigSep_congr fun i _ => by
    show semVal ((c : Thread nD τ), osem i) 0 = semVal ((c : Thread nD τ), csem i.succ) 0
    rw [csem_succ]

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 64 => semVal (kcell (c, j)) 0 : sProp 𝕄) := by
  rw [ownSems0_eq, unscopedSems0_eq, bigSep_univ_at _ (0 : Fin 64), kcell_bar]
  exact BI.sep_comm

omit [FloatOps F] in
/-- The 63 own cells back at zero give the launch its own semaphores back. -/
theorem ownSems0_intro (c : Dev nD) :
    (bigSep (Finset.univ.erase (0 : Fin 64)) fun j => semVal (kcell (c, j)) 0 : sProp 𝕄)
      ⊢ Pipeline.ownSems0 (Ix := Unit) (Name := ℕ) (U := UU) (Lvl := ℕ) (Val := Elt F) (τ := τ) osem c :=
  Entails.of_eq (ownSems0_eq c).symm

/-! ## The cells' invariants -/

/-- With its 64 counters at zero, a device's round states become cell invariants at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 64 => semVal (kcell (c, j)) 0) ∗ bigSep Finset.univ fun j : Fin 64 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt to the payers -/

/-- The tokens of its own cells that somebody needs: all 31 of the barrier cell, duty 0 of each receive cell, of each
    send cell and of the copy cell. -/
def pickTok : (Fin 31 ⊕ Fin 31) ⊕ (Fin 31 ⊕ Unit) → Fin 64 × Fin 31
  | .inl (.inl k) => (0, k)
  | .inl (.inr k) => (jR k, 0)
  | .inr (.inl k) => (jS k, 0)
  | .inr (.inr _) => (63, 0)

omit [FloatOps F] in
theorem pickTok_cell (x : (Fin 31 ⊕ Fin 31) ⊕ (Fin 31 ⊕ Unit)) :
    (pickTok x).1.val = match x with
      | .inl (.inl _) => 0 | .inl (.inr k) => 32 + k.val | .inr (.inl k) => 1 + k.val | .inr (.inr _) => 63 := by
  rcases x with (a | a) | (a | a) <;> rfl

omit [FloatOps F] in
theorem pickTok_duty (x : (Fin 31 ⊕ Fin 31) ⊕ (Fin 31 ⊕ Unit)) :
    (pickTok x).2.val = match x with
      | .inl (.inl k) => k.val | .inl (.inr _) => 0 | .inr (.inl _) => 0 | .inr (.inr _) => 0 := by
  rcases x with (a | a) | (a | a) <;> rfl

omit [FloatOps F] in
/-- The four families name pairwise distinct tokens: the cell indices 0, 32 + k, 1 + k, 63 are distinct. -/
theorem pickTok_injective : Function.Injective pickTok := by
  intro x y h
  have h1 : (pickTok x).1.val = (pickTok y).1.val := congrArg (fun p => p.1.val) h
  have h2 : (pickTok x).2.val = (pickTok y).2.val := congrArg (fun p => p.2.val) h
  rw [pickTok_cell, pickTok_cell] at h1
  rw [pickTok_duty, pickTok_duty] at h2
  rcases x with (a | a) | (a | a) <;> rcases y with (b | b) | (b | b) <;> dsimp only at h1 h2
  · exact congrArg (fun k => Sum.inl (Sum.inl k)) (Fin.ext h2)
  · have := b.isLt; omega
  · have := b.isLt; omega
  · omega
  · have := a.isLt; omega
  · exact congrArg (fun k => Sum.inl (Sum.inr k)) (Fin.ext (by omega))
  · have := a.isLt; have := b.isLt; omega
  · have := a.isLt; omega
  · have := a.isLt; omega
  · have := a.isLt; have := b.isLt; omega
  · exact congrArg (fun k => Sum.inr (Sum.inl k)) (Fin.ext (by omega))
  · have := a.isLt; omega
  · omega
  · have := b.isLt; omega
  · have := b.isLt; omega
  · rfl

omit [FloatOps F] in
/-- Of all the tokens of its own cells a device keeps the four families; the others nobody needs. -/
theorem toks_own (c : Dev nD) :
    (toks c : sProp 𝕄) ⊢ iprop(((bigSep Finset.univ fun k : Fin 31 => dutyTok ER (barCell c) 0 k)
        ∗ bigSep Finset.univ fun k : Fin 31 => dutyTok ER (recvCell c k) 0 0)
      ∗ (bigSep Finset.univ fun k : Fin 31 => dutyTok ER (sendCell c k) 0 0) ∗ dutyTok ER (copyCell c) 0 0) := by
  unfold toks
  refine (bigSep_subset (Finset.subset_univ (Finset.univ.map ⟨pickTok, pickTok_injective⟩))).trans ?_
  rw [bigSep_map, bigSep_univ_sum, bigSep_univ_sum, bigSep_univ_sum, bigSep_univ_of_subsingleton ()]
  show iprop(((bigSep Finset.univ fun k : Fin 31 => dutyTok ER (kcell (c, 0)) 0 k)
        ∗ bigSep Finset.univ fun k : Fin 31 => dutyTok ER (kcell (c, jR k)) 0 0)
      ∗ (bigSep Finset.univ fun k : Fin 31 => dutyTok ER (kcell (c, jS k)) 0 0) ∗ dutyTok ER (kcell (c, 63)) 0 0) ⊢ _
  simp only [kcell_bar, kcell_recv, kcell_send, kcell_copy]
  exact .rfl

/-- The rotation of the ring by each offset at once: `(c, k) ↦ (dst c k, k)`, undone by `(c, k) ↦ (src c k, k)`. -/
def rot : Dev nD × Fin 31 ≃ Dev nD × Fin 31 where
  toFun p := (dst p.1 p.2, p.2)
  invFun p := (src p.1 p.2, p.2)
  left_inv p := Prod.ext (src_dst p.1 p.2) rfl
  right_inv p := Prod.ext (dst_src p.1 p.2) rfl

omit [FloatOps F] in
/-- A family over devices and offsets, summed over both, may be read at the device each offset addresses. -/
theorem bigSep_rot (Ψ : Dev nD → Fin 31 → sProp 𝕄) :
    (bigSep Finset.univ fun c : Dev nD => bigSep Finset.univ fun k : Fin 31 => Ψ c k)
      = bigSep Finset.univ fun c : Dev nD => bigSep Finset.univ fun k : Fin 31 => Ψ (dst c k) k := by
  rw [← bigSep_univ_prod (fun p : Dev nD × Fin 31 => Ψ p.1 p.2), bigSep_univ_equiv rot, bigSep_univ_prod]
  rfl

omit [FloatOps F] in
/-- The tokens dealt around the ring: the token of duty `k` of a barrier cell and the token of receive cell `k` go
    `k + 1` places back, to the device that pays them; the send and copy tokens stay. -/
theorem toks_deal :
    (bigSep Finset.univ fun c : Dev nD => iprop(((bigSep Finset.univ fun k : Fin 31 => dutyTok ER (barCell c) 0 k)
        ∗ bigSep Finset.univ fun k : Fin 31 => dutyTok ER (recvCell c k) 0 0)
      ∗ (bigSep Finset.univ fun k : Fin 31 => dutyTok ER (sendCell c k) 0 0) ∗ dutyTok ER (copyCell c) 0 0) : sProp 𝕄)
      ⊢ bigSep Finset.univ fun c : Dev nD => payToks c := by
  unfold payToks
  rw [bigSep_sep', bigSep_sep', bigSep_sep', bigSep_sep',
    bigSep_congr (s := Finset.univ) (fun (c : Dev nD) _ => bigSep_sep' Finset.univ (fun k : Fin 31 => (dutyTok ER (barCell (dst c k)) 0 k : sProp 𝕄))
      (fun k => iprop(dutyTok ER (recvCell (dst c k) k) 0 0 ∗ dutyTok ER (sendCell c k) 0 0))),
    bigSep_sep',
    bigSep_congr (s := Finset.univ) (fun (c : Dev nD) _ => bigSep_sep' Finset.univ (fun k : Fin 31 => (dutyTok ER (recvCell (dst c k) k) 0 0 : sProp 𝕄))
      (fun k => dutyTok ER (sendCell c k) 0 0)),
    bigSep_sep',
    bigSep_rot (fun c k => (dutyTok ER (barCell c) 0 k : sProp 𝕄)),
    bigSep_rot (fun c k => (dutyTok ER (recvCell c k) 0 0 : sProp 𝕄))]
  iintro ⟨⟨HB, HR⟩, HS, HC⟩
  isplitr [HC]
  · isplitl [HB]; · iexact HB
    isplitl [HR]; · iexact HR
    iexact HS
  · iexact HC

omit [FloatOps F] in
theorem toks_around : (bigSep Finset.univ fun c : Dev nD => (toks c : sProp 𝕄)) ⊢ bigSep Finset.univ fun c : Dev nD => payToks c :=
  (bigSep_mono fun c _ => toks_own c).trans toks_deal

/-! ## The global step -/

theorem inv_at (K : Dev nD × Fin 64 → ℕ) (cj : Dev nD × Fin 64) :
    (bigSep Finset.univ fun cj : Dev nD × Fin 64 => (cellInv ER (rd m) (K cj) (kcell cj) : sProp 𝕄)) ⊢ cellInv ER (rd m) (K cj) (kcell cj) :=
  bigSep_elim (Finset.mem_univ cj)
omit [FloatOps F] in
theorem reached_at (cj : Dev nD × Fin 64) :
    (bigSep Finset.univ fun cj : Dev nD × Fin 64 => (reached ER (kcell cj) 0 : sProp 𝕄)) ⊢ reached ER (kcell cj) 0 :=
  bigSep_elim (Finset.mem_univ cj)

theorem ghost_intro (K : Dev nD × Fin 64 → ℕ) (c : Dev nD) : iprop(records m K ∗ positions c ∗ payToks c) ⊢ G' m c := by
  unfold G' ghost
  iintro H
  iexists K
  iexact H

omit [FloatOps F] in
/-- A persistent assertion beside a family serves every member of the family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (rd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 64 => iprop(∃ κ : ℕ, cellInv ER (rd m) κ (kcell cj))),
    bigSep_congr (s := Finset.univ) (fun (c : Dev nD) _ => bigSep_sep' Finset.univ (fun j : Fin 64 => (atPos ER (kcell (c, j)) 0 ∅ 0 : sProp 𝕄)) (fun j => reached ER (kcell (c, j)) 0)),
    bigSep_sep', ← bigSep_univ_prod (fun cj : Dev nD × Fin 64 => (reached ER (kcell cj) 0 : sProp 𝕄))]
  iintro ⟨HI, ⟨Hat, #HR⟩, Htok⟩
  ihave HK := (BI.bigSep_exists_pi Finset.univ (fun (cj : Dev nD × Fin 64) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Mean.glob' depends on axioms: [propext, Classical.choice, Quot.sound] -/
#guard_msgs in #print axioms glob

end Cert.KernelIdeal.Mean

end
-- ==== Proof.Launch.lean ====
/-
  The launch: from each device's body to the run of the whole program on the 32 devices.

  Given that every device's body, started from its entry invariant with what it owes and the result's staging buffer,
  ends in its exit invariant owing nothing with the staging buffer holding the device's result row, every weakly fair
  execution of @main terminates without a fault, and in every final state each device's result array holds its result
  row and its block's array holds what it held at launch.

  What the launch deals a device — its block's array (the one unscoped buffer no window stages), the levels, the
  credits of its barrier cell and of its 31 receive cells, its ghost state — is what the body starts from; the three
  scratch buffers are the scoped buffers that stage nothing; at exit the 63 own semaphores are back at zero and the
  block's array, still held whole, is read against the final state. The result array is written once, whole, by the one
  write-back after the one point: it ends at what the body left in the staging buffer.
-/
import proofs.«900937_g7700000000000938_dist_mean_ax0_shard0_i_m1024_n512_v7x_i32_f32_1_alg».proof.Proof.Data
import proofs.«900937_g7700000000000938_dist_mean_ax0_shard0_i_m1024_n512_v7x_i32_f32_1_alg».proof.Proof.LaunchGhost
import proofs.«900937_g7700000000000938_dist_mean_ax0_shard0_i_m1024_n512_v7x_i32_f32_1_alg».proof.Proof.Gen.KernelIdeal.Points

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

/-- What the run ends with on every device: the result array at the device's result row, the block's array as launched. -/
def QC (m : (ℓ : Loc nD τ sig) → Buf (Elt F) ℓ) (ρ : Dev nD → PrngReg) : PUnit × MemSt nD τ sig (Elt F) → Prop := fun r =>
  ∀ c : Dev nD, r.2.mem ((c : Thread nD τ).loc main_v1) = outAt (xs m) c
    ∧ r.2.mem ((c : Thread nD τ).loc main_arg0) = m ((c : Thread nD τ).loc main_arg0)

variable (m : (ℓ : Loc nD τ sig) → Buf (Elt F) ℓ) (ρ : Dev nD → PrngReg)

/-! ## The theorem's side conditions -/

/-- The result's array is held at the full share. -/
theorem share_eq (c : Dev nD) (w : Fin cfg0.W) : (dats m ρ 0 c).share w = fullShare := by unfold Dat.share; split <;> rfl

/-- The one unscoped buffer that is no window's array is the block's array: the launch hands it over as launched. -/
theorem rest_eq (c : Dev nD) :
    (Pipeline.unscopedRestP Pipeline.Prefetch.none cfg0.spec c (fun b => m ((c : Thread nD τ).loc b)) : sProp 𝕄) = argPts m c := by
  rw [Pipeline.unscopedRestP_none, unscopedRest0_eq]; rfl

/-- From what the launch deals a device to what its body starts from: the credits regrouped by cell. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨Harg, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Harg
  · iempintro

/-- The entry invariant: the start and the three scratch buffers, which are the scoped buffers that stage nothing. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The exit invariant hands back the block's array, the 63 own semaphores at zero and the scratch buffers. -/
theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Ha, Hz, Hr⟩
  isplitl [Ha]; · iexact Ha
  isplitl [Hz]; · iapply (ownSems0_intro (F := F) c); iexact Hz
  iexact Hr

/-- The pipeline's own waits, on the one staging cell, are allowed before and after the point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The block's array, held whole beside the state, is the state's: it ends as launched. -/
theorem arg_read (c : Dev nD) (s' : Phys nD τ sig (Elt F)) :
    iprop(argPts m c ∗ emp ∗ SI s')
      ⊢ |={Set.univ}=> iprop(⌜s'.mem.mem ((c : Thread nD τ).loc main_arg0) = m ((c : Thread nD τ).loc main_arg0)⌝ ∗ SI s') := by
  unfold argPts
  iintro ⟨Hx, -, HSI⟩
  icombine HSI Hx gives %hx
  imodintro
  isplitr; · ipureintro; exact Buf.eq_of_forall_mem_univ hx
  iexact HSI

/-! ## The result array after the run -/

/-- The one write-back writes the whole result array (the block at index 0 with the array's own sizes): it ends
    holding what the body left in the staging buffer, the device's result row. -/
theorem final_out (c : Dev nD) : (dats m ρ 0 c).arrAt 0 cfg0.N = outAt (xs m) c := by
  have h := (dats (F := F) m ρ 0 c).arrAt_succ 0 t₀
  rw [flush0_0 t₀, if_pos rfl] at h
  refine h.trans ?_
  exact Memref.write_access_unit_zero_univ (Elt F) main_v1 (funext fun a => Nat.zero_mul _) _ _ _

/-! ## The run -/

set_option maxRecDepth 8000 in
/-- At the compiled mesh of 32 devices, for any float values, from any memory with zero counters: if every device's
    body meets its obligation, every weakly fair execution of @main terminates, and every final state has each
    device's result array at its result row and its block's array unchanged. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := arg_read m)
    (hQ := fun s h c => ⟨((h c).1 0).trans (final_out m ρ c), (h c).2.2⟩)

/-- info: 'Cert.KernelIdeal.Mean.run_main' depends on axioms: [propext, Classical.choice, Quot.sound] -/
#guard_msgs in #print axioms run_main

end Cert.KernelIdeal.Mean

end
-- ==== Proof.Regroup.lean ====
/-
  Regrouping of the ghost state between the launch's form and the body's.

  The launch hands a device its ghost state indexed by finite sets: its positions over its 64 cell indices, its tokens
  and credits over the 31 offsets.  The body consumes and produces them offset by offset, as chains over the list of the
  31 offsets in the kernel's order, and what it produces comes back in the reverse order.  A chain over a list without
  repetition that lists every offset is the separating conjunction over all offsets, whatever the order; a chain of
  pairs is the pair of the chains.  The 64 cell indices are 0 (barrier), `1 + k` (send cell `k`), `32 + k` (receive cell
  `k`) and 63 (copy), so a family over the indices other than 0 is its send part, its receive part and its copy member.
  The landing buffer is its 31 rows, and since `rev` is an involution of the offsets the rows may be listed as row
  `rev k` at offset `k`.  The source row held outright is a remainder and 31 read shares, one per offset.
-/
import proofs.«900937_g7700000000000938_dist_mean_ax0_shard0_i_m1024_n512_v7x_i32_f32_1_alg».proof.Proof.Data
import proofs.«900937_g7700000000000938_dist_mean_ax0_shard0_i_m1024_n512_v7x_i32_f32_1_alg».proof.Proof.LaunchGhost
import Mathlib.Logic.Equiv.Fin.Basic

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

/-! ## Chains over the list of offsets -/

omit [FloatOps F] in
theorem univ_eq_all31 (Φ : Fin 31 → sProp 𝕄) : bigSep Finset.univ Φ = bigSepL all31 Φ :=
  bigSep_univ_eq_bigSepL all31 (by decide) (by decide) Φ

omit [FloatOps F] in
/-- A chain of pairs is the pair of the chains. -/
theorem bigSepL_sep {I : Type} (l : List I) (Φ Ψ : I → sProp 𝕄) :
    bigSepL l (fun i => iprop(Φ i ∗ Ψ i)) ⊣⊢ iprop(bigSepL l Φ ∗ bigSepL l Ψ) := by
  induction l with
  | nil =>
    rw [bigSepL_nil, bigSepL_nil, bigSepL_nil]
    refine ⟨?_, ?_⟩
    · iintro -
      isplitl [] <;> iempintro
    · iintro ⟨-, -⟩
      iempintro
  | cons i l ih =>
    rw [bigSepL_cons, bigSepL_cons, bigSepL_cons]
    show iprop((Φ i ∗ Ψ i) ∗ bigSepL l fun i => iprop(Φ i ∗ Ψ i)) ⊣⊢ iprop((Φ i ∗ bigSepL l Φ) ∗ (Ψ i ∗ bigSepL l Ψ))
    refine ⟨?_, ?_⟩
    · iintro ⟨⟨H1, H2⟩, H⟩
      ihave H' := ih.1 $$ H
      icases H' with ⟨H3, H4⟩
      isplitl [H1 H3]
      · isplitl [H1]; · iexact H1
        iexact H3
      · isplitl [H2]; · iexact H2
        iexact H4
    · iintro ⟨⟨H1, H3⟩, ⟨H2, H4⟩⟩
      isplitl [H1 H2]
      · isplitl [H1]; · iexact H1
        iexact H2
      · iapply ih.2
        isplitl [H3]; · iexact H3
        iexact H4

omit [FloatOps F] in
/-- The offsets in reverse order are the same offsets: both chains are the conjunction over all of them. -/
theorem bigSepL_reverse_all31 (Φ : Fin 31 → sProp 𝕄) : bigSepL all31.reverse Φ = bigSepL all31 Φ :=
  (bigSep_univ_eq_bigSepL all31.reverse (by decide) (by decide) Φ).symm.trans (univ_eq_all31 Φ)

/-! ## The offsets read backwards -/

/-- `rev` as a permutation of the offsets: it is its own inverse. -/
def revEquiv : Fin 31 ≃ Fin 31 := ⟨rev, rev, rev_rev, rev_rev⟩

omit [FloatOps F] in
theorem bigSep_rev (Φ : Fin 31 → sProp 𝕄) : bigSep Finset.univ Φ = bigSep Finset.univ fun k : Fin 31 => Φ (rev k) :=
  bigSep_univ_equiv revEquiv Φ

/-! ## The 64 cell indices by role -/

/-- The 63 indices of a device's own cells, less one: the 31 send cells, then the 31 receive cells, then the copy cell. -/
def ownEquiv : (Fin 31 ⊕ Fin 31) ⊕ Fin 1 ≃ Fin 63 :=
  (Equiv.sumCongr (finSumFinEquiv (m := 31) (n := 31)) (Equiv.refl (Fin 1))).trans (finSumFinEquiv (m := 62) (n := 1))

omit [FloatOps F] in
theorem ownEquiv_send (k : Fin 31) : (ownEquiv (.inl (.inl k))).succ = jS k :=
  Fin.ext (by show k.val + 1 = 1 + k.val; omega)
omit [FloatOps F] in
theorem ownEquiv_recv (k : Fin 31) : (ownEquiv (.inl (.inr k))).succ = jR k :=
  Fin.ext (by show (31 + k.val) + 1 = 32 + k.val; omega)
omit [FloatOps F] in
theorem ownEquiv_copy (i : Fin 1) : (ownEquiv (.inr i)).succ = (63 : Fin 64) :=
  Fin.ext (by have := i.isLt; show (62 + i.val) + 1 = 63; omega)

omit [FloatOps F] in
/-- A family over the cell indices other than 0: its send part, its receive part, its copy member. -/
theorem own_split (Φ : Fin 64 → sProp 𝕄) :
    bigSep (Finset.univ.erase (0 : Fin 64)) Φ
      = iprop(((bigSep Finset.univ fun k : Fin 31 => Φ (jS k)) ∗ bigSep Finset.univ fun k : Fin 31 => Φ (jR k)) ∗ Φ 63) := by
  rw [erase_zero_eq, bigSep_map, bigSep_univ_equiv ownEquiv, bigSep_univ_sum, bigSep_univ_sum, bigSep_univ_of_subsingleton (0 : Fin 1)]
  show iprop(((bigSep Finset.univ fun k : Fin 31 => Φ (ownEquiv (.inl (.inl k))).succ)
      ∗ bigSep Finset.univ fun k : Fin 31 => Φ (ownEquiv (.inl (.inr k))).succ) ∗ Φ (ownEquiv (.inr 0)).succ) = _
  simp only [ownEquiv_send, ownEquiv_recv, ownEquiv_copy]

omit [FloatOps F] in
/-- A family over all 64 cell indices: the barrier member, and the rest by role. -/
theorem cells_split (Φ : Fin 64 → sProp 𝕄) :
    bigSep Finset.univ Φ
      = iprop(Φ 0 ∗ ((bigSep Finset.univ fun k : Fin 31 => Φ (jS k)) ∗ bigSep Finset.univ fun k : Fin 31 => Φ (jR k)) ∗ Φ 63) := by
  rw [bigSep_univ_at Φ (0 : Fin 64), own_split]

/-! ## The send waits: the credits the transfers left, with the positions -/

omit [FloatOps F] in
theorem mk_sendWaitRes (c : Dev nD) :
    iprop(bigSepL all31.reverse (credS (F := F) c) ∗ bigSepL all31 (sendPos (F := F) c)) ⊢ bigSepL all31 (sendWaitRes (F := F) c) := by
  rw [bigSepL_reverse_all31]
  exact (bigSepL_sep all31 (credS (F := F) c) (sendPos (F := F) c)).2

/-! ## The transfers: tokens, a read share of the source row, and the row the barrier brought -/

theorem mk_sendRes (c : Dev nD) :
    iprop(bigSepL all31 (sendToks (F := F) c) ∗ srcPts c fullShare (part (xs m) c) ∗ bigSep Finset.univ (fun d : Fin 31 => barPay (F := F) c d))
      ⊢ iprop(srcPts c (shareDrop fullShare 31) (part (xs m) c) ∗ bigSepL all31 (sendRes m c)) := by
  have hsrc : (srcPts c fullShare (part (xs m) c) : sProp 𝕄)
      ⊢ iprop(srcPts c (shareDrop fullShare 31) (part (xs m) c)
          ∗ bigSep Finset.univ fun k : Fin 31 => srcPts c (shareTok fullShare 31 k) (part (xs m) c)) :=
    pointsTo_toks_split fullShare 31
  have hbar (k : Fin 31) : barPay (F := F) c (rev k)
      = iprop((∃ f, rowPts (F := F) (dst c k) k f) ∗ reached ER (recvCell (dst c k) k) 0) :=
    congrArg (fun j : Fin 31 => (iprop((∃ f, rowPts (F := F) (dst c j) j f) ∗ reached ER (recvCell (dst c j) j) 0) : sProp 𝕄)) (rev_rev k)
  have hk (k : Fin 31) : iprop(sendToks (F := F) c k ∗ srcPts c (shareTok fullShare 31 k) (part (xs m) c) ∗ barPay (F := F) c (rev k))
      ⊢ sendRes m c k := by
    rw [hbar]; unfold sendToks sendRes
    iintro ⟨⟨H1, H2⟩, H3, H4, -⟩
    isplitl [H1]; · iexact H1
    isplitl [H2]; · iexact H2
    isplitl [H3]; · iexact H3
    iexact H4
  have hall : iprop((bigSep Finset.univ (sendToks (F := F) c))
        ∗ (bigSep Finset.univ fun k : Fin 31 => srcPts c (shareTok fullShare 31 k) (part (xs m) c))
        ∗ bigSep Finset.univ fun k : Fin 31 => barPay (F := F) c (rev k))
      ⊢ (bigSep Finset.univ (sendRes m c) : sProp 𝕄) := by
    rw [← bigSep_sep', ← bigSep_sep']
    exact bigSep_mono fun k _ => hk k
  rw [← univ_eq_all31, ← univ_eq_all31, bigSep_rev (fun d : Fin 31 => barPay (F := F) c d)]
  iintro ⟨Htok, Hsrc, Hbar⟩
  ihave Hs := hsrc $$ Hsrc
  icases Hs with ⟨Hdrop, Hsh⟩
  isplitl [Hdrop]; · iexact Hdrop
  iapply hall
  isplitl [Htok]; · iexact Htok
  isplitl [Hsh]; · iexact Hsh
  iexact Hbar

/-! ## The exit: the landing buffer joined, the source row whole again, the own cells at zero -/

theorem body_close (c : Dev nD) :
    iprop(bigSepL all31.reverse (recvGot m c) ∗ bigSepL all31.reverse (sendGot m c) ∗ srcPts c (shareDrop fullShare 31) (part (xs m) c) ∗ semVal (copyCell c) 0)
      ⊢ iprop((((c : Thread nD τ).loc cc0_scratch2) ↦{fullShare} recvd (xs m) c) ∗ srcPts c fullShare (part (xs m) c)
          ∗ bigSep (Finset.univ.erase (0 : Fin 64)) fun j => semVal (kcell (c, j)) 0) := by
  have hjoin : iprop(srcPts c (shareDrop fullShare 31) (part (xs m) c)
        ∗ bigSep Finset.univ fun k : Fin 31 => srcPts c (shareTok fullShare 31 k) (part (xs m) c))
      ⊢ (srcPts c fullShare (part (xs m) c) : sProp 𝕄) :=
    pointsTo_toks_join fullShare 31
  have hrows : (bigSep Finset.univ fun k : Fin 31 => recvPay m c k : sProp 𝕄)
      ⊢ (((c : Thread nD τ).loc cc0_scratch2) ↦{fullShare} recvd (xs m) c) :=
    rows_join_recvd (xs m) c
  have eR : (bigSep Finset.univ (recvGot m c) : sProp 𝕄)
      = iprop((bigSep Finset.univ fun k : Fin 31 => recvPay m c k) ∗ bigSep Finset.univ fun k : Fin 31 => semVal (recvCell c k) 0) :=
    bigSep_sep' Finset.univ (fun k : Fin 31 => recvPay m c k) (fun k => semVal (recvCell c k) 0)
  have eS : (bigSep Finset.univ (sendGot m c) : sProp 𝕄)
      = iprop((bigSep Finset.univ fun k : Fin 31 => srcPts c (shareTok fullShare 31 k) (part (xs m) c))
          ∗ bigSep Finset.univ fun k : Fin 31 => semVal (sendCell c k) 0) :=
    bigSep_sep' Finset.univ (fun k : Fin 31 => srcPts c (shareTok fullShare 31 k) (part (xs m) c)) (fun k => semVal (sendCell c k) 0)
  have eZ : (bigSep (Finset.univ.erase (0 : Fin 64)) fun j => (semVal (kcell (c, j)) 0 : sProp 𝕄))
      = iprop(((bigSep Finset.univ fun k : Fin 31 => semVal (sendCell c k) 0) ∗ bigSep Finset.univ fun k : Fin 31 => semVal (recvCell c k) 0)
          ∗ semVal (copyCell c) 0) := by
    rw [own_split (fun j => (semVal (kcell (c, j)) 0 : sProp 𝕄))]
    simp only [kcell_send, kcell_recv, kcell_copy]
  rw [bigSepL_reverse_all31, bigSepL_reverse_all31, ← univ_eq_all31, ← univ_eq_all31, eR, eS, eZ]
  iintro ⟨⟨Hrow, HzR⟩, ⟨Hsh, HzS⟩, Hdrop, HzC⟩
  isplitl [Hrow]; · iapply hrows; iexact Hrow
  isplitl [Hdrop Hsh]
  · iapply hjoin
    isplitl [Hdrop]; · iexact Hdrop
    iexact Hsh
  · isplitl [HzS HzR]
    · isplitl [HzS]; · iexact HzS
      iexact HzR
    · iexact HzC

/-! ## The entry: the ghost state dealt out offset by offset -/

theorem body_open (c : Dev nD) :
    iprop(ghost m K c ∗ cred (tallyAt (barCell c) () 31) ∗ (bigSep Finset.univ fun k : Fin 31 => cred (tallyAt (recvCell c k) () N))
        ∗ levAts L lv ∗ argPts m c ∗ scratch (F := F) c) ⊢ bodyOpen m K c := by
  have ePos : (positions (F := F) c : sProp 𝕄)
      = iprop(atPos ER (barCell c) 0 ∅ 0 ∗ ((bigSep Finset.univ fun k : Fin 31 => atPos ER (sendCell c k) 0 ∅ 0)
          ∗ bigSep Finset.univ fun k : Fin 31 => atPos ER (recvCell c k) 0 ∅ 0) ∗ atPos ER (copyCell c) 0 ∅ 0) := by
    unfold positions
    rw [cells_split (fun j => (atPos ER (kcell (c, j)) 0 ∅ 0 : sProp 𝕄))]
    simp only [kcell_bar, kcell_send, kcell_recv, kcell_copy]
  have eTok : (bigSep Finset.univ fun k : Fin 31 =>
        (iprop(dutyTok ER (barCell (dst c k)) 0 k ∗ dutyTok ER (recvCell (dst c k) k) 0 0 ∗ dutyTok ER (sendCell c k) 0 0) : sProp 𝕄))
      = iprop((bigSep Finset.univ fun k : Fin 31 => dutyTok ER (barCell (dst c k)) 0 k)
          ∗ (bigSep Finset.univ fun k : Fin 31 => dutyTok ER (recvCell (dst c k) k) 0 0)
          ∗ bigSep Finset.univ fun k : Fin 31 => dutyTok ER (sendCell c k) 0 0) := by
    rw [bigSep_sep', bigSep_sep']
  have hrow : iprop(∃ f : Buf (Elt F) ((c : Thread nD τ).loc cc0_scratch2), ((c : Thread nD τ).loc cc0_scratch2) ↦{fullShare} f)
      ⊢ (bigSep Finset.univ fun k : Fin 31 => iprop(∃ f, rowPts (F := F) c (rev k) f) : sProp 𝕄) :=
    (rows_split c).trans (Entails.of_eq (bigSep_rev (fun k : Fin 31 => (iprop(∃ f, rowPts (F := F) c k f) : sProp 𝕄))))
  have eSig : (bigSep Finset.univ (sigRes (F := F) c) : sProp 𝕄)
      = iprop((bigSep Finset.univ fun k : Fin 31 => dutyTok ER (barCell (dst c k)) 0 k)
          ∗ bigSep Finset.univ fun k : Fin 31 => iprop(∃ f, rowPts (F := F) c (rev k) f)) :=
    bigSep_sep' Finset.univ (fun k : Fin 31 => dutyTok ER (barCell (dst c k)) 0 k) (fun k => iprop(∃ f, rowPts (F := F) c (rev k) f))
  have eSend : (bigSep Finset.univ (sendToks (F := F) c) : sProp 𝕄)
      = iprop((bigSep Finset.univ fun k : Fin 31 => dutyTok ER (sendCell c k) 0 0)
          ∗ bigSep Finset.univ fun k : Fin 31 => dutyTok ER (recvCell (dst c k) k) 0 0) :=
    bigSep_sep' Finset.univ (fun k : Fin 31 => dutyTok ER (sendCell c k) 0 0) (fun k => dutyTok ER (recvCell (dst c k) k) 0 0)
  have eRecv : (bigSep Finset.univ (recvRes (F := F) c) : sProp 𝕄)
      = iprop((bigSep Finset.univ fun k : Fin 31 => cred (tallyAt (recvCell c k) () N))
          ∗ bigSep Finset.univ fun k : Fin 31 => atPos ER (recvCell c k) 0 ∅ 0) :=
    bigSep_sep' Finset.univ (fun k : Fin 31 => cred (tallyAt (recvCell c k) () N)) (fun k => atPos ER (recvCell c k) 0 ∅ 0)
  have eSP : (bigSep Finset.univ (sendPos (F := F) c) : sProp 𝕄) = bigSep Finset.univ fun k : Fin 31 => atPos ER (sendCell c k) 0 ∅ 0 := rfl
  unfold ghost payToks scratch bodyOpen
  rw [ePos, eTok, ← univ_eq_all31, ← univ_eq_all31, ← univ_eq_all31, ← univ_eq_all31, eSig, eSend, eRecv, eSP]
  iintro ⟨⟨HR, ⟨HaB, ⟨HaS, HaR⟩, HaC⟩, ⟨HtB, HtR, HtS⟩, HtC⟩, HcB, HcR, Hlev, Harg, Hs0, Hs1, Hs2⟩
  ihave Hrows := hrow $$ Hs2
  isplitl [HR]; · iexact HR
  isplitl [Hlev]; · iexact Hlev
  isplitl [Harg]; · iexact Harg
  isplitl [Hs0]; · iexact Hs0
  isplitl [Hs1]; · iexact Hs1
  isplitl [HaB HcB]
  · isplitl [HaB]; · iexact HaB
    iexact HcB
  isplitl [HaC HtC]
  · isplitl [HaC]; · iexact HaC
    iexact HtC
  isplitl [HtB Hrows]
  · isplitl [HtB]; · iexact HtB
    iexact Hrows
  isplitl [HtS HtR]
  · isplitl [HtS]; · iexact HtS
    iexact HtR
  isplitl [HcR HaR]
  · isplitl [HcR]; · iexact HcR
    iexact HaR
  iexact HaS

/-- info: 'Cert.KernelIdeal.Mean.body_open' depends on axioms: [propext, Classical.choice, Quot.sound] -/
#guard_msgs in #print axioms body_open

/-- info: 'Cert.KernelIdeal.Mean.body_close' depends on axioms: [propext, Classical.choice, Quot.sound] -/
#guard_msgs in #print axioms body_close

/-- info: 'Cert.KernelIdeal.Mean.mk_sendRes' depends on axioms: [propext, Classical.choice, Quot.sound] -/
#guard_msgs in #print axioms mk_sendRes

/-- info: 'Cert.KernelIdeal.Mean.mk_sendWaitRes' depends on axioms: [propext, Classical.choice, Quot.sound] -/
#guard_msgs in #print axioms mk_sendWaitRes

end Cert.KernelIdeal.Mean

end
-- ==== Proof.RingDevs.lean ====
/-
  The closed forms of the device-id chains 1 to 62 of the printed program.

  Each chain computes, in 32-bit words, `((c mod 32) + off) mod 32` with the sign correction of a floored
  remainder, for one offset `off` in 1, …, 31: chains 1 to 31 (the barrier signals) take off = 1, …, 31 in
  order, and chains 32 to 62 (the remote copies) take off = 1, …, 31 in order again.  So chain N names the
  device `dst c k` with `k + 1 = off`.  Each equation is checked by evaluating both sides at the 32 devices.
-/
import proofs.«900937_g7700000000000938_dist_mean_ax0_shard0_i_m1024_n512_v7x_i32_f32_1_alg».proof.Proof.Spec

noncomputable section

namespace Cert.KernelIdeal.Mean

open Cert.KernelIdeal Idealize.ShloMosaic

theorem dev1_val : ∀ c : Dev nD, k0_dev1 c = (dst c ⟨0, by decide⟩).val := by decide +kernel
theorem dev1_eq (c : Dev nD) (h : k0_dev1 c < nD) : (⟨k0_dev1 c, h⟩ : Dev nD) = dst c ⟨0, by decide⟩ :=
  Fin.ext (dev1_val c)

theorem dev2_val : ∀ c : Dev nD, k0_dev2 c = (dst c ⟨1, by decide⟩).val := by decide +kernel
theorem dev2_eq (c : Dev nD) (h : k0_dev2 c < nD) : (⟨k0_dev2 c, h⟩ : Dev nD) = dst c ⟨1, by decide⟩ :=
  Fin.ext (dev2_val c)

theorem dev3_val : ∀ c : Dev nD, k0_dev3 c = (dst c ⟨2, by decide⟩).val := by decide +kernel
theorem dev3_eq (c : Dev nD) (h : k0_dev3 c < nD) : (⟨k0_dev3 c, h⟩ : Dev nD) = dst c ⟨2, by decide⟩ :=
  Fin.ext (dev3_val c)

theorem dev4_val : ∀ c : Dev nD, k0_dev4 c = (dst c ⟨3, by decide⟩).val := by decide +kernel
theorem dev4_eq (c : Dev nD) (h : k0_dev4 c < nD) : (⟨k0_dev4 c, h⟩ : Dev nD) = dst c ⟨3, by decide⟩ :=
  Fin.ext (dev4_val c)

theorem dev5_val : ∀ c : Dev nD, k0_dev5 c = (dst c ⟨4, by decide⟩).val := by decide +kernel
theorem dev5_eq (c : Dev nD) (h : k0_dev5 c < nD) : (⟨k0_dev5 c, h⟩ : Dev nD) = dst c ⟨4, by decide⟩ :=
  Fin.ext (dev5_val c)

theorem dev6_val : ∀ c : Dev nD, k0_dev6 c = (dst c ⟨5, by decide⟩).val := by decide +kernel
theorem dev6_eq (c : Dev nD) (h : k0_dev6 c < nD) : (⟨k0_dev6 c, h⟩ : Dev nD) = dst c ⟨5, by decide⟩ :=
  Fin.ext (dev6_val c)

theorem dev7_val : ∀ c : Dev nD, k0_dev7 c = (dst c ⟨6, by decide⟩).val := by decide +kernel
theorem dev7_eq (c : Dev nD) (h : k0_dev7 c < nD) : (⟨k0_dev7 c, h⟩ : Dev nD) = dst c ⟨6, by decide⟩ :=
  Fin.ext (dev7_val c)

theorem dev8_val : ∀ c : Dev nD, k0_dev8 c = (dst c ⟨7, by decide⟩).val := by decide +kernel
theorem dev8_eq (c : Dev nD) (h : k0_dev8 c < nD) : (⟨k0_dev8 c, h⟩ : Dev nD) = dst c ⟨7, by decide⟩ :=
  Fin.ext (dev8_val c)

theorem dev9_val : ∀ c : Dev nD, k0_dev9 c = (dst c ⟨8, by decide⟩).val := by decide +kernel
theorem dev9_eq (c : Dev nD) (h : k0_dev9 c < nD) : (⟨k0_dev9 c, h⟩ : Dev nD) = dst c ⟨8, by decide⟩ :=
  Fin.ext (dev9_val c)

theorem dev10_val : ∀ c : Dev nD, k0_dev10 c = (dst c ⟨9, by decide⟩).val := by decide +kernel
theorem dev10_eq (c : Dev nD) (h : k0_dev10 c < nD) : (⟨k0_dev10 c, h⟩ : Dev nD) = dst c ⟨9, by decide⟩ :=
  Fin.ext (dev10_val c)

theorem dev11_val : ∀ c : Dev nD, k0_dev11 c = (dst c ⟨10, by decide⟩).val := by decide +kernel
theorem dev11_eq (c : Dev nD) (h : k0_dev11 c < nD) : (⟨k0_dev11 c, h⟩ : Dev nD) = dst c ⟨10, by decide⟩ :=
  Fin.ext (dev11_val c)

theorem dev12_val : ∀ c : Dev nD, k0_dev12 c = (dst c ⟨11, by decide⟩).val := by decide +kernel
theorem dev12_eq (c : Dev nD) (h : k0_dev12 c < nD) : (⟨k0_dev12 c, h⟩ : Dev nD) = dst c ⟨11, by decide⟩ :=
  Fin.ext (dev12_val c)

theorem dev13_val : ∀ c : Dev nD, k0_dev13 c = (dst c ⟨12, by decide⟩).val := by decide +kernel
theorem dev13_eq (c : Dev nD) (h : k0_dev13 c < nD) : (⟨k0_dev13 c, h⟩ : Dev nD) = dst c ⟨12, by decide⟩ :=
  Fin.ext (dev13_val c)

theorem dev14_val : ∀ c : Dev nD, k0_dev14 c = (dst c ⟨13, by decide⟩).val := by decide +kernel
theorem dev14_eq (c : Dev nD) (h : k0_dev14 c < nD) : (⟨k0_dev14 c, h⟩ : Dev nD) = dst c ⟨13, by decide⟩ :=
  Fin.ext (dev14_val c)

theorem dev15_val : ∀ c : Dev nD, k0_dev15 c = (dst c ⟨14, by decide⟩).val := by decide +kernel
theorem dev15_eq (c : Dev nD) (h : k0_dev15 c < nD) : (⟨k0_dev15 c, h⟩ : Dev nD) = dst c ⟨14, by decide⟩ :=
  Fin.ext (dev15_val c)

theorem dev16_val : ∀ c : Dev nD, k0_dev16 c = (dst c ⟨15, by decide⟩).val := by decide +kernel
theorem dev16_eq (c : Dev nD) (h : k0_dev16 c < nD) : (⟨k0_dev16 c, h⟩ : Dev nD) = dst c ⟨15, by decide⟩ :=
  Fin.ext (dev16_val c)

theorem dev17_val : ∀ c : Dev nD, k0_dev17 c = (dst c ⟨16, by decide⟩).val := by decide +kernel
theorem dev17_eq (c : Dev nD) (h : k0_dev17 c < nD) : (⟨k0_dev17 c, h⟩ : Dev nD) = dst c ⟨16, by decide⟩ :=
  Fin.ext (dev17_val c)

theorem dev18_val : ∀ c : Dev nD, k0_dev18 c = (dst c ⟨17, by decide⟩).val := by decide +kernel
theorem dev18_eq (c : Dev nD) (h : k0_dev18 c < nD) : (⟨k0_dev18 c, h⟩ : Dev nD) = dst c ⟨17, by decide⟩ :=
  Fin.ext (dev18_val c)

theorem dev19_val : ∀ c : Dev nD, k0_dev19 c = (dst c ⟨18, by decide⟩).val := by decide +kernel
theorem dev19_eq (c : Dev nD) (h : k0_dev19 c < nD) : (⟨k0_dev19 c, h⟩ : Dev nD) = dst c ⟨18, by decide⟩ :=
  Fin.ext (dev19_val c)

theorem dev20_val : ∀ c : Dev nD, k0_dev20 c = (dst c ⟨19, by decide⟩).val := by decide +kernel
theorem dev20_eq (c : Dev nD) (h : k0_dev20 c < nD) : (⟨k0_dev20 c, h⟩ : Dev nD) = dst c ⟨19, by decide⟩ :=
  Fin.ext (dev20_val c)

theorem dev21_val : ∀ c : Dev nD, k0_dev21 c = (dst c ⟨20, by decide⟩).val := by decide +kernel
theorem dev21_eq (c : Dev nD) (h : k0_dev21 c < nD) : (⟨k0_dev21 c, h⟩ : Dev nD) = dst c ⟨20, by decide⟩ :=
  Fin.ext (dev21_val c)

theorem dev22_val : ∀ c : Dev nD, k0_dev22 c = (dst c ⟨21, by decide⟩).val := by decide +kernel
theorem dev22_eq (c : Dev nD) (h : k0_dev22 c < nD) : (⟨k0_dev22 c, h⟩ : Dev nD) = dst c ⟨21, by decide⟩ :=
  Fin.ext (dev22_val c)

theorem dev23_val : ∀ c : Dev nD, k0_dev23 c = (dst c ⟨22, by decide⟩).val := by decide +kernel
theorem dev23_eq (c : Dev nD) (h : k0_dev23 c < nD) : (⟨k0_dev23 c, h⟩ : Dev nD) = dst c ⟨22, by decide⟩ :=
  Fin.ext (dev23_val c)

theorem dev24_val : ∀ c : Dev nD, k0_dev24 c = (dst c ⟨23, by decide⟩).val := by decide +kernel
theorem dev24_eq (c : Dev nD) (h : k0_dev24 c < nD) : (⟨k0_dev24 c, h⟩ : Dev nD) = dst c ⟨23, by decide⟩ :=
  Fin.ext (dev24_val c)

theorem dev25_val : ∀ c : Dev nD, k0_dev25 c = (dst c ⟨24, by decide⟩).val := by decide +kernel
theorem dev25_eq (c : Dev nD) (h : k0_dev25 c < nD) : (⟨k0_dev25 c, h⟩ : Dev nD) = dst c ⟨24, by decide⟩ :=
  Fin.ext (dev25_val c)

theorem dev26_val : ∀ c : Dev nD, k0_dev26 c = (dst c ⟨25, by decide⟩).val := by decide +kernel
theorem dev26_eq (c : Dev nD) (h : k0_dev26 c < nD) : (⟨k0_dev26 c, h⟩ : Dev nD) = dst c ⟨25, by decide⟩ :=
  Fin.ext (dev26_val c)

theorem dev27_val : ∀ c : Dev nD, k0_dev27 c = (dst c ⟨26, by decide⟩).val := by decide +kernel
theorem dev27_eq (c : Dev nD) (h : k0_dev27 c < nD) : (⟨k0_dev27 c, h⟩ : Dev nD) = dst c ⟨26, by decide⟩ :=
  Fin.ext (dev27_val c)

theorem dev28_val : ∀ c : Dev nD, k0_dev28 c = (dst c ⟨27, by decide⟩).val := by decide +kernel
theorem dev28_eq (c : Dev nD) (h : k0_dev28 c < nD) : (⟨k0_dev28 c, h⟩ : Dev nD) = dst c ⟨27, by decide⟩ :=
  Fin.ext (dev28_val c)

theorem dev29_val : ∀ c : Dev nD, k0_dev29 c = (dst c ⟨28, by decide⟩).val := by decide +kernel
theorem dev29_eq (c : Dev nD) (h : k0_dev29 c < nD) : (⟨k0_dev29 c, h⟩ : Dev nD) = dst c ⟨28, by decide⟩ :=
  Fin.ext (dev29_val c)

theorem dev30_val : ∀ c : Dev nD, k0_dev30 c = (dst c ⟨29, by decide⟩).val := by decide +kernel
theorem dev30_eq (c : Dev nD) (h : k0_dev30 c < nD) : (⟨k0_dev30 c, h⟩ : Dev nD) = dst c ⟨29, by decide⟩ :=
  Fin.ext (dev30_val c)

theorem dev31_val : ∀ c : Dev nD, k0_dev31 c = (dst c ⟨30, by decide⟩).val := by decide +kernel
theorem dev31_eq (c : Dev nD) (h : k0_dev31 c < nD) : (⟨k0_dev31 c, h⟩ : Dev nD) = dst c ⟨30, by decide⟩ :=
  Fin.ext (dev31_val c)

theorem dev32_val : ∀ c : Dev nD, k0_dev32 c = (dst c ⟨0, by decide⟩).val := by decide +kernel
theorem dev32_eq (c : Dev nD) (h : k0_dev32 c < nD) : (⟨k0_dev32 c, h⟩ : Dev nD) = dst c ⟨0, by decide⟩ :=
  Fin.ext (dev32_val c)

theorem dev33_val : ∀ c : Dev nD, k0_dev33 c = (dst c ⟨1, by decide⟩).val := by decide +kernel
theorem dev33_eq (c : Dev nD) (h : k0_dev33 c < nD) : (⟨k0_dev33 c, h⟩ : Dev nD) = dst c ⟨1, by decide⟩ :=
  Fin.ext (dev33_val c)

theorem dev34_val : ∀ c : Dev nD, k0_dev34 c = (dst c ⟨2, by decide⟩).val := by decide +kernel
theorem dev34_eq (c : Dev nD) (h : k0_dev34 c < nD) : (⟨k0_dev34 c, h⟩ : Dev nD) = dst c ⟨2, by decide⟩ :=
  Fin.ext (dev34_val c)

theorem dev35_val : ∀ c : Dev nD, k0_dev35 c = (dst c ⟨3, by decide⟩).val := by decide +kernel
theorem dev35_eq (c : Dev nD) (h : k0_dev35 c < nD) : (⟨k0_dev35 c, h⟩ : Dev nD) = dst c ⟨3, by decide⟩ :=
  Fin.ext (dev35_val c)

theorem dev36_val : ∀ c : Dev nD, k0_dev36 c = (dst c ⟨4, by decide⟩).val := by decide +kernel
theorem dev36_eq (c : Dev nD) (h : k0_dev36 c < nD) : (⟨k0_dev36 c, h⟩ : Dev nD) = dst c ⟨4, by decide⟩ :=
  Fin.ext (dev36_val c)

theorem dev37_val : ∀ c : Dev nD, k0_dev37 c = (dst c ⟨5, by decide⟩).val := by decide +kernel
theorem dev37_eq (c : Dev nD) (h : k0_dev37 c < nD) : (⟨k0_dev37 c, h⟩ : Dev nD) = dst c ⟨5, by decide⟩ :=
  Fin.ext (dev37_val c)

theorem dev38_val : ∀ c : Dev nD, k0_dev38 c = (dst c ⟨6, by decide⟩).val := by decide +kernel
theorem dev38_eq (c : Dev nD) (h : k0_dev38 c < nD) : (⟨k0_dev38 c, h⟩ : Dev nD) = dst c ⟨6, by decide⟩ :=
  Fin.ext (dev38_val c)

theorem dev39_val : ∀ c : Dev nD, k0_dev39 c = (dst c ⟨7, by decide⟩).val := by decide +kernel
theorem dev39_eq (c : Dev nD) (h : k0_dev39 c < nD) : (⟨k0_dev39 c, h⟩ : Dev nD) = dst c ⟨7, by decide⟩ :=
  Fin.ext (dev39_val c)

theorem dev40_val : ∀ c : Dev nD, k0_dev40 c = (dst c ⟨8, by decide⟩).val := by decide +kernel
theorem dev40_eq (c : Dev nD) (h : k0_dev40 c < nD) : (⟨k0_dev40 c, h⟩ : Dev nD) = dst c ⟨8, by decide⟩ :=
  Fin.ext (dev40_val c)

theorem dev41_val : ∀ c : Dev nD, k0_dev41 c = (dst c ⟨9, by decide⟩).val := by decide +kernel
theorem dev41_eq (c : Dev nD) (h : k0_dev41 c < nD) : (⟨k0_dev41 c, h⟩ : Dev nD) = dst c ⟨9, by decide⟩ :=
  Fin.ext (dev41_val c)

theorem dev42_val : ∀ c : Dev nD, k0_dev42 c = (dst c ⟨10, by decide⟩).val := by decide +kernel
theorem dev42_eq (c : Dev nD) (h : k0_dev42 c < nD) : (⟨k0_dev42 c, h⟩ : Dev nD) = dst c ⟨10, by decide⟩ :=
  Fin.ext (dev42_val c)

theorem dev43_val : ∀ c : Dev nD, k0_dev43 c = (dst c ⟨11, by decide⟩).val := by decide +kernel
theorem dev43_eq (c : Dev nD) (h : k0_dev43 c < nD) : (⟨k0_dev43 c, h⟩ : Dev nD) = dst c ⟨11, by decide⟩ :=
  Fin.ext (dev43_val c)

theorem dev44_val : ∀ c : Dev nD, k0_dev44 c = (dst c ⟨12, by decide⟩).val := by decide +kernel
theorem dev44_eq (c : Dev nD) (h : k0_dev44 c < nD) : (⟨k0_dev44 c, h⟩ : Dev nD) = dst c ⟨12, by decide⟩ :=
  Fin.ext (dev44_val c)

theorem dev45_val : ∀ c : Dev nD, k0_dev45 c = (dst c ⟨13, by decide⟩).val := by decide +kernel
theorem dev45_eq (c : Dev nD) (h : k0_dev45 c < nD) : (⟨k0_dev45 c, h⟩ : Dev nD) = dst c ⟨13, by decide⟩ :=
  Fin.ext (dev45_val c)

theorem dev46_val : ∀ c : Dev nD, k0_dev46 c = (dst c ⟨14, by decide⟩).val := by decide +kernel
theorem dev46_eq (c : Dev nD) (h : k0_dev46 c < nD) : (⟨k0_dev46 c, h⟩ : Dev nD) = dst c ⟨14, by decide⟩ :=
  Fin.ext (dev46_val c)

theorem dev47_val : ∀ c : Dev nD, k0_dev47 c = (dst c ⟨15, by decide⟩).val := by decide +kernel
theorem dev47_eq (c : Dev nD) (h : k0_dev47 c < nD) : (⟨k0_dev47 c, h⟩ : Dev nD) = dst c ⟨15, by decide⟩ :=
  Fin.ext (dev47_val c)

theorem dev48_val : ∀ c : Dev nD, k0_dev48 c = (dst c ⟨16, by decide⟩).val := by decide +kernel
theorem dev48_eq (c : Dev nD) (h : k0_dev48 c < nD) : (⟨k0_dev48 c, h⟩ : Dev nD) = dst c ⟨16, by decide⟩ :=
  Fin.ext (dev48_val c)

theorem dev49_val : ∀ c : Dev nD, k0_dev49 c = (dst c ⟨17, by decide⟩).val := by decide +kernel
theorem dev49_eq (c : Dev nD) (h : k0_dev49 c < nD) : (⟨k0_dev49 c, h⟩ : Dev nD) = dst c ⟨17, by decide⟩ :=
  Fin.ext (dev49_val c)

theorem dev50_val : ∀ c : Dev nD, k0_dev50 c = (dst c ⟨18, by decide⟩).val := by decide +kernel
theorem dev50_eq (c : Dev nD) (h : k0_dev50 c < nD) : (⟨k0_dev50 c, h⟩ : Dev nD) = dst c ⟨18, by decide⟩ :=
  Fin.ext (dev50_val c)

theorem dev51_val : ∀ c : Dev nD, k0_dev51 c = (dst c ⟨19, by decide⟩).val := by decide +kernel
theorem dev51_eq (c : Dev nD) (h : k0_dev51 c < nD) : (⟨k0_dev51 c, h⟩ : Dev nD) = dst c ⟨19, by decide⟩ :=
  Fin.ext (dev51_val c)

theorem dev52_val : ∀ c : Dev nD, k0_dev52 c = (dst c ⟨20, by decide⟩).val := by decide +kernel
theorem dev52_eq (c : Dev nD) (h : k0_dev52 c < nD) : (⟨k0_dev52 c, h⟩ : Dev nD) = dst c ⟨20, by decide⟩ :=
  Fin.ext (dev52_val c)

theorem dev53_val : ∀ c : Dev nD, k0_dev53 c = (dst c ⟨21, by decide⟩).val := by decide +kernel
theorem dev53_eq (c : Dev nD) (h : k0_dev53 c < nD) : (⟨k0_dev53 c, h⟩ : Dev nD) = dst c ⟨21, by decide⟩ :=
  Fin.ext (dev53_val c)

theorem dev54_val : ∀ c : Dev nD, k0_dev54 c = (dst c ⟨22, by decide⟩).val := by decide +kernel
theorem dev54_eq (c : Dev nD) (h : k0_dev54 c < nD) : (⟨k0_dev54 c, h⟩ : Dev nD) = dst c ⟨22, by decide⟩ :=
  Fin.ext (dev54_val c)

theorem dev55_val : ∀ c : Dev nD, k0_dev55 c = (dst c ⟨23, by decide⟩).val := by decide +kernel
theorem dev55_eq (c : Dev nD) (h : k0_dev55 c < nD) : (⟨k0_dev55 c, h⟩ : Dev nD) = dst c ⟨23, by decide⟩ :=
  Fin.ext (dev55_val c)

theorem dev56_val : ∀ c : Dev nD, k0_dev56 c = (dst c ⟨24, by decide⟩).val := by decide +kernel
theorem dev56_eq (c : Dev nD) (h : k0_dev56 c < nD) : (⟨k0_dev56 c, h⟩ : Dev nD) = dst c ⟨24, by decide⟩ :=
  Fin.ext (dev56_val c)

theorem dev57_val : ∀ c : Dev nD, k0_dev57 c = (dst c ⟨25, by decide⟩).val := by decide +kernel
theorem dev57_eq (c : Dev nD) (h : k0_dev57 c < nD) : (⟨k0_dev57 c, h⟩ : Dev nD) = dst c ⟨25, by decide⟩ :=
  Fin.ext (dev57_val c)

theorem dev58_val : ∀ c : Dev nD, k0_dev58 c = (dst c ⟨26, by decide⟩).val := by decide +kernel
theorem dev58_eq (c : Dev nD) (h : k0_dev58 c < nD) : (⟨k0_dev58 c, h⟩ : Dev nD) = dst c ⟨26, by decide⟩ :=
  Fin.ext (dev58_val c)

theorem dev59_val : ∀ c : Dev nD, k0_dev59 c = (dst c ⟨27, by decide⟩).val := by decide +kernel
theorem dev59_eq (c : Dev nD) (h : k0_dev59 c < nD) : (⟨k0_dev59 c, h⟩ : Dev nD) = dst c ⟨27, by decide⟩ :=
  Fin.ext (dev59_val c)

theorem dev60_val : ∀ c : Dev nD, k0_dev60 c = (dst c ⟨28, by decide⟩).val := by decide +kernel
theorem dev60_eq (c : Dev nD) (h : k0_dev60 c < nD) : (⟨k0_dev60 c, h⟩ : Dev nD) = dst c ⟨28, by decide⟩ :=
  Fin.ext (dev60_val c)

theorem dev61_val : ∀ c : Dev nD, k0_dev61 c = (dst c ⟨29, by decide⟩).val := by decide +kernel
theorem dev61_eq (c : Dev nD) (h : k0_dev61 c < nD) : (⟨k0_dev61 c, h⟩ : Dev nD) = dst c ⟨29, by decide⟩ :=
  Fin.ext (dev61_val c)

theorem dev62_val : ∀ c : Dev nD, k0_dev62 c = (dst c ⟨30, by decide⟩).val := by decide +kernel
theorem dev62_eq (c : Dev nD) (h : k0_dev62 c < nD) : (⟨k0_dev62 c, h⟩ : Dev nD) = dst c ⟨30, by decide⟩ :=
  Fin.ext (dev62_val c)

end Cert.KernelIdeal.Mean

end
-- ==== Proof.Body.lean ====
/-
  One device's body, stepped from its entry invariant to its exit invariant: the 31 signals (each hands a row of
  the landing buffer to the device it addresses), the local copy of the block and its wait, the partial (the block's
  column sums times 2^-15) stored in the source row, the wait for all 31 units on the barrier cell (which brings the
  31 rows this device may write), the 31 transfers of the source row (each from its own share of it), the 31 waits on
  the receive cells (each brings a landed row), the 31 waits on the send cells (each brings a share back), and the
  result: the own partial plus the column sums of the landed rows.
-/
import proofs.«900937_g7700000000000938_dist_mean_ax0_shard0_i_m1024_n512_v7x_i32_f32_1_alg».proof.Proof.Regroup
import proofs.«900937_g7700000000000938_dist_mean_ax0_shard0_i_m1024_n512_v7x_i32_f32_1_alg».proof.Proof.RingDevs
import proofs.«900937_g7700000000000938_dist_mean_ax0_shard0_i_m1024_n512_v7x_i32_f32_1_alg».proof.Proof.Gen.KernelIdeal.Points

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

abbrev xvM : Memref sig .tc .vmem S1024x512 .f32 := Memref.whole cc0_scratch0
abbrev outM : Memref sig .tc .vmem S1x512 .f32 := Memref.whole cc0_stg0_0

set_option hygiene false in
/-- One signal: the rule at the head of the offsets still to be signalled. -/
macro "sig_step" : tactic => `(tactic|
  (iapply (step_signal m K c _ _ _ _) $$ [HO Hsig]
   · (isplitr; · iexact HR); (isplitl [HO]; · iexact HO); iexact Hsig
   iintro ⟨HO, Hsig⟩))

set_option hygiene false in
/-- One transfer, at offset `k + 1`, with the closed form of the device it addresses. -/
macro "send_step" k:term:max h:term:max : tactic => `(tactic|
  (iapply (step_send m K c $k _ ($h c _) _ _ _ _) $$ [HO Hsnd Hacc]
   · (isplitr; · iexact HR); (isplitl [HO]; · iexact HO); (isplitl [Hsnd]; · iexact Hsnd); iexact Hacc
   iintro ⟨HO, Hsnd, Hacc⟩))

set_option hygiene false in
/-- One wait on receive cell `k`. -/
macro "recv_step" k:term:max : tactic => `(tactic|
  (iapply (step_recv_wait m K c $k _ _ _) $$ [HO Hrcv HaccR]
   · (isplitr; · iexact HR); (isplitl [HO]; · iexact HO); (isplitl [Hrcv]; · iexact Hrcv); iexact HaccR
   iintro ⟨HO, Hrcv, HaccR⟩))

set_option hygiene false in
/-- One wait on send cell `k`. -/
macro "sendw_step" k:term:max : tactic => `(tactic|
  (iapply (step_send_wait m K c $k _ _ _) $$ [HO Hsw HaccS]
   · (isplitr; · iexact HR); (isplitl [HO]; · iexact HO); (isplitl [Hsw]; · iexact Hsw); iexact HaccS
   iintro ⟨HO, Hsw, HaccS⟩))

omit [FloatOps F] in
/-- The source row's assertion is the points-to of its whole buffer. -/
theorem srcPts_eq (c : Dev nD) (q : PosShare TreeShare) (f : (cc0_scratch1 : Ref sig .tc).ty.Contents (Elt F)) :
    srcPts c q f = (((c : Thread nD τ).loc cc0_scratch1) ↦{q} f : sProp 𝕄) := by
  unfold srcPts; simp only [Memref.view_whole, View.set_whole]

omit [FloatOps F] in
/-- Once every signal and transfer is made, nothing is owed. -/
theorem owes_done (c : Dev nD) (W : Waits sig Unit) :
    (owes (c : Thread nD τ) (owedR c [] + owedB c []) W : sProp 𝕄) ⊢ owes (c : Thread nD τ) 0 W :=
  Entails.of_eq (congrArg (fun O => (owes (c : Thread nD τ) O W : sProp 𝕄)) (add_zero (0 : CellTallies nD τ sig Unit)))

/-- What the body ends with, handed to its continuation. -/
def bodyEnd (c : Dev nD) : sProp 𝕄 :=
  iprop((∃ W, owes (c : Thread nD τ) 0 W) ∗ argPts m c
    ∗ (bigSep (Finset.univ.erase (0 : Fin 64)) fun j => semVal (kcell (c, j)) 0)
    ∗ scratch (F := F) c
    ∗ (((c : Thread nD τ).loc cc0_stg0_0) ↦{fullShare} (outAt (xs m) c : Buf (Elt F) ((c : Thread nD τ).loc cc0_stg0_0))))

set_option maxHeartbeats 8000000 in
set_option maxRecDepth 65536 in
theorem sound_body (c : Dev nD) (Kt : PUnit → sProp 𝕄) (W : Waits sig Unit) (g1 : Buf (Elt F) ((c : Thread nD τ).loc cc0_stg0_0)) :
    iprop(bodyOpen m K c ∗ owes (c : Thread nD τ) (O₀ c) W ∗ (((c : Thread nD τ).loc cc0_stg0_0) ↦{fullShare} g1) ∗ (bodyEnd m c -∗ Kt ⟨⟩))
      ⊢ wp frame (wpE (defs₀ (F := F)) 𝒱₀ (c : Thread nD τ) none) Set.univ
          (cc0_body (Memref.whole main_arg0) (Memref.isWhole_whole _) (Memref.whole cc0_stg0_0) (hstage0_0 0) (Memref.whole cc0_scratch0) (Memref.isWhole_whole _)
            (Memref.whole cc0_scratch1) (Memref.isWhole_whole _) (Memref.whole cc0_scratch2) (Memref.isWhole_whole _) cc0_scratch3 cc0_scratch4 cc0_scratch5) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c, dev46_eq c, dev47_eq c, dev48_eq c, dev49_eq c, dev50_eq c, dev51_eq c, dev52_eq c, dev53_eq c, dev54_eq c, dev55_eq c, dev56_eq c, dev57_eq c, dev58_eq c, dev59_eq c, dev60_eq c, dev61_eq c, dev62_eq c]
  unfold bodyOpen O₀ all31 argPts
  iintro ⟨⟨#HR, #Hlev, Harg, ⟨%fx, Hxv⟩, ⟨%fp, Hsrc⟩, ⟨HatB, HcB⟩, ⟨HatC, HtC⟩, Hsig, Hstk, Hrcv, Hspos⟩, HO, Hout, Hk⟩
  -- the 31 signals
  iterate 31 sig_step
  -- the local copy of the block and its wait
  iapply (step_copy m K c fx) $$ [Harg Hxv HtC]
  · (isplitr; · iexact HR); (isplitl [Harg]; · iexact Harg); (isplitl [Hxv]; · iexact Hxv); iexact HtC
  iintro HcC
  iapply (step_copy_wait m K c _ _ (mayWait_low c (.dma copyQ) (lv_copy c ()) _ [])) $$ [HcC HO HatC]
  · (isplitr; · iexact HR); (isplitr; · iexact Hlev); (isplitl [HcC]; · iexact HcC); (isplitl [HO]; · iexact HO); iexact HatC
  iintro ⟨HO, Hcp, HzC⟩
  unfold copyPay
  icases Hcp with ⟨Hxv, Harg⟩
  -- the partial: the block's column sums, scaled, into the source row
  iapply (wp_load 𝒱₀ (c : Thread nD τ) none Set.univ (m := xvM) (Finset.subset_univ _)) $$ Hxv; iintro Hxv
  rw [read_xvmem]
  iapply (wp_load 𝒱₀ (c : Thread nD τ) none Set.univ (m := srcM) (Finset.subset_univ _)) $$ Hsrc; iintro Hsrc
  iapply (wp_store 𝒱₀ (c : Thread nD τ) none Set.univ (m := srcM) (r := Rect.unit (s := S1x512) ![0, 0] S1x512.size inb_S1x512_S1x512_0_0) (Mk := Finset.univ) (Finset.subset_univ _)) $$ Hsrc; iintro Hsrc
  rw [write_src]
  -- the barrier wait: the 31 rows this device may write
  iapply (step_bar_wait m K c _ _ (mayWait_bar c _)) $$ [HcB HO HatB]
  · (isplitr; · iexact HR); (isplitr; · iexact Hlev); (isplitl [HcB]; · iexact HcB); (isplitl [HO]; · iexact HO); iexact HatB
  iintro ⟨HO, Hbar⟩
  ihave Hsnd := (mk_sendRes m c) $$ [Hstk Hsrc Hbar]
  · (isplitl [Hstk]; · unfold all31; iexact Hstk); (isplitl [Hsrc]; · unfold srcPts part xs; simp only [Memref.view_whole, View.set_whole]; iexact Hsrc); iexact Hbar
  icases Hsnd with ⟨Hrem, Hsnd⟩
  unfold all31
  ihave HO := (sep_emp.2 : _ ⊢ iprop(_ ∗ emp)) $$ HO
  icases HO with ⟨HO, Hacc⟩
  ihave Hacc := (show (iprop(emp) : sProp 𝕄) ⊢ bigSepL ([] : List (Fin 31)) (credS (F := F) c) from Entails.of_eq rfl) $$ Hacc
  -- the 31 transfers
  send_step 0 dev32_eq
  send_step 1 dev33_eq
  send_step 2 dev34_eq
  send_step 3 dev35_eq
  send_step 4 dev36_eq
  send_step 5 dev37_eq
  send_step 6 dev38_eq
  send_step 7 dev39_eq
  send_step 8 dev40_eq
  send_step 9 dev41_eq
  send_step 10 dev42_eq
  send_step 11 dev43_eq
  send_step 12 dev44_eq
  send_step 13 dev45_eq
  send_step 14 dev46_eq
  send_step 15 dev47_eq
  send_step 16 dev48_eq
  send_step 17 dev49_eq
  send_step 18 dev50_eq
  send_step 19 dev51_eq
  send_step 20 dev52_eq
  send_step 21 dev53_eq
  send_step 22 dev54_eq
  send_step 23 dev55_eq
  send_step 24 dev56_eq
  send_step 25 dev57_eq
  send_step 26 dev58_eq
  send_step 27 dev59_eq
  send_step 28 dev60_eq
  send_step 29 dev61_eq
  send_step 30 dev62_eq
  ihave HO := (owes_done (F := F) c _) $$ HO
  ihave Hsw := (mk_sendWaitRes (F := F) c) $$ [Hacc Hspos]
  · (isplitl [Hacc]; · iexact Hacc); unfold all31; iexact Hspos
  unfold all31
  ihave HO := (sep_emp.2 : _ ⊢ iprop(_ ∗ emp)) $$ HO
  icases HO with ⟨HO, HaccR⟩
  ihave HaccR := (show (iprop(emp) : sProp 𝕄) ⊢ bigSepL ([] : List (Fin 31)) (recvGot m c) from Entails.of_eq rfl) $$ HaccR
  -- the 31 waits on the receive cells
  recv_step 0
  recv_step 1
  recv_step 2
  recv_step 3
  recv_step 4
  recv_step 5
  recv_step 6
  recv_step 7
  recv_step 8
  recv_step 9
  recv_step 10
  recv_step 11
  recv_step 12
  recv_step 13
  recv_step 14
  recv_step 15
  recv_step 16
  recv_step 17
  recv_step 18
  recv_step 19
  recv_step 20
  recv_step 21
  recv_step 22
  recv_step 23
  recv_step 24
  recv_step 25
  recv_step 26
  recv_step 27
  recv_step 28
  recv_step 29
  recv_step 30
  ihave HO := (sep_emp.2 : _ ⊢ iprop(_ ∗ emp)) $$ HO
  icases HO with ⟨HO, HaccS⟩
  ihave HaccS := (show (iprop(emp) : sProp 𝕄) ⊢ bigSepL ([] : List (Fin 31)) (sendGot m c) from Entails.of_eq rfl) $$ HaccS
  -- the 31 waits on the send cells
  sendw_step 0
  sendw_step 1
  sendw_step 2
  sendw_step 3
  sendw_step 4
  sendw_step 5
  sendw_step 6
  sendw_step 7
  sendw_step 8
  sendw_step 9
  sendw_step 10
  sendw_step 11
  sendw_step 12
  sendw_step 13
  sendw_step 14
  sendw_step 15
  sendw_step 16
  sendw_step 17
  sendw_step 18
  sendw_step 19
  sendw_step 20
  sendw_step 21
  sendw_step 22
  sendw_step 23
  sendw_step 24
  sendw_step 25
  sendw_step 26
  sendw_step 27
  sendw_step 28
  sendw_step 29
  sendw_step 30
  ihave Hend := (body_close m c) $$ [HaccR HaccS Hrem HzC]
  · (isplitl [HaccR]; · iexact HaccR); (isplitl [HaccS]; · iexact HaccS); (isplitl [Hrem]; · iexact Hrem); iexact HzC
  icases Hend with ⟨Hrows, Hsrc, Hsems⟩
  -- the result: the own partial plus the column sums of the landed rows
  ihave Hsrc := (Entails.of_eq (srcPts_eq (F := F) c _ _)) $$ Hsrc
  iapply (wp_load 𝒱₀ (c : Thread nD τ) none Set.univ (m := srcM) (Finset.subset_univ _)) $$ Hsrc; iintro Hsrc
  rw [read_src]
  iapply (wp_load 𝒱₀ (c : Thread nD τ) none Set.univ (m := rcvM) (Finset.subset_univ _)) $$ Hrows; iintro Hrows
  rw [read_rcv]
  iapply (wp_load 𝒱₀ (c : Thread nD τ) none Set.univ (m := outM) (Finset.subset_univ _)) $$ Hout; iintro Hout
  iapply (wp_store 𝒱₀ (c : Thread nD τ) none Set.univ (m := outM) (r := Rect.unit (s := S1x512) ![0, 0] S1x512.size inb_S1x512_S1x512_0_0) (Mk := Finset.univ) (Finset.subset_univ _)) $$ Hout; iintro Hout
  rw [write_out, wp_ret]; imodintro
  iapply Hk
  unfold bodyEnd scratch argPts
  isplitl [HO]; · iexists _; iexact HO
  isplitl [Harg]; · iexact Harg
  isplitl [Hsems]; · iexact Hsems
  isplitl [Hxv Hsrc Hrows]
  · (isplitl [Hxv]; · iexists _; iexact Hxv); (isplitl [Hsrc]; · iexists _; simp only [Memref.view_whole, View.set_whole]; iexact Hsrc); iexists _; iexact Hrows
  iexact Hout

/-! ## The library's body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The body obligation of the launch on device `c`: the entry invariant opened, the body stepped, the exit
    invariant put together. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body (Memref.whole main_arg0) (Memref.isWhole_whole _) (Memref.whole cc0_stg0_0) (hstage0_0 0) (Memref.whole cc0_scratch0) (Memref.isWhole_whole _)
      (Memref.whole cc0_scratch1) (Memref.isWhole_whole _) (Memref.whole cc0_scratch2) (Memref.isWhole_whole _) cc0_scratch3 cc0_scratch4 cc0_scratch5) (fun _ => bodyPost m ρ c)
  unfold bodyPre' Φ₀ start G'
  iintro ⟨⟨⟨⟨%K, Hg⟩, HcB, HcR, Hlev, Harg⟩, Hscr⟩, Ho, ⟨%d, %g1, %hg1, Hout⟩⟩
  unfold Dat.owesAt Pipeline.owesWithin
  icases Ho with ⟨%W, %hW, HO⟩
  rw [show (dats m ρ 0 c).owed t₀.castSucc = O₀ c from rfl]
  iapply (sound_body m K c (fun _ => bodyPost m ρ c) W g1)
  isplitl [Hg HcB HcR Hlev Harg Hscr]
  · iapply (body_open m K c)
    isplitl [Hg]; · iexact Hg
    isplitl [HcB]; · iexact HcB
    isplitl [HcR]; · iexact HcR
    isplitl [Hlev]; · iexact Hlev
    isplitl [Harg]; · iexact Harg
    iexact Hscr
  isplitl [HO]; · iexact HO
  isplitl [Hout]; · iexact Hout
  iintro Hend
  unfold bodyEnd bodyPost Φ₁ Dat.owesAt Pipeline.owesWithin
  icases Hend with ⟨⟨%W', HO⟩, Harg, Hsems, Hscr, Hout⟩
  rw [show (dats m ρ 0 c).owed t₀.succ = 0 from rfl]
  isplitl [Harg Hsems Hscr]
  · isplitl [Harg]; · iexact Harg
    isplitl [Hsems]; · iexact Hsems
    iexact Hscr
  isplitl [HO]
  · iexists W'; isplitr; · ipureintro; exact fun _ _ => Or.inl trivial
    iexact HO
  iexists _; isplitr; · (ipureintro; rfl)
  iexact Hout

end Cert.KernelIdeal.Mean

end
-- ==== Proof.K.Spec.lean ====
/-
  The ring of 32 devices and what each device computes, as pure functions of the devices' blocks.

  Every device `c` reduces its block of 1024 rows to one row of scaled column sums (its PARTIAL: the column
  sums times 2^-15), sends that row to every other device — the device `k + 1` places after it receives it in
  row `k` of its landing buffer — and adds its own partial to the column sums of the 31 rows that landed.
  So row `k` of device `c`'s landing buffer holds the partial of the device `k + 1` places BEFORE `c`.
-/
import proofs.«900937_g7700000000000938_dist_mean_ax0_shard0_i_m1024_n512_v7x_i32_f32_1_alg».proof.Proof.Gen.Kernel
import proofs.«900937_g7700000000000938_dist_mean_ax0_shard0_i_m1024_n512_v7x_i32_f32_1_alg».proof.Proof.Gen.Kernel.Skeleton
import Idealize.ShloMosaic.Lib.ValueIdx

noncomputable section

namespace Cert.Kernel.Mean

open Cert.Kernel Cert.Kernel.Gen
open Idealize.ShloMosaic

variable {F : FTy → Type} [FloatOps F]

/-- The device `k + 1` places after `c` on the ring of 32: whom `c` addresses at offset `k + 1`. -/
def dst (c : Dev nD) (k : Fin 31) : Dev nD := ⟨(c.val + k.val + 1) % 32, Nat.mod_lt _ (by decide)⟩

/-- The device `k + 1` places before `c`: the one whose offset `k + 1` addresses `c`. -/
def src (c : Dev nD) (k : Fin 31) : Dev nD := ⟨(c.val + 31 - k.val) % 32, Nat.mod_lt _ (by decide)⟩

/-- The offset that leads back: `k + 1` and `rev k + 1` add up to 32. -/
def rev (k : Fin 31) : Fin 31 := ⟨30 - k.val, by omega⟩

/-- Device `c`'s partial: the column sums of its block, times 2^-15. -/
def part (x : Dev nD → Vec F S1024x512 .f32) (c : Dev nD) : FVec F S1x512 .f32 := k0_pay2 (x c)

/-- Device `c`'s landing buffer once all 31 rows have landed: row `k` is the partial of `src c k`. -/
def recvd (x : Dev nD → Vec F S1024x512 .f32) (c : Dev nD) : Vec F S31x1x512 .f32 :=
  fun i => part x (src c (i 0)) (ValueIdx.ix2 (0 : Fin 1) (i 2))

/-- Device `c`'s result row: its own partial plus the column sums of the landed rows. -/
def outAt (x : Dev nD → Vec F S1024x512 .f32) (c : Dev nD) : FVec F S1x512 .f32 := k0_pay1 (part x c) (recvd x c)

end Cert.Kernel.Mean

end
-- ==== Proof.K.Views.lean ====
/-
  The memory views of the kernel's scratch buffers on a device of the ring, and how the landing buffer is held by rows.

  A device's landing buffer has 31 rows of 512 words; row `k` is where the partial of the device `k + 1` places
  before it lands. Row `k` as a view is the unit-stride rectangle of the buffer at offset `(k, 0, 0)` with sizes
  `(1, 1, 512)`, indexed as a `1 × 512` array. The 31 rows are pairwise disjoint and cover the buffer, so the buffer
  held outright is its 31 rows held outright (SPLIT), and 31 rows held outright, row `k` overwritten by the source row
  `p k`, are the buffer held outright at the contents whose row `k` is `p k` (JOIN). Reading or writing a whole buffer
  through the rectangle of its own sizes at offset zero reads or writes its contents; a whole-to-whole copy leaves the
  source's contents in the destination.
-/
import proofs.«900937_g7700000000000938_dist_mean_ax0_shard0_i_m1024_n512_v7x_i32_f32_1_alg».proof.Proof.K.Spec
import proofs.«900937_g7700000000000938_dist_mean_ax0_shard0_i_m1024_n512_v7x_i32_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Pipeline.Value

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: two copies side by side, the staging cells' and the ring's cells' (one duty per offset `k + 1`, named `k : Fin 31`) -/

abbrev UB : Type := URounds (GSem nD τ sig) (Fin 31)
abbrev UU : Type := UR sig nD τ × UB

local notation "𝕄" => MT nD τ sig Unit (Elt F) ℕ UU ℕ

/-! ## The memrefs -/

/-- The source of all 31 remote copies: the device's row of partial sums. -/
abbrev srcM : Memref sig .tc .vmem S1x512 .f32 := Memref.whole cc0_scratch1
/-- The landing buffer, whole. -/
abbrev rcvM : Memref sig .tc .vmem S31x1x512 .f32 := Memref.whole cc0_scratch2

/-- Row `k` lies inside the landing buffer. -/
theorem row_inb (k : Fin 31) : ∀ a, (![k.val, 0, 0] : Fin 3 → Nat) a + S1x1x512.size a ≤ S31x1x512.size a := by
  intro a; fin_cases a
  · show k.val + 1 ≤ 31; omega
  · show 0 + 1 ≤ 1; omega
  · show 0 + 512 ≤ 512; omega

/-- Row `k` of the landing buffer, as a `1 × 512` array. -/
def rowM (k : Fin 31) : Memref sig .tc .vmem S1x512 .f32 :=
  (rcvM.slice (Rect.unit (s := S31x1x512) ![k.val, 0, 0] S1x1x512.size (row_inb k)) (fun _ => rfl)).squeeze S1x512 squeezes_S1x1x512_S1x512

/-- A row is a view of the landing buffer. -/
theorem rowM_loc (k : Fin 31) (c : Dev nD) : (rowM k).view.loc (c : Thread nD τ) = (c : Thread nD τ).loc cc0_scratch2 := rfl

/-- What the landing of one row pays its cell. -/
abbrev N : ℕ := (rowM 0).view.dmaCredit
theorem N_pos : 0 < N := View.dmaCredit_pos _ (by decide)
theorem row_amount (k : Fin 31) (q : DmaSem sig) : (rowM k).view.amount (.dma q) = N := rfl

/-! ## Holding rows -/

/-- Row `k` of device `c`'s landing buffer held outright at contents `f`. -/
def rowPts (c : Dev nD) (k : Fin 31) (f : Buf (Elt F) ((rowM k).view.loc (c : Thread nD τ))) : sProp 𝕄 :=
  (rowM k).view.loc (c : Thread nD τ) ↦[(rowM k).view.set]{fullShare} f

/-- A share of device `c`'s row of partial sums at contents `f`. -/
def srcPts (c : Dev nD) (q : PosShare TreeShare) (f : (cc0_scratch1 : Ref sig .tc).ty.Contents (Elt F)) : sProp 𝕄 :=
  srcM.view.loc (c : Thread nD τ) ↦[srcM.view.set]{q} f

/-- What a landing leaves in row `k`: the row overwritten by the source's contents. -/
def landRow (c : Dev nD) (k : Fin 31) (p : (cc0_scratch1 : Ref sig .tc).ty.Contents (Elt F)) : sProp 𝕄 :=
  iprop(∃ fd, rowPts c k ((rowM k).view.write (Elt F) fd (srcM.view.read (Elt F) p) Finset.univ))

/-! ## The rows' element sets: pairwise disjoint, covering the buffer -/

/-- Row `k`'s elements are the rectangle at offset `(k, 0, 0)` of sizes `(1, 1, 512)`. -/
theorem row_set (k : Fin 31) :
    ((rowM k).view.set : Finset S31x1x512.Idx) = (Rect.unit (s := S31x1x512) ![k.val, 0, 0] S1x1x512.size (row_inb k)).set := by
  exact (View.set_reshape _ _).trans (View.set_slice_whole cc0_scratch2 _)

/-- An element of the landing buffer is in row `k` exactly when its leading coordinate is `k`. -/
theorem mem_row {k : Fin 31} {i : S31x1x512.Idx} : i ∈ ((rowM k).view.set : Finset S31x1x512.Idx) ↔ (i 0).val = k.val := by
  refine (Finset.ext_iff.mp (row_set k) i).trans (Rect.mem_set_unit.trans ⟨fun h => ?_, fun h a => ?_⟩)
  · have h0 : k.val ≤ (i 0).val ∧ (i 0).val < k.val + 1 := h 0
    omega
  · fin_cases a
    · show k.val ≤ (i 0).val ∧ (i 0).val < k.val + 1
      omega
    · have h1 : (i 1).val < 1 := (i 1).isLt
      show 0 ≤ (i 1).val ∧ (i 1).val < 0 + 1
      omega
    · have h2 : (i 2).val < 512 := (i 2).isLt
      show 0 ≤ (i 2).val ∧ (i 2).val < 0 + 512
      omega

/-- Two rows share no element. -/
theorem rows_disjoint {k k' : Fin 31} (h : k ≠ k') :
    Disjoint ((rowM k).view.set : Finset S31x1x512.Idx) ((rowM k').view.set : Finset S31x1x512.Idx) :=
  Finset.disjoint_left.mpr fun i hi hi' => h (Fin.ext ((mem_row.mp hi).symm.trans (mem_row.mp hi')))

/-- Every element of the landing buffer is in a row: the one its leading coordinate names. -/
theorem rows_cover :
    (Finset.univ : Finset S31x1x512.Idx) = Finset.univ.biUnion fun k : Fin 31 => ((rowM k).view.set : Finset S31x1x512.Idx) :=
  Finset.ext fun i => ⟨fun _ => Finset.mem_biUnion.mpr ⟨i 0, Finset.mem_univ _, mem_row.mpr rfl⟩, fun _ => Finset.mem_univ i⟩

/-- The landing buffer held outright at `f` is its 31 rows held outright at `f`. -/
theorem pointsTo_rows_eq (c : Dev nD) (f : Buf (Elt F) ((c : Thread nD τ).loc cc0_scratch2)) :
    ((((c : Thread nD τ).loc cc0_scratch2) ↦{fullShare} f) : sProp 𝕄)
      = bigSep Finset.univ fun k : Fin 31 => ((c : Thread nD τ).loc cc0_scratch2) ↦[(rowM k).view.set]{fullShare} f := by
  have h := pointsTo_biUnion (Ix := Unit) (Name := ℕ) (U := UU) (Lvl := ℕ) (Val := Elt F) (ℓ := (c : Thread nD τ).loc cc0_scratch2)
    (q := fullShare) (f := f) Finset.univ (fun k : Fin 31 => (rowM k).view.set) (fun k _ k' _ hk => rows_disjoint hk)
  rw [← rows_cover] at h
  exact h

/-- SPLIT: the landing buffer held outright at some contents is its 31 rows, each held outright at some contents. -/
theorem rows_split (c : Dev nD) :
    iprop(∃ f : Buf (Elt F) ((c : Thread nD τ).loc cc0_scratch2), ((c : Thread nD τ).loc cc0_scratch2) ↦{fullShare} f)
      ⊢ (bigSep Finset.univ fun k : Fin 31 => iprop(∃ f, rowPts c k f) : sProp 𝕄) := by
  refine exists_elim fun f => ?_
  rw [pointsTo_rows_eq]
  exact bigSep_mono fun k _ => exists_intro (Φ := fun f => rowPts c k f) f

/-! ## What the landed rows hold -/

/-- Where index `x` of row `k` sits in the landing buffer: at `(k, 0, x₁)`. -/
theorem row_emb (k : Fin 31) (x : S1x512.Idx) :
    (rowM k).view.emb x = (ValueIdx.ix3 k (0 : Fin 1) (x 1) : S31x1x512.Idx) := by
  have hx0 : (x 0).val = 0 := by have h : (x 0).val < 1 := (x 0).isLt; omega
  have hre : Shape.reshapeEquiv (squeezes_S1x1x512_S1x512).numel_eq x = (ValueIdx.ix3 (0 : Fin 1) (0 : Fin 1) (x 1) : S1x1x512.Idx) := by
    apply Shape.reshapeEquiv_eq_of_rowMajor
    rw [Shape.rowMajor_val_three, Shape.rowMajor_val_two]
    show (0 * 1 + 0) * 512 + (x 1).val = (x 0).val * 512 + (x 1).val
    omega
  show (Rect.unit (s := S31x1x512) ![k.val, 0, 0] S1x1x512.size (row_inb k)).emb (Shape.reshapeEquiv (squeezes_S1x1x512_S1x512).numel_eq x) = _
  rw [hre]
  funext a
  apply Fin.ext
  rw [Rect.emb_apply]
  fin_cases a
  · show k.val + 1 * 0 = k.val; omega
  · show 0 + 1 * 0 = 0; omega
  · show 0 + 1 * (x 1).val = (x 1).val; omega

/-- A landed row reads, at each of its elements, the source row at that element's column. -/
theorem landed_apply (c : Dev nD) (k : Fin 31) (fd : Buf (Elt F) ((rowM k).view.loc (c : Thread nD τ)))
    (p : (cc0_scratch1 : Ref sig .tc).ty.Contents (Elt F)) (i : S31x1x512.Idx) (hi : i ∈ ((rowM k).view.set : Finset S31x1x512.Idx)) :
    (rowM k).view.write (Elt F) fd (srcM.view.read (Elt F) p) Finset.univ i = p (ValueIdx.ix2 (0 : Fin 1) (i 2)) := by
  obtain ⟨x, hx⟩ := View.exists_emb_of_mem_set _ hi
  have hi3 : i = ValueIdx.ix3 k (0 : Fin 1) (x 1) := hx.symm.trans (row_emb k x)
  have hw := View.write_emb_of_mem (Val := Elt F) (v := (rowM k).view) fd (srcM.view.read (Elt F) p) (M := Finset.univ)
    (Finset.mem_univ x)
  have hx0 : x = ValueIdx.ix2 (0 : Fin 1) (x 1) := by
    funext a
    fin_cases a
    · exact Fin.ext (by have h : (x 0).val < 1 := (x 0).isLt; show (x 0).val = 0; omega)
    · rfl
  have h1 : (rowM k).view.write (Elt F) fd (srcM.view.read (Elt F) p) Finset.univ i
      = (rowM k).view.write (Elt F) fd (srcM.view.read (Elt F) p) Finset.univ ((rowM k).view.emb x) :=
    congrArg (fun j => (rowM k).view.write (Elt F) fd (srcM.view.read (Elt F) p) Finset.univ j) hx.symm
  have h2 : (rowM k).view.write (Elt F) fd (srcM.view.read (Elt F) p) Finset.univ ((rowM k).view.emb x) = p x := hw
  have h3 : p x = p (ValueIdx.ix2 (0 : Fin 1) (i 2)) := by rw [hi3]; exact congrArg p hx0
  exact h1.trans (h2.trans h3)

/-- JOIN: 31 landed rows, row `k` overwritten by the source row `p k`, are the landing buffer held outright at the
    contents whose row `k` is `p k`. -/
theorem rows_join (c : Dev nD) (p : Fin 31 → (cc0_scratch1 : Ref sig .tc).ty.Contents (Elt F)) :
    (bigSep Finset.univ fun k : Fin 31 => landRow c k (p k) : sProp 𝕄)
      ⊢ (((c : Thread nD τ).loc cc0_scratch2) ↦{fullShare} (fun i : S31x1x512.Idx => p (i 0) (ValueIdx.ix2 (0 : Fin 1) (i 2)))) := by
  rw [pointsTo_rows_eq]
  refine bigSep_mono fun k _ => exists_elim fun fd => Entails.of_eq (pointsTo_congr fun (i : S31x1x512.Idx) hi => ?_)
  have hk : i 0 = k := Fin.ext (mem_row.mp hi)
  rw [landed_apply c k fd (p k) i hi, hk]

/-- JOIN at the ring's contents: row `k` overwritten by the partial of the device `k + 1` places before `c`. -/
theorem rows_join_recvd (x : Dev nD → Vec F S1024x512 .f32) (c : Dev nD) :
    (bigSep Finset.univ fun k : Fin 31 => landRow c k (part x (src c k)) : sProp 𝕄)
      ⊢ (((c : Thread nD τ).loc cc0_scratch2) ↦{fullShare} recvd x c) :=
  rows_join c fun k => part x (src c k)

/-! ## Whole buffers read, written and copied -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of the whole block buffer reads its contents. -/
theorem read_xvmem (f : (cc0_scratch0 : Ref sig .tc).ty.Contents (Elt F)) :
    (Memref.whole cc0_scratch0 : Memref sig .tc .vmem S1024x512 .f32).view.readAt (Elt F)
      (Rect.unit (s := S1024x512) ![0, 0] S1024x512.size inb_S1024x512_S1024x512_0_0).toLoadRect f = f :=
  Memref.readAt_unit_zero (Elt F) cc0_scratch0 hz2 _ f

/-- A load of the whole row of partial sums reads its contents. -/
theorem read_src (f : (cc0_scratch1 : Ref sig .tc).ty.Contents (Elt F)) :
    srcM.view.readAt (Elt F) (Rect.unit (s := S1x512) ![0, 0] S1x512.size inb_S1x512_S1x512_0_0).toLoadRect f = f :=
  Memref.readAt_unit_zero (Elt F) cc0_scratch1 hz2 _ f

/-- A load of the whole landing buffer reads its contents. -/
theorem read_rcv (f : (cc0_scratch2 : Ref sig .tc).ty.Contents (Elt F)) :
    rcvM.view.readAt (Elt F) (Rect.unit (s := S31x1x512) ![0, 0, 0] S31x1x512.size inb_S31x1x512_S31x1x512_0_0_0).toLoadRect f = f :=
  Memref.readAt_unit_zero (Elt F) cc0_scratch2 hz3 _ f

/-- An unmasked store through the whole row of partial sums leaves the payload. -/
theorem write_src (f w : (cc0_scratch1 : Ref sig .tc).ty.Contents (Elt F)) :
    (srcM.access (Rect.unit (s := S1x512) ![0, 0] S1x512.size inb_S1x512_S1x512_0_0) : View sig .tc _ _ _).write (Elt F) f w Finset.univ = w :=
  Memref.write_access_unit_zero_univ (Elt F) cc0_scratch1 hz2 _ f w

/-- An unmasked store through the whole staging buffer of the result leaves the payload. -/
theorem write_out (f w : (cc0_stg0_0 : Ref sig .tc).ty.Contents (Elt F)) :
    ((Memref.whole cc0_stg0_0 : Memref sig .tc .vmem S1x512 .f32).access
      (Rect.unit (s := S1x512) ![0, 0] S1x512.size inb_S1x512_S1x512_0_0) : View sig .tc _ _ _).write (Elt F) f w Finset.univ = w :=
  Memref.write_access_unit_zero_univ (Elt F) cc0_stg0_0 hz2 _ f w

/-- The local copy of the device's block into its block buffer, whole to whole, leaves the block there. -/
theorem copy_whole (c : Dev nD) (fd : Buf (Elt F) ((c : Thread nD τ).loc cc0_scratch0)) (fs : Buf (Elt F) ((c : Thread nD τ).loc main_arg0)) :
    (Memref.whole cc0_scratch0 : Memref sig .tc .vmem S1024x512 .f32).view.write (Elt F) fd
      ((Memref.whole main_arg0 : Memref sig .tc .hbm S1024x512 .f32).view.read (Elt F) fs) Finset.univ = fs := by
  show (View.whole cc0_scratch0).write (Elt F) fd ((View.whole main_arg0).read (Elt F) fs) Finset.univ = fs
  rw [View.read_whole]
  exact View.write_whole_univ _ _ _

/-- info: 'Cert.Kernel.Mean.rows_split' depends on axioms: [propext, Classical.choice, Quot.sound] -/
#guard_msgs in #print axioms rows_split

/-- info: 'Cert.Kernel.Mean.rows_join_recvd' depends on axioms: [propext, Classical.choice, Quot.sound] -/
#guard_msgs in #print axioms rows_join_recvd

/-- info: 'Cert.Kernel.Mean.copy_whole' depends on axioms: [propext, Classical.choice, Quot.sound] -/
#guard_msgs in #print axioms copy_whole

end Cert.Kernel.Mean

end
-- ==== Proof.K.Sched.lean ====
/-
  The protocol of the all-to-all mean on the ring of 32, as a schedule of rounds.

  Every device has one barrier cell, 31 send cells, 31 receive cells and one cell for its local copy; each has
  one round. A device's barrier cell has 31 duties of one unit each: duty `j` is paid by the device `j + 1` places
  before it, which thereby hands over row `rev j` of ITS OWN landing buffer (the row this device's transfer at
  offset `rev j + 1` will write) and the fact that the receive cell of that row is at round 0. Send cell `k` has one
  duty, paid by the device's own transfer `k`; it gives back share `k` of the 31 shares the source row was cut into.
  Receive cell `k` has one duty, paid by the transfer of the device `k + 1` places before; it hands the landing row
  `k` overwritten with that device's partial. The copy cell's one duty is the local copy of the block into VMEM.
  Levels: a barrier cell lies below every receive cell, every other cell below both, so each wait happens while
  only higher cells are owed.
-/
import proofs.«900937_g7700000000000938_dist_mean_ax0_shard0_i_m1024_n512_v7x_i32_f32_1_alg».proof.Proof.K.Views
import Idealize.ShloMosaic.Lib.Pipeline.Launch
import Idealize.ShloMosaic.Lib.Pipeline.Kit
import Idealize.ShloMosaic.Lib.Tactic
import Idealize.ShloMosaic.Lib.Transfers

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The devices' blocks as launched. -/
def xs : Dev nD → Vec F S1024x512 .f32 := fun c => m ((c : Thread nD τ).loc main_arg0)

/-! ## The cells -/

abbrev barS : Sem sig := (SemArray.scalar (sig.barrier 0 rfl) : Sems sig S_).sem
def sendQ (k : Fin 31) : DmaSem sig := ⟨1 + k.val, Nat.lt_of_lt_of_le (Nat.add_lt_add_left k.isLt 1) (by decide)⟩
def recvQ (k : Fin 31) : DmaSem sig := ⟨32 + k.val, Nat.lt_of_lt_of_le (Nat.add_lt_add_left k.isLt 32) (by decide)⟩
abbrev copyQ : DmaSem sig := (cc0_scratch5 : DmaSems sig S_).sem

abbrev barCell (c : Dev nD) : GSem nD τ sig := ((c : Thread nD τ), .reg barS)
abbrev sendCell (c : Dev nD) (k : Fin 31) : GSem nD τ sig := ((c : Thread nD τ), .dma (sendQ k))
abbrev recvCell (c : Dev nD) (k : Fin 31) : GSem nD τ sig := ((c : Thread nD τ), .dma (recvQ k))
abbrev copyCell (c : Dev nD) : GSem nD τ sig := ((c : Thread nD τ), .dma copyQ)

/-- What a semaphore is in the protocol. -/
inductive Role where
  | bar | send (k : Fin 31) | recv (k : Fin 31) | copy | none
deriving DecidableEq

def roleOf : SemLoc sig → Role
  | .reg s => if s = barS then .bar else .none
  | .dma q =>
    if h : 1 ≤ q.val ∧ q.val ≤ 31 then .send ⟨q.val - 1, by omega⟩
    else if h : 32 ≤ q.val ∧ q.val ≤ 62 then .recv ⟨q.val - 32, by omega⟩
    else if q.val = 63 then .copy else .none

omit [FloatOps F] in
theorem role_bar : roleOf (.reg barS) = .bar := by
  show (if (barS : Sem sig) = barS then Role.bar else Role.none) = Role.bar
  exact if_pos rfl
omit [FloatOps F] in
theorem role_send (k : Fin 31) : roleOf (.dma (sendQ k)) = .send k := by
  have hk := k.isLt
  show (if h : 1 ≤ (sendQ k).val ∧ (sendQ k).val ≤ 31 then Role.send ⟨(sendQ k).val - 1, by omega⟩
    else if h : 32 ≤ (sendQ k).val ∧ (sendQ k).val ≤ 62 then Role.recv ⟨(sendQ k).val - 32, by omega⟩
    else if (sendQ k).val = 63 then Role.copy else Role.none) = Role.send k
  have hv : (sendQ k).val = 1 + k.val := rfl
  rw [dif_pos ⟨by omega, by omega⟩]
  exact congrArg Role.send (Fin.ext (by show (sendQ k).val - 1 = k.val; omega))
omit [FloatOps F] in
theorem role_recv (k : Fin 31) : roleOf (.dma (recvQ k)) = .recv k := by
  have hk := k.isLt
  show (if h : 1 ≤ (recvQ k).val ∧ (recvQ k).val ≤ 31 then Role.send ⟨(recvQ k).val - 1, by omega⟩
    else if h : 32 ≤ (recvQ k).val ∧ (recvQ k).val ≤ 62 then Role.recv ⟨(recvQ k).val - 32, by omega⟩
    else if (recvQ k).val = 63 then Role.copy else Role.none) = Role.recv k
  have hv : (recvQ k).val = 32 + k.val := rfl
  rw [dif_neg (fun h => by omega), dif_pos ⟨by omega, by omega⟩]
  exact congrArg Role.recv (Fin.ext (by show (recvQ k).val - 32 = k.val; omega))
omit [FloatOps F] in
theorem role_copy : roleOf (.dma copyQ) = .copy := by decide

/-- The credit of the local copy of a block. -/
def NX : ℕ := (Memref.whole cc0_scratch0 : Memref sig .tc .vmem S1024x512 .f32).view.dmaCredit
omit [FloatOps F] in
theorem NX_pos : 0 < NX := by unfold NX; exact View.dmaCredit_pos _ (by decide)

/-! ## The payloads -/

/-- Duty `j` of device `c`'s barrier cell: the payer `dst c (rev j)` hands over row `rev j` of its landing buffer and
    that its receive cell of that row is at round 0. -/
def barPay (c : Dev nD) (j : Fin 31) : sProp 𝕄 :=
  iprop((∃ f, rowPts (F := F) (dst c (rev j)) (rev j) f) ∗ reached ER (recvCell (dst c (rev j)) (rev j)) 0)
/-- Send cell `k` gives back share `k` of the source row. -/
def sendPay (c : Dev nD) (k : Fin 31) : sProp 𝕄 := srcPts c (shareTok fullShare 31 k) (part (xs m) c)
/-- Receive cell `k` hands row `k` holding the partial of the device `k + 1` places before. -/
def recvPay (c : Dev nD) (k : Fin 31) : sProp 𝕄 := landRow c k (part (xs m) (src c k))
/-- The copy cell hands the block in VMEM and the block's array back. -/
def copyPay (c : Dev nD) : sProp 𝕄 :=
  iprop((((c : Thread nD τ).loc cc0_scratch0) ↦{fullShare} (xs m c : Buf (Elt F) ((c : Thread nD τ).loc cc0_scratch0)))
    ∗ (((c : Thread nD τ).loc main_arg0) ↦{fullShare} m ((c : Thread nD τ).loc main_arg0)))

/-! ## The schedule -/

def rd : Rounds.Schedule (GSem nD τ sig) (Fin 31) 𝕄 where
  duties g r :=
    if r = 0 ∧ g.1.2 = .tc then
      (match roleOf g.2 with | .bar => Finset.univ | .send _ => {0} | .recv _ => {0} | .copy => {0} | .none => ∅)
    else ∅
  amount g _ _ := match roleOf g.2 with | .bar => 1 | .send _ => N | .recv _ => N | .copy => NX | .none => 1
  payload g _ d := match roleOf g.2 with
    | .bar => barPay g.1.1 d
    | .send k => sendPay m g.1.1 k
    | .recv k => recvPay m g.1.1 k
    | .copy => copyPay m g.1.1
    | .none => iprop(emp)
  amount_pos g _ _ _ := by
    cases roleOf g.2 <;> first | exact Nat.one_pos | exact N_pos | exact NX_pos

end Cert.Kernel.Mean

end
-- ==== Proof.K.Ring.lean ====
/-
  The arithmetic of the ring of 32 devices.

  Device `c` addresses, at offset `k + 1` (`k = 0, …, 30`), the device `dst c k = (c + k + 1) mod 32`; the device
  that addresses `c` at that offset is `src c k = (c + 31 - k) mod 32`.  Since `(k + 1) + (rev k + 1) = 32`,
  going `k + 1` places forward is going `rev k + 1` places backward, so `dst` and `src` are inverse to each
  other in the device, exchange under `rev` in the offset, never fix a device, and are injective in each
  argument.  For a fixed `c` the 31 devices `src c k` are exactly the devices other than `c`; hence a sum over
  all 32 devices is the term at `c` plus the sum over the offsets of the terms at `src c k`.
-/
import proofs.«900937_g7700000000000938_dist_mean_ax0_shard0_i_m1024_n512_v7x_i32_f32_1_alg».proof.Proof.K.Spec
import Mathlib.Algebra.BigOperators.Group.Finset.Basic
import Mathlib.Data.Fintype.Basic
import Mathlib.Logic.Equiv.Defs

noncomputable section

namespace Cert.Kernel.Mean

open Cert.Kernel Idealize.ShloMosaic

/-! ## The values of `dst`, `src`, `rev` as natural numbers -/

theorem dst_val (c : Dev nD) (k : Fin 31) : (dst c k).val = (c.val + k.val + 1) % 32 := rfl

theorem src_val (c : Dev nD) (k : Fin 31) : (src c k).val = (c.val + 31 - k.val) % 32 := rfl

theorem rev_val (k : Fin 31) : (rev k).val = 30 - k.val := rfl

/-- A device's number is below 32. -/
theorem dev_lt (c : Dev nD) : c.val < 32 := c.isLt

/-! ## `dst` and `src` undo each other; `rev` exchanges them -/

/-- Going `k + 1` places back and then `k + 1` places forward returns to `c`. -/
theorem dst_src (c : Dev nD) (k : Fin 31) : dst (src c k) k = c := by
  have hc := dev_lt c
  have hk := k.isLt
  apply Fin.ext
  rw [dst_val, src_val]
  omega

/-- Going `k + 1` places forward and then `k + 1` places back returns to `c`. -/
theorem src_dst (c : Dev nD) (k : Fin 31) : src (dst c k) k = c := by
  have hc := dev_lt c
  have hk := k.isLt
  apply Fin.ext
  rw [src_val, dst_val]
  omega

/-- `30 - (30 - k) = k` for `k ≤ 30`. -/
theorem rev_rev (k : Fin 31) : rev (rev k) = k := by
  have hk := k.isLt
  apply Fin.ext
  rw [rev_val, rev_val]
  omega

/-- `k + 1` places forward is `32 - (k + 1) = (30 - k) + 1` places back. -/
theorem dst_eq_src_rev (c : Dev nD) (k : Fin 31) : dst c k = src c (rev k) := by
  have hc := dev_lt c
  have hk := k.isLt
  apply Fin.ext
  rw [dst_val, src_val, rev_val]
  omega

/-- `k + 1` places back is `(30 - k) + 1` places forward. -/
theorem src_eq_dst_rev (c : Dev nD) (k : Fin 31) : src c k = dst c (rev k) := by
  rw [dst_eq_src_rev, rev_rev]

/-- `(k + 1) + (rev k + 1) = 32` places forward is a full turn. -/
theorem dst_dst_rev (c : Dev nD) (k : Fin 31) : dst (dst c k) (rev k) = c := by
  rw [dst_eq_src_rev (dst c k) (rev k), rev_rev, src_dst]

/-- `32` places back is a full turn. -/
theorem src_src_rev (c : Dev nD) (k : Fin 31) : src (src c k) (rev k) = c := by
  rw [src_eq_dst_rev (src c k) (rev k), rev_rev, dst_src]

/-! ## No offset `1, …, 31` fixes a device -/

theorem dst_ne_self (c : Dev nD) (k : Fin 31) : dst c k ≠ c := by
  have hc := dev_lt c
  have hk := k.isLt
  intro h
  have hv := congrArg Fin.val h
  rw [dst_val] at hv
  omega

theorem src_ne_self (c : Dev nD) (k : Fin 31) : src c k ≠ c := by
  intro h
  have h2 := dst_src c k
  rw [h] at h2
  exact dst_ne_self c k h2

/-! ## Injectivity in the offset and in the device -/

/-- Distinct offsets below 32 lead to distinct devices. -/
theorem dst_inj (c : Dev nD) : Function.Injective (dst c) := by
  intro k k' h
  have hc := dev_lt c
  have hk := k.isLt
  have hk' := k'.isLt
  have hv := congrArg Fin.val h
  rw [dst_val, dst_val] at hv
  apply Fin.ext
  omega

theorem src_inj (c : Dev nD) : Function.Injective (src c) := by
  intro k k' h
  have hc := dev_lt c
  have hk := k.isLt
  have hk' := k'.isLt
  have hv := congrArg Fin.val h
  rw [src_val, src_val] at hv
  apply Fin.ext
  omega

/-- A rotation of the ring is injective: it has the opposite rotation as a left inverse. -/
theorem dst_inj_left (k : Fin 31) : Function.Injective (fun c => dst c k) := by
  intro c c' h
  have h2 := congrArg (fun d => src d k) h
  simpa only [src_dst] using h2

theorem src_inj_left (k : Fin 31) : Function.Injective (fun c => src c k) := by
  intro c c' h
  have h2 := congrArg (fun d => dst d k) h
  simpa only [dst_src] using h2

/-- The rotation by `k + 1` places as a permutation of the devices; its inverse is the rotation back. -/
def dstEquiv (k : Fin 31) : Dev nD ≃ Dev nD where
  toFun := fun c => dst c k
  invFun := fun c => src c k
  left_inv := fun c => src_dst c k
  right_inv := fun c => dst_src c k

/-! ## The 31 devices `src c k` are the devices other than `c` -/

/-- A device `d ≠ c` lies `k + 1` places before `c` for `k = (c + 31 - d) mod 32`, which is below 31
since `c - d` is not a multiple of 32. -/
theorem exists_src_of_ne {c d : Dev nD} (h : d ≠ c) : ∃ k : Fin 31, src c k = d := by
  have hc := dev_lt c
  have hd := dev_lt d
  have hne : d.val ≠ c.val := fun e => h (Fin.ext e)
  refine ⟨⟨(c.val + 31 - d.val) % 32, by omega⟩, ?_⟩
  apply Fin.ext
  rw [src_val]
  show (c.val + 31 - (c.val + 31 - d.val) % 32) % 32 = d.val
  omega

/-- A sum over all devices: the term at `c`, plus the terms at the 31 devices before `c`. -/
theorem sum_all_devices {M : Type} [AddCommMonoid M] (f : Dev nD → M) (c : Dev nD) :
    ∑ d : Dev nD, f d = f c + ∑ k : Fin 31, f (src c k) := by
  have himg : (Finset.univ : Finset (Fin 31)).image (src c) = (Finset.univ : Finset (Dev nD)).erase c := by
    ext d
    simp only [Finset.mem_image, Finset.mem_univ, true_and, Finset.mem_erase, and_true]
    constructor
    · rintro ⟨k, rfl⟩
      exact src_ne_self c k
    · intro hd
      exact exists_src_of_ne hd
  rw [← Finset.add_sum_erase Finset.univ f (Finset.mem_univ c), ← himg,
    Finset.sum_image (fun a _ b _ hab => src_inj c hab)]

end Cert.Kernel.Mean

end
-- ==== Proof.K.Ghost.lean ====
/-
  The ghost state of the protocol: every cell of a device under one index, what a device owes at launch, the
  levels that order the waits, and what the launch deals each device.

  A device's 64 cells are indexed 0 (barrier), 1 + k (send cell k), 32 + k (receive cell k), 63 (copy). At launch a
  device owes one unit to the barrier cell of each of the 31 others and a row's credit to receive cell `k` of the
  device `k + 1` places after it, for every `k`. A barrier cell has level 1, a receive cell level 2, every other
  cell level 0: the copy wait and the staging waits (level 0) and the barrier wait (level 1) happen while only
  cells of a higher level are owed; the send and receive waits happen when nothing is owed.
-/
import proofs.«900937_g7700000000000938_dist_mean_ax0_shard0_i_m1024_n512_v7x_i32_f32_1_alg».proof.Proof.K.Sched
import proofs.«900937_g7700000000000938_dist_mean_ax0_shard0_i_m1024_n512_v7x_i32_f32_1_alg».proof.Proof.K.Ring

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-! ## Every cell of a device under one index -/

def csem (j : Fin 64) : SemLoc sig := if j.val = 0 then .reg barS else .dma ⟨j.val, j.isLt⟩
abbrev kcell (cj : Dev nD × Fin 64) : GSem nD τ sig := ((cj.1 : Thread nD τ), csem cj.2)
def jS (k : Fin 31) : Fin 64 := ⟨1 + k.val, by omega⟩
def jR (k : Fin 31) : Fin 64 := ⟨32 + k.val, by omega⟩

omit [FloatOps F] in
theorem csem_zero : csem 0 = .reg barS := if_pos rfl
omit [FloatOps F] in
theorem csem_jS (k : Fin 31) : csem (jS k) = .dma (sendQ k) := by
  unfold csem jS; rw [if_neg (by simp only; omega)]; rfl
omit [FloatOps F] in
theorem csem_jR (k : Fin 31) : csem (jR k) = .dma (recvQ k) := by
  unfold csem jR; rw [if_neg (by simp only; omega)]; rfl
omit [FloatOps F] in
theorem csem_copy : csem 63 = .dma copyQ := by decide
omit [FloatOps F] in
theorem kcell_bar (c : Dev nD) : kcell (c, 0) = barCell c := Prod.ext rfl csem_zero
omit [FloatOps F] in
theorem kcell_send (c : Dev nD) (k : Fin 31) : kcell (c, jS k) = sendCell c k := Prod.ext rfl (csem_jS k)
omit [FloatOps F] in
theorem kcell_recv (c : Dev nD) (k : Fin 31) : kcell (c, jR k) = recvCell c k := Prod.ext rfl (csem_jR k)
omit [FloatOps F] in
theorem kcell_copy (c : Dev nD) : kcell (c, 63) = copyCell c := Prod.ext rfl csem_copy

omit [FloatOps F] in
theorem csem_injective : Function.Injective csem := by
  intro i j h
  unfold csem at h
  by_cases hi : i.val = 0 <;> by_cases hj : j.val = 0
  · exact Fin.ext (hi.trans hj.symm)
  · rw [if_pos hi, if_neg hj] at h; cases h
  · rw [if_neg hi, if_pos hj] at h; cases h
  · rw [if_neg hi, if_neg hj] at h
    exact Fin.ext (congrArg (fun q : DmaSem sig => q.val) (SemLoc.dma.inj h))

omit [FloatOps F] in
theorem kcell_injective : Function.Injective (kcell : Dev nD × Fin 64 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-! ## What a device owes, peeled offset by offset -/

/-- The 31 offsets in the kernel's order. -/
def all31 : List (Fin 31) := [0, 1, 2, 3, 4, 5, 6, 7, 8, 9, 10, 11, 12, 13, 14, 15, 16, 17, 18, 19, 20, 21, 22, 23, 24, 25, 26, 27, 28, 29, 30]

/-- One unit to the barrier cell of each device still to be signalled. -/
def owedB (c : Dev nD) : List (Fin 31) → CellTallies nD τ sig Unit
  | [] => 0
  | k :: ks => owedB c ks + tallyAt (barCell (dst c k)) () 1
/-- A row's credit to receive cell `k` of each device still to be sent to. -/
def owedR (c : Dev nD) : List (Fin 31) → CellTallies nD τ sig Unit
  | [] => 0
  | k :: ks => owedR c ks + tallyAt (recvCell (dst c k) k) () N

def O₀ (c : Dev nD) : CellTallies nD τ sig Unit := owedR c all31 + owedB c all31

/-! ## The levels -/

def L (g : GSem nD τ sig) : Finset Unit := if g.1.2 = .tc then {()} else ∅
def lv (g : GSem nD τ sig) (_ : Unit) : ℕ := match roleOf g.2 with | .bar => 1 | .recv _ => 2 | _ => 0

omit [FloatOps F] in
theorem L_of_ne (g : GSem nD τ sig) (h : g.1.2 ≠ .tc) : L g = ∅ := if_neg h
omit [FloatOps F] in
theorem L_tc (c : Dev nD) (sm : SemLoc sig) : L ((c : Thread nD τ), sm) = {()} := if_pos rfl
omit [FloatOps F] in
theorem lv_bar (c : Dev nD) (u : Unit) : lv (barCell c) u = 1 := by unfold lv; rw [role_bar]
omit [FloatOps F] in
theorem lv_recv (c : Dev nD) (k : Fin 31) (u : Unit) : lv (recvCell c k) u = 2 := by unfold lv; rw [role_recv]
omit [FloatOps F] in
theorem lv_send (c : Dev nD) (k : Fin 31) (u : Unit) : lv (sendCell c k) u = 0 := by unfold lv; rw [role_send]
omit [FloatOps F] in
theorem lv_copy (c : Dev nD) (u : Unit) : lv (copyCell c) u = 0 := by unfold lv; rw [role_copy]

/-! ## The ghost state -/

/-- Every cell's invariant, at the names the launch allocated them, and that round 0 of each is reached: persistent. -/
def records (K : Dev nD × Fin 64 → ℕ) : sProp 𝕄 :=
  iprop((bigSep Finset.univ fun cj : Dev nD × Fin 64 => cellInv ER (rd m) (K cj) (kcell cj))
    ∗ bigSep Finset.univ fun cj : Dev nD × Fin 64 => reached ER (kcell cj) 0)

instance records_persistent (K : Dev nD × Fin 64 → ℕ) : BI.Persistent (records m K) := by unfold records; infer_instance

/-- The tokens of the duties device `c` pays: per offset its unit on the addressed device's barrier cell, the landing
    on that device's receive cell, its own send cell; and its copy cell. -/
def payToks (c : Dev nD) : sProp 𝕄 :=
  iprop((bigSep Finset.univ fun k : Fin 31 =>
      iprop(dutyTok ER (barCell (dst c k)) 0 k ∗ dutyTok ER (recvCell (dst c k) k) 0 0 ∗ dutyTok ER (sendCell c k) 0 0))
    ∗ dutyTok ER (copyCell c) 0 0)

/-- Device `c` at round 0 of each of its 64 cells. -/
def positions (c : Dev nD) : sProp 𝕄 := bigSep Finset.univ fun j : Fin 64 => atPos ER (kcell (c, j)) 0 ∅ 0

def ghost (K : Dev nD × Fin 64 → ℕ) (c : Dev nD) : sProp 𝕄 := iprop(records m K ∗ positions c ∗ payToks c)

/-- Every token of a device's own cells as minted: cell index and duty name. -/
def toks (c : Dev nD) : sProp 𝕄 := bigSep Finset.univ fun jd : Fin 64 × Fin 31 => dutyTok ER (kcell (c, jd.1)) 0 jd.2

/-- What the launch element deals device `c`. -/
def G (c : Dev nD) : sProp 𝕄 :=
  iprop((bigSep Finset.univ fun j : Fin 64 => roundState ER (rd m) (kcell (c, j)) 0)
    ∗ (bigSep Finset.univ fun j : Fin 64 => iprop(atPos ER (kcell (c, j)) 0 ∅ 0 ∗ reached ER (kcell (c, j)) 0)) ∗ toks c)

/-- What the global step makes of it. -/
def G' (c : Dev nD) : sProp 𝕄 := iprop(∃ K, ghost m K c)

/-- The cells and tokens of the launch element. -/
def ringCells : Finset (GSem nD τ sig) := Finset.univ.map ⟨kcell, kcell_injective⟩
abbrev tokOf (x : Dev nD × Fin 64 × Fin 31) : GSem nD τ sig × ℕ × Fin 31 := (kcell (x.1, x.2.1), 0, x.2.2)
omit [FloatOps F] in
theorem tokOf_injective : Function.Injective (tokOf : Dev nD × Fin 64 × Fin 31 → GSem nD τ sig × ℕ × Fin 31) := by
  rintro ⟨c, j, d⟩ ⟨c', j', d'⟩ h
  have h1 := kcell_injective (congrArg (fun x : GSem nD τ sig × ℕ × Fin 31 => x.1) h)
  have h2 : d = d' := congrArg (fun x : GSem nD τ sig × ℕ × Fin 31 => x.2.2) h
  cases h1; cases h2; rfl
def ringToks : Finset (GSem nD τ sig × ℕ × Fin 31) := Finset.univ.map ⟨tokOf, tokOf_injective⟩

def u₀ : UU :=
  (initOf (Pipeline.cells cfgs cellOf_inj) (Pipeline.launchToks cfgs cellOf_inj), initOf ringCells ringToks)

/-- The kernel's own (scoped) semaphores: DMA semaphores 1 to 63. -/
abbrev osem : Fin 63 → SemLoc sig := fun i => .dma ⟨i.val + 1, Nat.lt_of_lt_of_le (Nat.add_lt_add_right i.isLt 1) (by decide)⟩

end Cert.Kernel.Mean

end
-- ==== Proof.K.Tables.lean ====
/-
  The schedule read cell by cell: which duties, amounts and payloads each kind of cell has at round 0, what a whole
  round expects (31 units on a barrier cell, one row's credit on a send or receive cell, a block's credit on the
  copy cell), and that no cell has a duty after round 0.
-/
import proofs.«900937_g7700000000000938_dist_mean_ax0_shard0_i_m1024_n512_v7x_i32_f32_1_alg».proof.Proof.K.Ghost

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

section Tables
variable (c : Dev nD) (k : Fin 31)

theorem duties_bar : (rd m).duties (barCell c) 0 = Finset.univ := by
  dsimp only [rd]; rw [if_pos ⟨rfl, rfl⟩, role_bar]
theorem duties_send : (rd m).duties (sendCell c k) 0 = {0} := by
  dsimp only [rd]; rw [if_pos ⟨rfl, rfl⟩, role_send]
theorem duties_recv : (rd m).duties (recvCell c k) 0 = {0} := by
  dsimp only [rd]; rw [if_pos ⟨rfl, rfl⟩, role_recv]
theorem duties_copy : (rd m).duties (copyCell c) 0 = {0} := by
  dsimp only [rd]; rw [if_pos ⟨rfl, rfl⟩, role_copy]
theorem duties_later (g : GSem nD τ sig) : ∀ r, 1 ≤ r → (rd m).duties g r = ∅ :=
  fun r hr => by dsimp only [rd]; rw [if_neg fun h => by omega]

theorem amount_bar (d : Fin 31) : (rd m).amount (barCell c) 0 d = 1 := by dsimp only [rd]; rw [role_bar]
theorem amount_send (d : Fin 31) : (rd m).amount (sendCell c k) 0 d = N := by dsimp only [rd]; rw [role_send]
theorem amount_recv (d : Fin 31) : (rd m).amount (recvCell c k) 0 d = N := by dsimp only [rd]; rw [role_recv]
theorem amount_copy (d : Fin 31) : (rd m).amount (copyCell c) 0 d = NX := by dsimp only [rd]; rw [role_copy]

theorem payload_bar (d : Fin 31) : (rd m).payload (barCell c) 0 d = barPay c d := by dsimp only [rd]; rw [role_bar]
theorem payload_send (d : Fin 31) : (rd m).payload (sendCell c k) 0 d = sendPay m c k := by dsimp only [rd]; rw [role_send]
theorem payload_recv (d : Fin 31) : (rd m).payload (recvCell c k) 0 d = recvPay m c k := by dsimp only [rd]; rw [role_recv]
theorem payload_copy (d : Fin 31) : (rd m).payload (copyCell c) 0 d = copyPay m c := by dsimp only [rd]; rw [role_copy]

theorem expect_bar : (rd m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (rd m).expect (sendCell c k) 0 = N := by
  show ∑ d ∈ (rd m).duties (sendCell c k) 0, (rd m).amount (sendCell c k) 0 d = N
  rw [duties_send]; exact (Finset.sum_singleton _ _).trans (amount_send m c k 0)
theorem expect_recv : (rd m).expect (recvCell c k) 0 = N := by
  show ∑ d ∈ (rd m).duties (recvCell c k) 0, (rd m).amount (recvCell c k) 0 d = N
  rw [duties_recv]; exact (Finset.sum_singleton _ _).trans (amount_recv m c k 0)
theorem expect_copy : (rd m).expect (copyCell c) 0 = NX := by
  show ∑ d ∈ (rd m).duties (copyCell c) 0, (rd m).amount (copyCell c) 0 d = NX
  rw [duties_copy]; exact (Finset.sum_singleton _ _).trans (amount_copy m c 0)

/-- The rest of a one-duty round, no duty taken, is the duty's payload. -/
theorem rest_send : bigSep ((rd m).duties (sendCell c k) 0 \ ∅) (fun d => (rd m).payload (sendCell c k) 0 d) = sendPay m c k := by
  rw [Finset.sdiff_empty, duties_send, bigSep_singleton, payload_send]
theorem rest_recv : bigSep ((rd m).duties (recvCell c k) 0 \ ∅) (fun d => (rd m).payload (recvCell c k) 0 d) = recvPay m c k := by
  rw [Finset.sdiff_empty, duties_recv, bigSep_singleton, payload_recv]
theorem rest_copy : bigSep ((rd m).duties (copyCell c) 0 \ ∅) (fun d => (rd m).payload (copyCell c) 0 d) = copyPay m c := by
  rw [Finset.sdiff_empty, duties_copy, bigSep_singleton, payload_copy]
/-- The rest of the barrier cell's round is all 31 payloads. -/
theorem rest_bar : bigSep ((rd m).duties (barCell c) 0 \ ∅) (fun d => (rd m).payload (barCell c) 0 d) = bigSep Finset.univ (fun d : Fin 31 => barPay (F := F) c d) := by
  rw [Finset.sdiff_empty, duties_bar]
  exact bigSep_congr fun d _ => payload_bar m c d

end Tables

/-! ## The records read at a cell -/

variable (K : Dev nD × Fin 64 → ℕ)

theorem rec_inv (cj : Dev nD × Fin 64) : records m K ⊢ cellInv ER (rd m) (K cj) (kcell cj) := by
  unfold records
  iintro ⟨H, -⟩
  iapply (show (bigSep Finset.univ fun cj : Dev nD × Fin 64 => (cellInv ER (rd m) (K cj) (kcell cj) : sProp 𝕄)) ⊢ cellInv ER (rd m) (K cj) (kcell cj)
    from bigSep_elim (Finset.mem_univ cj))
  iexact H
theorem rec_reached (cj : Dev nD × Fin 64) : records m K ⊢ (reached ER (kcell cj) 0 : sProp 𝕄) := by
  unfold records
  iintro ⟨-, H⟩
  iapply (show (bigSep Finset.univ fun cj : Dev nD × Fin 64 => (reached ER (kcell cj) 0 : sProp 𝕄)) ⊢ reached ER (kcell cj) 0
    from bigSep_elim (Finset.mem_univ cj))
  iexact H

theorem inv_bar (c : Dev nD) : records m K ⊢ cellInv ER (rd m) (K (c, 0)) (barCell c) := (rec_inv m K (c, 0)).trans (Entails.of_eq (by rw [kcell_bar]))
theorem inv_send (c : Dev nD) (k : Fin 31) : records m K ⊢ cellInv ER (rd m) (K (c, jS k)) (sendCell c k) := (rec_inv m K (c, jS k)).trans (Entails.of_eq (by rw [kcell_send]))
theorem inv_recv (c : Dev nD) (k : Fin 31) : records m K ⊢ cellInv ER (rd m) (K (c, jR k)) (recvCell c k) := (rec_inv m K (c, jR k)).trans (Entails.of_eq (by rw [kcell_recv]))
theorem inv_copy (c : Dev nD) : records m K ⊢ cellInv ER (rd m) (K (c, 63)) (copyCell c) := (rec_inv m K (c, 63)).trans (Entails.of_eq (by rw [kcell_copy]))
theorem reached_bar (c : Dev nD) : records m K ⊢ (reached ER (barCell c) 0 : sProp 𝕄) := (rec_reached m K (c, 0)).trans (Entails.of_eq (by rw [kcell_bar]))
theorem reached_send (c : Dev nD) (k : Fin 31) : records m K ⊢ (reached ER (sendCell c k) 0 : sProp 𝕄) := (rec_reached m K (c, jS k)).trans (Entails.of_eq (by rw [kcell_send]))
theorem reached_recv (c : Dev nD) (k : Fin 31) : records m K ⊢ (reached ER (recvCell c k) 0 : sProp 𝕄) := (rec_reached m K (c, jR k)).trans (Entails.of_eq (by rw [kcell_recv]))
theorem reached_copy (c : Dev nD) : records m K ⊢ (reached ER (copyCell c) 0 : sProp 𝕄) := (rec_reached m K (c, 63)).trans (Entails.of_eq (by rw [kcell_copy]))

end Cert.Kernel.Mean

end
-- ==== Proof.K.Steps.lean ====
/-
  One step of the protocol at a symbolic device `c` and offset `k`, as a rule for the effect that makes it: the
  signal to the device `k + 1` places after `c` (which hands that device row `rev k` of `c`'s landing buffer), the
  local copy of the block, the transfer of the partial to row `k` of that device, and the waits: on the barrier
  cell for all 31 units (which brings the 31 rows `c` may write), on the copy cell, on receive cell `k` (which brings
  row `k` holding the partial of the device `k + 1` places before) and on send cell `k` (which brings share `k` of the
  source row back). A wait on one of the device's own cells also closes the cell: its counter is back at zero.
-/
import proofs.«900937_g7700000000000938_dist_mean_ax0_shard0_i_m1024_n512_v7x_i32_f32_1_alg».proof.Proof.K.Tables

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

abbrev 𝒱₀ : Variants := Variants.none

omit [FloatOps F] in
/-- A list's head split off, in the separating conjunction's own spelling. -/
theorem bigSepL_cons' {I : Type} (i : I) (l : List I) (Φ : I → sProp 𝕄) : bigSepL (i :: l) Φ = iprop(Φ i ∗ bigSepL l Φ) :=
  bigSepL_cons i l Φ

/-- What the signal at offset `k + 1` pays with: the duty's token and row `rev k` of the device's own landing buffer. -/
def sigRes (c : Dev nD) (k : Fin 31) : sProp 𝕄 :=
  iprop(dutyTok ER (barCell (dst c k)) 0 k ∗ ∃ f, rowPts (F := F) c (rev k) f)

/-- What the transfer at offset `k + 1` pays with: both duties' tokens, share `k` of the source row, and row `k` of the
    addressed device's landing buffer. -/
def sendRes (c : Dev nD) (k : Fin 31) : sProp 𝕄 :=
  iprop(dutyTok ER (sendCell c k) 0 0 ∗ dutyTok ER (recvCell (dst c k) k) 0 0
    ∗ srcPts c (shareTok fullShare 31 k) (part (xs m) c) ∗ ∃ f, rowPts (F := F) (dst c k) k f)

/-- What the wait on receive cell `k` needs: its credit and the device's position at round 0 of the cell. -/
def recvRes (c : Dev nD) (k : Fin 31) : sProp 𝕄 :=
  iprop(cred (tallyAt (recvCell c k) () N) ∗ atPos ER (recvCell c k) 0 ∅ 0)
/-- and brings: the landed row, the cell's counter at zero. -/
def recvGot (c : Dev nD) (k : Fin 31) : sProp 𝕄 := iprop(recvPay m c k ∗ semVal (recvCell c k) 0)

def sendWaitRes (c : Dev nD) (k : Fin 31) : sProp 𝕄 :=
  iprop(cred (tallyAt (sendCell c k) () N) ∗ atPos ER (sendCell c k) 0 ∅ 0)
def sendGot (c : Dev nD) (k : Fin 31) : sProp 𝕄 := iprop(sendPay m c k ∗ semVal (sendCell c k) 0)
/-- The credit a transfer leaves on its send cell. -/
def credS (c : Dev nD) (k : Fin 31) : sProp 𝕄 := cred (tallyAt (sendCell c k) () N)

theorem barPay_self (c : Dev nD) (k : Fin 31) :
    barPay (F := F) (dst c k) k = iprop((∃ f, rowPts (F := F) c (rev k) f) ∗ reached ER (recvCell c (rev k)) 0) :=
  congrArg (fun d : Dev nD => (iprop((∃ f, rowPts (F := F) d (rev k) f) ∗ reached ER (recvCell d (rev k)) 0) : sProp 𝕄)) (dst_dst_rev c k)

/-! ## The signal -/

theorem step_signal (c : Dev nD) (k : Fin 31) (ks : List (Fin 31)) (OR : CellTallies nD τ sig Unit) (W : Waits sig Unit)
    {α : Type} {Q : α → sProp 𝕄} {cont : PUnit → Prog (TpuEff nD τ sig (Elt F) Λ₀ .tc) α} :
    iprop(records m K ∗ owes (c : Thread nD τ) (OR + owedB c (k :: ks)) W ∗ bigSepL (k :: ks) (sigRes (F := F) c))
      ⊢ iprop(((owes (c : Thread nD τ) (OR + owedB c ks) W ∗ bigSepL ks (sigRes (F := F) c)) -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((dst c k : Dev nD) : Thread nD τ) barS (1#32).toNat) cont) Q) := by
  rw [bigSepL_cons']; unfold sigRes
  iintro ⟨#HR, HO, ⟨Htok, ⟨%f, Hrow⟩⟩, Hrest⟩ Hk
  iapply (Rounds.wp_signal 𝒱₀ ER (rd m) (c : Thread nD τ) none (dst := ((dst c k : Dev nD) : Thread nD τ)) (κ := K (dst c k, 0))
      (d := k) (by rw [duties_bar]; exact Finset.mem_univ _) ((amount_bar m (dst c k) k).trans (by decide)) ()
      (O₀ := OR + owedB c (k :: ks)) (OR + owedB c ks)
      (show OR + owedB c (k :: ks) = (OR + owedB c ks) + tallyAt (barCell (dst c k)) () (1#32).toNat from (add_assoc _ _ _).symm)) $$ [HO Htok Hrow]
  · isplitr; · iapply (inv_bar m K (dst c k)); iexact HR
    isplitl [HO]; · iexact HO
    isplitl [Htok]; · iexact Htok
    isplitl [Hrow]
    · rw [payload_bar, barPay_self]
      isplitl [Hrow]; · iexists f; iexact Hrow
      iapply (reached_recv m K c (rev k)); iexact HR
    · iapply (reached_bar m K (dst c k)); iexact HR
  iintro HO
  iapply Hk
  isplitl [HO]; · iexact HO
  iexact Hrest

/-! ## The local copy and its wait -/

theorem step_copy (c : Dev nD) (fd : Buf (Elt F) ((c : Thread nD τ).loc cc0_scratch0))
    {hsrc : (Memref.whole main_arg0 : Memref sig .tc .hbm S1024x512 .f32).view.WordExact}
    {hdst : (Memref.whole cc0_scratch0 : Memref sig .tc .vmem S1024x512 .f32).view.WordExact}
    {hsem : DmaTarget.Typed (nD := nD) .hbm (.dma copyQ) (DmaTarget.here (p := (Proc.tc : Proc τ)) (Memref.whole cc0_scratch0 : Memref sig .tc .vmem S1024x512 .f32))}
    {α : Type} {Q : α → sProp 𝕄} {cont : PUnit → Prog (TpuEff nD τ sig (Elt F) Λ₀ .tc) α} :
    iprop(records m K ∗ (((c : Thread nD τ).loc main_arg0) ↦{fullShare} m ((c : Thread nD τ).loc main_arg0))
        ∗ (((c : Thread nD τ).loc cc0_scratch0) ↦{fullShare} fd) ∗ dutyTok ER (copyCell c) 0 0)
      ⊢ iprop((cred (tallyAt (copyCell c) () NX) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma (Memref.whole main_arg0 : Memref sig .tc .hbm S1024x512 .f32) (DmaTarget.here (p := (Proc.tc : Proc τ)) (Memref.whole cc0_scratch0 : Memref sig .tc .vmem S1024x512 .f32)) (.dma copyQ) hsrc hdst hsem) cont) Q) := by
  iintro ⟨#HR, Hsrc, Hdst, Htok⟩ Hk
  iapply (Rounds.wp_copy_pointsTo 𝒱₀ ER (rd m) (c : Thread nD τ) none (κ := K (c, 63)) (r := 0) (d := 0)
      (fs := m ((c : Thread nD τ).loc main_arg0)) (fd := fd) (q := fullShare)
      (by rw [duties_copy]; exact Finset.mem_singleton_self _) () NX rfl (amount_copy m c 0)
      (by rw [payload_copy]; unfold copyPay; simp only [Memref.view_whole, View.set_whole, View.read_whole]
          rw [View.write_whole_univ]; exact Entails.refl _)) $$ [Hsrc Hdst Htok]
  · isplitr; · iapply (inv_copy m K c); iexact HR
    isplitl [Hsrc]; · simp only [Memref.view_whole, View.set_whole]; iexact Hsrc
    isplitl [Hdst]; · simp only [Memref.view_whole, View.set_whole]; iexact Hdst
    isplitl [Htok]; · iexact Htok
    iapply (reached_copy m K c); iexact HR
  iexact Hk

theorem step_copy_wait (c : Dev nD) (O : CellTallies nD τ sig Unit) (W : Waits sig Unit)
    (hMay : (levAts L lv : sProp 𝕄) ⊢ MayWait (c : Thread nD τ) (.dma copyQ) () O)
    {hs : (Memref.whole main_arg0 : Memref sig .tc .hbm S1024x512 .f32).view.WordExact}
    {hd : (Memref.whole cc0_scratch0 : Memref sig .tc .vmem S1024x512 .f32).view.WordExact}
    {α : Type} {Q : α → sProp 𝕄} {cont : PUnit → Prog (TpuEff nD τ sig (Elt F) Λ₀ .tc) α} :
    iprop(records m K ∗ levAts L lv ∗ cred (tallyAt (copyCell c) () NX) ∗ owes (c : Thread nD τ) O W ∗ atPos ER (copyCell c) 0 ∅ 0)
      ⊢ iprop(((owes (c : Thread nD τ) O (insert (SemLoc.dma copyQ, ()) W) ∗ copyPay m c ∗ semVal (copyCell c) 0) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 copyQ (Memref.whole main_arg0 : Memref sig .tc .hbm S1024x512 .f32) (Memref.whole cc0_scratch0 : Memref sig .tc .vmem S1024x512 .f32) hs hd) cont) Q) := by
  iintro ⟨#HR, #Hlev, Hc, HO, Hat⟩ Hk
  iapply (Rounds.wp_wait_rest_token 𝒱₀ ER (rd m) (c : Thread nD τ) none (κ := K (c, 63))
      (wpE_waitDma2_eq 𝒱₀ (c : Thread nD τ) none Set.univ) (Set.mem_univ _) () (O := O) (W := W) (R := 0) (m := 0) (T := ∅)
      (by rw [Nat.zero_add, expect_copy]; rfl)) $$ [Hc HO Hat]
  · isplitr; · iapply (inv_copy m K c); iexact HR
    isplitl [Hc]; · iexact Hc
    isplitl [HO]; · iexact HO
    isplitr; · iapply hMay; iexact Hlev
    iexact Hat
  iintro ⟨HO, Hat, -, Hpay⟩
  ihave Hp := (Entails.of_eq (rest_copy m c)) $$ Hpay
  imod (Rounds.cell_close ER (rd m) (Set.mem_univ (K (c, 63))) (fun h => h) (R := 0 + 1) (duties_later m (copyCell c))) $$ [Hat] with Hz
  · isplitr; · iapply (inv_copy m K c); iexact HR
    iexact Hat
  iapply Hk
  isplitl [HO]; · iexact HO
  isplitl [Hp]; · iexact Hp
  iexact Hz

/-! ## The barrier wait -/

theorem step_bar_wait (c : Dev nD) (O : CellTallies nD τ sig Unit) (W : Waits sig Unit)
    (hMay : (levAts L lv : sProp 𝕄) ⊢ MayWait (c : Thread nD τ) (.reg barS) () O)
    {α : Type} {Q : α → sProp 𝕄} {cont : PUnit → Prog (TpuEff nD τ sig (Elt F) Λ₀ .tc) α} :
    iprop(records m K ∗ levAts L lv ∗ cred (tallyAt (barCell c) () 31) ∗ owes (c : Thread nD τ) O W ∗ atPos ER (barCell c) 0 ∅ 0)
      ⊢ iprop(((owes (c : Thread nD τ) O (insert (SemLoc.reg barS, ()) W) ∗ bigSep Finset.univ (fun d : Fin 31 => barPay (F := F) c d)) -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS (31#32).toNat) cont) Q) := by
  iintro ⟨#HR, #Hlev, Hc, HO, Hat⟩ Hk
  iapply (Rounds.wp_wait_rest_token 𝒱₀ ER (rd m) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply hMay; iexact Hlev
    iexact Hat
  iintro ⟨HO, -, -, Hpay⟩
  ihave Hp := (Entails.of_eq (rest_bar m c)) $$ Hpay
  iapply Hk
  isplitl [HO]; · iexact HO
  iexact Hp

/-! ## The transfer -/

theorem step_send (c : Dev nD) (k : Fin 31) (n : Dev nD) (hn : n = dst c k) (ks : List (Fin 31)) (OB : CellTallies nD τ sig Unit) (W : Waits sig Unit)
    {hsc : (rowM k : Memref sig (Dev.tc n : Thread nD τ).2.kind .vmem S1x512 .f32).view.ref.isScScratch = false}
    {hsrc : (srcM : Memref sig .tc .vmem S1x512 .f32).view.WordExact} {hdst : (rowM k : Memref sig .tc .vmem S1x512 .f32).view.WordExact}
    {hsem : DmaTarget.Typed .vmem (.dma (recvQ k)) (.remote (Dev.tc n : Thread nD τ) (rowM k : Memref sig .tc .vmem S1x512 .f32) (.dma (sendQ k)) hsc)}
    {α : Type} {Q : α → sProp 𝕄} {cont : PUnit → Prog (TpuEff nD τ sig (Elt F) Λ₀ .tc) α}
    (acc : List (Fin 31)) :
    iprop(records m K ∗ owes (c : Thread nD τ) (owedR c (k :: ks) + OB) W ∗ bigSepL (k :: ks) (sendRes m c) ∗ bigSepL acc (credS (F := F) c))
      ⊢ iprop(((owes (c : Thread nD τ) (owedR c ks + OB) W ∗ bigSepL ks (sendRes m c) ∗ bigSepL (k :: acc) (credS (F := F) c)) -∗ wp frame (wpE (defs₀ (F := F)) 𝒱₀ (c : Thread nD τ) none) Set.univ (cont ⟨⟩) Q)
          -∗ wp frame (wpE (defs₀ (F := F)) 𝒱₀ (c : Thread nD τ) none) Set.univ (.op (.enqueueDma srcM (.remote (Dev.tc n : Thread nD τ) (rowM k) (.dma (sendQ k)) hsc) (.dma (recvQ k)) hsrc hdst hsem) cont) Q) := by
  subst hn
  rw [bigSepL_cons', bigSepL_cons']; unfold sendRes credS
  iintro ⟨#HR, HO, ⟨⟨HtS, HtR, Hsrc, ⟨%fn, Hrow⟩⟩, Hrest⟩, Hacc⟩ Hk
  unfold srcPts rowPts
  iapply (Rounds.wp_send_pointsTo 𝒱₀ ER (rd m) (c : Thread nD τ) none (κ₁ := K (c, jS k)) (κ₂ := K (dst c k, jR k))
      (r₁ := 0) (r₂ := 0) (d₁ := 0) (d₂ := 0) (fd := fn)
      (by rw [duties_send]; exact Finset.mem_singleton_self _) (by rw [duties_recv]; exact Finset.mem_singleton_self _)
      () () N (row_amount k _) (amount_send m c k 0) (amount_recv m (dst c k) k 0)
      (O₀ := owedR c (k :: ks) + OB) (owedR c ks + OB)
      (show owedR c (k :: ks) + OB = (owedR c ks + OB) + tallyAt (recvCell (dst c k) k) () N from add_right_comm _ _ _) (W := W)
      (by rw [payload_send]; exact BI.Entails.refl _)
      (by rw [payload_recv]; unfold recvPay landRow rowPts; rw [src_dst]; iintro H; iexists fn; iexact H)) $$ [Hsrc Hrow HO HtS HtR]
  · isplitr; · iapply (inv_send m K c k); iexact HR
    isplitr; · iapply (inv_recv m K (dst c k) k); iexact HR
    isplitl [Hsrc]; · iexact Hsrc
    isplitl [Hrow]; · iexact Hrow
    isplitl [HO]; · iexact HO
    isplitl [HtS]; · iexact HtS
    isplitr; · iapply (reached_send m K c k); iexact HR
    isplitl [HtR]; · iexact HtR
    iapply (reached_recv m K (dst c k) k); iexact HR
  iintro ⟨HcS, HO⟩
  iapply Hk
  isplitl [HO]; · iexact HO
  isplitl [Hrest]; · iexact Hrest
  isplitl [HcS]; · iexact HcS
  iexact Hacc

/-! ## The waits on the device's own receive and send cells -/

theorem step_recv_wait (c : Dev nD) (k : Fin 31) (ks : List (Fin 31)) (W : Waits sig Unit)
    {hs : (srcM : Memref sig .tc .vmem S1x512 .f32).view.WordExact} {hd : (rowM k : Memref sig .tc .vmem S1x512 .f32).view.WordExact}
    {α : Type} {Q : α → sProp 𝕄} {cont : PUnit → Prog (TpuEff nD τ sig (Elt F) Λ₀ .tc) α}
    (acc : List (Fin 31)) :
    iprop(records m K ∗ owes (c : Thread nD τ) 0 W ∗ bigSepL (k :: ks) (recvRes (F := F) c) ∗ bigSepL acc (recvGot m c))
      ⊢ iprop(((owes (c : Thread nD τ) 0 (insert (SemLoc.dma (recvQ k), ()) W) ∗ bigSepL ks (recvRes (F := F) c) ∗ bigSepL (k :: acc) (recvGot m c)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (recvQ k) srcM (rowM k) hs hd) cont) Q) := by
  rw [bigSepL_cons', bigSepL_cons']; unfold recvRes
  iintro ⟨#HR, HO, ⟨⟨Hc, Hat⟩, Hrest⟩, Hacc⟩ Hk
  iapply (Rounds.wp_wait_rest_token 𝒱₀ ER (rd m) (c : Thread nD τ) none (κ := K (c, jR k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c k)) $$ Hpay
  imod (Rounds.cell_close ER (rd m) (Set.mem_univ (K (c, jR k))) (fun h => h) (R := 0 + 1) (duties_later m (recvCell c k))) $$ [Hat] with Hz
  · isplitr; · iapply (inv_recv m K c k); iexact HR
    iexact Hat
  iapply Hk
  isplitl [HO]; · iexact HO
  isplitl [Hrest]; · iexact Hrest
  isplitl [Hp Hz]
  · unfold recvGot; isplitl [Hp]; · iexact Hp
    iexact Hz
  iexact Hacc

theorem step_send_wait (c : Dev nD) (k : Fin 31) (ks : List (Fin 31)) (W : Waits sig Unit)
    {hs : (rowM k : Memref sig .tc .vmem S1x512 .f32).view.WordExact} {hd : (srcM : Memref sig .tc .vmem S1x512 .f32).view.WordExact}
    {α : Type} {Q : α → sProp 𝕄} {cont : PUnit → Prog (TpuEff nD τ sig (Elt F) Λ₀ .tc) α}
    (acc : List (Fin 31)) :
    iprop(records m K ∗ owes (c : Thread nD τ) 0 W ∗ bigSepL (k :: ks) (sendWaitRes (F := F) c) ∗ bigSepL acc (sendGot m c))
      ⊢ iprop(((owes (c : Thread nD τ) 0 (insert (SemLoc.dma (sendQ k), ()) W) ∗ bigSepL ks (sendWaitRes (F := F) c) ∗ bigSepL (k :: acc) (sendGot m c)) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sendQ k) (rowM k) srcM hs hd) cont) Q) := by
  rw [bigSepL_cons', bigSepL_cons']; unfold sendWaitRes
  iintro ⟨#HR, HO, ⟨⟨Hc, Hat⟩, Hrest⟩, Hacc⟩ Hk
  iapply (Rounds.wp_wait_rest_token 𝒱₀ ER (rd m) (c : Thread nD τ) none (κ := K (c, jS k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c k); iexact HR
    isplitl [Hc]; · iexact Hc
    isplitl [HO]; · iexact HO
    isplitr; · rw [MayWait_zero]; iempintro
    iexact Hat
  iintro ⟨HO, Hat, -, Hpay⟩
  ihave Hp := (Entails.of_eq (rest_send m c k)) $$ Hpay
  imod (Rounds.cell_close ER (rd m) (Set.mem_univ (K (c, jS k))) (fun h => h) (R := 0 + 1) (duties_later m (sendCell c k))) $$ [Hat] with Hz
  · isplitr; · iapply (inv_send m K c k); iexact HR
    iexact Hat
  iapply Hk
  isplitl [HO]; · iexact HO
  isplitl [Hrest]; · iexact Hrest
  isplitl [Hp Hz]
  · unfold sendGot; isplitl [Hp]; · iexact Hp
    iexact Hz
  iexact Hacc

end Cert.Kernel.Mean

end
-- ==== Proof.K.Data.lean ====
/-
  The proof data of the launch: what the result's staging buffer holds after the body (the device's result row),
  what the kernel holds on entry — the ghost state, the credits of its barrier cell and of its 31 receive cells,
  the levels, its block's array, its three scratch buffers at arbitrary contents — and on exit — the block's array
  unchanged, its 63 own cells back at zero, the scratch buffers —, and what it owes: everything at entry, nothing
  at exit.
-/
import proofs.«900937_g7700000000000938_dist_mean_ax0_shard0_i_m1024_n512_v7x_i32_f32_1_alg».proof.Proof.K.Steps

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-- The block's array, as launched. -/
def argPts (c : Dev nD) : sProp 𝕄 := ((c : Thread nD τ).loc main_arg0) ↦{fullShare} m ((c : Thread nD τ).loc main_arg0)

/-- The three scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What device `c`'s body starts from, beside the scratch buffers. -/
def start (c : Dev nD) : sProp 𝕄 :=
  iprop(G' m c ∗ cred (tallyAt (barCell c) () 31) ∗ (bigSep Finset.univ fun k : Fin 31 => cred (tallyAt (recvCell c k) () N))
    ∗ levAts L lv ∗ argPts m c)

def Φ₀ (c : Dev nD) : sProp 𝕄 := iprop(start m c ∗ scratch (F := F) c)
/-- After the point: the array unchanged, the 63 own cells at zero, the scratch buffers. -/
def Φ₁ (c : Dev nD) : sProp 𝕄 :=
  iprop(argPts m c ∗ (bigSep (Finset.univ.erase (0 : Fin 64)) fun j => semVal (kcell (c, j)) 0) ∗ scratch (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt (xs m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition in the library's form: the entry invariant, what it owes, the result's staging buffer. -/
def bodyPre' (c : Dev nD) : sProp 𝕄 :=
  iprop(Φ₀ m c ∗ (dats m ρ 0 c).owesAt () t₀.castSucc ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outAt (xs m) c))

/-! ## The entry invariant opened: what the body steps from -/

/-- The tokens the transfer at offset `k + 1` pays with. -/
def sendToks (c : Dev nD) (k : Fin 31) : sProp 𝕄 :=
  iprop(dutyTok ER (sendCell c k) 0 0 ∗ dutyTok ER (recvCell (dst c k) k) 0 0)
/-- The device at round 0 of send cell `k`. -/
def sendPos (c : Dev nD) (k : Fin 31) : sProp 𝕄 := atPos ER (sendCell c k) 0 ∅ 0

/-- The entry invariant with the ghost state dealt out offset by offset, in the kernel's order. -/
def bodyOpen (K : Dev nD × Fin 64 → ℕ) (c : Dev nD) : sProp 𝕄 :=
  iprop(records m K ∗ levAts L lv ∗ argPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (atPos ER (barCell c) 0 ∅ 0 ∗ cred (tallyAt (barCell c) () 31))
    ∗ (atPos ER (copyCell c) 0 ∅ 0 ∗ dutyTok ER (copyCell c) 0 0)
    ∗ bigSepL all31 (sigRes (F := F) c)
    ∗ bigSepL all31 (sendToks (F := F) c)
    ∗ bigSepL all31 (recvRes (F := F) c)
    ∗ bigSepL all31 (sendPos (F := F) c))

end Cert.Kernel.Mean

end
-- ==== Proof.K.LaunchGhost.lean ====
/-
  The ghost state at launch.

  From the launch's resource element every device is dealt the round states, positions and duty tokens of its own 64
  cells; with every semaphore counter at zero each round state becomes a cell invariant; and the tokens are then dealt
  to the devices that PAY the duties: the token of duty `k` of a device's barrier cell and the token of its receive
  cell `k` go to the device `k + 1` places before it (the rotation by `k + 1` places is a permutation of the
  devices), the send and copy tokens stay.  What all devices together owe a device's cells at launch is 31 units on
  its barrier cell (one from each other device: `dst d k = c` has the one solution `d = src c k` for each offset) and
  a row's credit on each receive cell `k` (from `src c k`).  The waits are ordered by level: everything a device can
  owe is a receive cell (level 2) or a barrier cell (level 1), so a wait on a cell of level 0 is always allowed, and a
  wait on the barrier cell is allowed once only receive cells are owed.
-/
import proofs.«900937_g7700000000000938_dist_mean_ax0_shard0_i_m1024_n512_v7x_i32_f32_1_alg».proof.Proof.K.Ghost

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)

/-! ## The kernel's own semaphores -/

omit [FloatOps F] in
theorem ownSemFacts : Pipeline.OwnSemFacts cfg0.spec osem := by decide

/-! ## The levels -/

omit [FloatOps F] in
/-- What is still owed to receive cells is positive only at a receive cell. -/
theorem owedR_pos {c : Dev nD} {ks : List (Fin 31)} {g : GSem nD τ sig} {u : Unit} (h : 0 < owedR c ks g u) :
    ∃ d k, g = recvCell d k := by
  induction ks with
  | nil => exact absurd h (Nat.lt_irrefl 0)
  | cons k ks ih =>
    rcases Pipeline.add_pos_cases (D₁ := owedR c ks) (D₂ := tallyAt (recvCell (dst c k) k) () N) h with h1 | h2
    · exact ih h1
    · exact ⟨dst c k, k, (Pipeline.tallyAt_pos h2).1⟩

omit [FloatOps F] in
/-- What is still owed to barrier cells is positive only at a barrier cell. -/
theorem owedB_pos {c : Dev nD} {ks : List (Fin 31)} {g : GSem nD τ sig} {u : Unit} (h : 0 < owedB c ks g u) :
    ∃ d, g = barCell d := by
  induction ks with
  | nil => exact absurd h (Nat.lt_irrefl 0)
  | cons k ks ih =>
    rcases Pipeline.add_pos_cases (D₁ := owedB c ks) (D₂ := tallyAt (barCell (dst c k)) () 1) h with h1 | h2
    · exact ih h1
    · exact ⟨dst c k, (Pipeline.tallyAt_pos h2).1⟩

omit [FloatOps F] in
theorem owed_pos {c : Dev nD} {ks ks' : List (Fin 31)} {g : GSem nD τ sig} {u : Unit} (h : 0 < (owedR c ks + owedB c ks') g u) :
    (∃ d k, g = recvCell d k) ∨ (∃ d, g = barCell d) := by
  rcases Pipeline.add_pos_cases h with h1 | h2
  · exact .inl (owedR_pos h1)
  · exact .inr (owedB_pos h2)

omit [FloatOps F] in
/-- A wait on a cell of level 0 is allowed whatever receive and barrier cells are still owed. -/
theorem mayWait_low (c : Dev nD) (sm : SemLoc sig) (hsm : lv ((c : Thread nD τ), sm) () = 0) (ks ks' : List (Fin 31)) :
    (levAts L lv : sProp 𝕄) ⊢ MayWait (c : Thread nD τ) sm () (owedR c ks + owedB c ks') :=
  Pipeline.mayWait_of_levAts (by rw [L_tc]; exact Finset.mem_singleton_self _) fun g i hg => by
    cases i
    rcases owed_pos hg with ⟨d, k, rfl⟩ | ⟨d, rfl⟩
    · exact ⟨by rw [L_tc]; exact Finset.mem_singleton_self _, by rw [hsm, lv_recv]; decide⟩
    · exact ⟨by rw [L_tc]; exact Finset.mem_singleton_self _, by rw [hsm, lv_bar]; decide⟩

omit [FloatOps F] in
/-- The barrier wait happens when only receive cells are owed: they lie above the barrier cell. -/
theorem mayWait_bar (c : Dev nD) (ks : List (Fin 31)) :
    (levAts L lv : sProp 𝕄) ⊢ MayWait (c : Thread nD τ) (.reg barS) () (owedR c ks + owedB c []) :=
  Pipeline.mayWait_of_levAts (by rw [L_tc]; exact Finset.mem_singleton_self _) fun g i hg => by
    cases i
    rcases Pipeline.add_pos_cases hg with h1 | h2
    · obtain ⟨d, k, rfl⟩ := owedR_pos h1
      exact ⟨by rw [L_tc]; exact Finset.mem_singleton_self _, by rw [lv_bar c, lv_recv]; decide⟩
    · exact absurd h2 (Nat.lt_irrefl 0)

omit [FloatOps F] in
/-- A wait on a staging cell, which has no part in the protocol: level 0. -/
theorem mayWait_stage (c : Dev nD) (q : DmaSem sig) (hq : roleOf (.dma q) = .none) (O : CellTallies nD τ sig Unit) (hO : O = O₀ c ∨ O = 0) :
    (levAts L lv : sProp 𝕄) ⊢ MayWait (c : Thread nD τ) (.dma q) () O := by
  rcases hO with rfl | rfl
  · exact mayWait_low c (.dma q) (by unfold lv; rw [hq]) all31 all31
  · rw [MayWait_zero]; iintro -; iempintro

/-! ## What the devices together owe a device's cells at launch -/

omit [FloatOps F] in
/-- The receive credits: offset `k`'s credit on receive cell `k` of `dst d k`, summed over the devices `d`, is one
    credit on receive cell `k` of `c` (from `d = src c k`). -/
theorem credR (c : Dev nD) (ks : List (Fin 31)) :
    (Pipeline.launchCred (fun d => owedR d ks) c : sProp 𝕄) ⊢ bigSepL ks fun k => cred (tallyAt (recvCell c k) () N) := by
  induction ks with
  | nil =>
    exact Entails.of_eq (Pipeline.launchCred_zero c)
  | cons k ks ih =>
    rw [bigSepL_cons]
    refine (Entails.of_eq (Pipeline.launchCred_add (fun d => owedR d ks) (fun d => tallyAt (recvCell (dst d k) k) () N) c)).trans ?_
    refine (BI.sep_mono ih (Pipeline.launchCred_tallyAt (.dma (recvQ k)) (fun d => dst d k) (fun d => src d k)
      (fun d => dst_src d k) (fun d => src_dst d k) () N c)).trans ?_
    exact BI.sep_comm

omit [FloatOps F] in
/-- The barrier units: one unit on the barrier cell of `dst d k` per offset, summed over the devices, is one unit on
    `c`'s barrier cell per offset. -/
theorem credB (c : Dev nD) (ks : List (Fin 31)) :
    (Pipeline.launchCred (fun d => owedB d ks) c : sProp 𝕄) ⊢ cred (tallyAt (barCell c) () ks.length) := by
  induction ks with
  | nil =>
    rw [List.length_nil, tallyAt_zero, cred_zero]
    exact Entails.of_eq (Pipeline.launchCred_zero c)
  | cons k ks ih =>
    refine (Entails.of_eq (Pipeline.launchCred_add (fun d => owedB d ks) (fun d => tallyAt (barCell (dst d k)) () 1) c)).trans ?_
    refine (BI.sep_mono ih (Pipeline.launchCred_tallyAt (.reg barS) (fun d => dst d k) (fun d => src d k)
      (fun d => dst_src d k) (fun d => src_dst d k) () 1 c)).trans ?_
    rw [List.length_cons, ← tallyAt_add]
    exact (cred_add _ _).2

omit [FloatOps F] in
theorem creds (c : Dev nD) :
    (Pipeline.launchCred O₀ c : sProp 𝕄) ⊢ iprop(cred (tallyAt (barCell c) () 31) ∗ bigSep Finset.univ fun k : Fin 31 => cred (tallyAt (recvCell c k) () N)) := by
  rw [bigSep_univ_eq_bigSepL all31 (by decide) (by decide)]
  refine (Entails.of_eq (Pipeline.launchCred_add (fun d => owedR d all31) (fun d => owedB d all31) c)).trans ?_
  exact (BI.sep_mono (credR c all31) (credB c all31)).trans BI.sep_comm

/-! ## The launch element, dealt to the devices -/

/-- Every payload of the schedule can be kept in an invariant. -/
instance rd_payload_storable (g : GSem nD τ sig) (r : ℕ) (d : Fin 31) :
    BI.Storable (upEmb : UEmb _ 𝕄) ((rd m).payload g r d) := by
  show BI.Storable upEmb (match roleOf g.2 with
    | .bar => barPay g.1.1 d | .send k => sendPay m g.1.1 k | .recv k => recvPay m g.1.1 k | .copy => copyPay m g.1.1 | .none => iprop(emp))
  unfold barPay sendPay recvPay copyPay landRow rowPts srcPts
  split <;> infer_instance

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 64 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

omit [FloatOps F] in
/-- Cell `i + 1` of a device is its own semaphore `i`. -/
theorem csem_succ (i : Fin 63) : csem i.succ = osem i := by
  unfold csem
  rw [if_neg (by rw [Fin.val_succ]; exact Nat.succ_ne_zero _)]
  rfl

omit [FloatOps F] in
/-- The cell indices other than 0 are the successors of the 63 indices of the own semaphores. -/
theorem erase_zero_eq : (Finset.univ.erase (0 : Fin 64)) = Finset.univ.map (Fin.succEmb 63) := by
  ext j
  rw [Finset.mem_erase, Finset.mem_map]
  constructor
  · rintro ⟨hj, -⟩
    exact ⟨j.pred hj, Finset.mem_univ _, Fin.succ_pred j hj⟩
  · rintro ⟨i, -, rfl⟩
    exact ⟨Fin.succ_ne_zero i, Finset.mem_univ _⟩

omit [FloatOps F] in
/-- The kernel's own 63 semaphores at zero are the cells 1 to 63 at zero; -/
theorem ownSems0_eq (c : Dev nD) :
    (Pipeline.ownSems0 (Ix := Unit) (Name := ℕ) (U := UU) (Lvl := ℕ) (Val := Elt F) (τ := τ) osem c : sProp 𝕄)
      = bigSep (Finset.univ.erase (0 : Fin 64)) fun j => semVal (kcell (c, j)) 0 := by
  rw [erase_zero_eq, bigSep_map]
  unfold Pipeline.ownSems0
  exact bigSep_congr fun i _ => by
    show semVal ((c : Thread nD τ), osem i) 0 = semVal ((c : Thread nD τ), csem i.succ) 0
    rw [csem_succ]

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 64 => semVal (kcell (c, j)) 0 : sProp 𝕄) := by
  rw [ownSems0_eq, unscopedSems0_eq, bigSep_univ_at _ (0 : Fin 64), kcell_bar]
  exact BI.sep_comm

omit [FloatOps F] in
/-- The 63 own cells back at zero give the launch its own semaphores back. -/
theorem ownSems0_intro (c : Dev nD) :
    (bigSep (Finset.univ.erase (0 : Fin 64)) fun j => semVal (kcell (c, j)) 0 : sProp 𝕄)
      ⊢ Pipeline.ownSems0 (Ix := Unit) (Name := ℕ) (U := UU) (Lvl := ℕ) (Val := Elt F) (τ := τ) osem c :=
  Entails.of_eq (ownSems0_eq c).symm

/-! ## The cells' invariants -/

/-- With its 64 counters at zero, a device's round states become cell invariants at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 64 => semVal (kcell (c, j)) 0) ∗ bigSep Finset.univ fun j : Fin 64 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt to the payers -/

/-- The tokens of its own cells that somebody needs: all 31 of the barrier cell, duty 0 of each receive cell, of each
    send cell and of the copy cell. -/
def pickTok : (Fin 31 ⊕ Fin 31) ⊕ (Fin 31 ⊕ Unit) → Fin 64 × Fin 31
  | .inl (.inl k) => (0, k)
  | .inl (.inr k) => (jR k, 0)
  | .inr (.inl k) => (jS k, 0)
  | .inr (.inr _) => (63, 0)

omit [FloatOps F] in
theorem pickTok_cell (x : (Fin 31 ⊕ Fin 31) ⊕ (Fin 31 ⊕ Unit)) :
    (pickTok x).1.val = match x with
      | .inl (.inl _) => 0 | .inl (.inr k) => 32 + k.val | .inr (.inl k) => 1 + k.val | .inr (.inr _) => 63 := by
  rcases x with (a | a) | (a | a) <;> rfl

omit [FloatOps F] in
theorem pickTok_duty (x : (Fin 31 ⊕ Fin 31) ⊕ (Fin 31 ⊕ Unit)) :
    (pickTok x).2.val = match x with
      | .inl (.inl k) => k.val | .inl (.inr _) => 0 | .inr (.inl _) => 0 | .inr (.inr _) => 0 := by
  rcases x with (a | a) | (a | a) <;> rfl

omit [FloatOps F] in
/-- The four families name pairwise distinct tokens: the cell indices 0, 32 + k, 1 + k, 63 are distinct. -/
theorem pickTok_injective : Function.Injective pickTok := by
  intro x y h
  have h1 : (pickTok x).1.val = (pickTok y).1.val := congrArg (fun p => p.1.val) h
  have h2 : (pickTok x).2.val = (pickTok y).2.val := congrArg (fun p => p.2.val) h
  rw [pickTok_cell, pickTok_cell] at h1
  rw [pickTok_duty, pickTok_duty] at h2
  rcases x with (a | a) | (a | a) <;> rcases y with (b | b) | (b | b) <;> dsimp only at h1 h2
  · exact congrArg (fun k => Sum.inl (Sum.inl k)) (Fin.ext h2)
  · have := b.isLt; omega
  · have := b.isLt; omega
  · omega
  · have := a.isLt; omega
  · exact congrArg (fun k => Sum.inl (Sum.inr k)) (Fin.ext (by omega))
  · have := a.isLt; have := b.isLt; omega
  · have := a.isLt; omega
  · have := a.isLt; omega
  · have := a.isLt; have := b.isLt; omega
  · exact congrArg (fun k => Sum.inr (Sum.inl k)) (Fin.ext (by omega))
  · have := a.isLt; omega
  · omega
  · have := b.isLt; omega
  · have := b.isLt; omega
  · rfl

omit [FloatOps F] in
/-- Of all the tokens of its own cells a device keeps the four families; the others nobody needs. -/
theorem toks_own (c : Dev nD) :
    (toks c : sProp 𝕄) ⊢ iprop(((bigSep Finset.univ fun k : Fin 31 => dutyTok ER (barCell c) 0 k)
        ∗ bigSep Finset.univ fun k : Fin 31 => dutyTok ER (recvCell c k) 0 0)
      ∗ (bigSep Finset.univ fun k : Fin 31 => dutyTok ER (sendCell c k) 0 0) ∗ dutyTok ER (copyCell c) 0 0) := by
  unfold toks
  refine (bigSep_subset (Finset.subset_univ (Finset.univ.map ⟨pickTok, pickTok_injective⟩))).trans ?_
  rw [bigSep_map, bigSep_univ_sum, bigSep_univ_sum, bigSep_univ_sum, bigSep_univ_of_subsingleton ()]
  show iprop(((bigSep Finset.univ fun k : Fin 31 => dutyTok ER (kcell (c, 0)) 0 k)
        ∗ bigSep Finset.univ fun k : Fin 31 => dutyTok ER (kcell (c, jR k)) 0 0)
      ∗ (bigSep Finset.univ fun k : Fin 31 => dutyTok ER (kcell (c, jS k)) 0 0) ∗ dutyTok ER (kcell (c, 63)) 0 0) ⊢ _
  simp only [kcell_bar, kcell_recv, kcell_send, kcell_copy]
  exact .rfl

/-- The rotation of the ring by each offset at once: `(c, k) ↦ (dst c k, k)`, undone by `(c, k) ↦ (src c k, k)`. -/
def rot : Dev nD × Fin 31 ≃ Dev nD × Fin 31 where
  toFun p := (dst p.1 p.2, p.2)
  invFun p := (src p.1 p.2, p.2)
  left_inv p := Prod.ext (src_dst p.1 p.2) rfl
  right_inv p := Prod.ext (dst_src p.1 p.2) rfl

omit [FloatOps F] in
/-- A family over devices and offsets, summed over both, may be read at the device each offset addresses. -/
theorem bigSep_rot (Ψ : Dev nD → Fin 31 → sProp 𝕄) :
    (bigSep Finset.univ fun c : Dev nD => bigSep Finset.univ fun k : Fin 31 => Ψ c k)
      = bigSep Finset.univ fun c : Dev nD => bigSep Finset.univ fun k : Fin 31 => Ψ (dst c k) k := by
  rw [← bigSep_univ_prod (fun p : Dev nD × Fin 31 => Ψ p.1 p.2), bigSep_univ_equiv rot, bigSep_univ_prod]
  rfl

omit [FloatOps F] in
/-- The tokens dealt around the ring: the token of duty `k` of a barrier cell and the token of receive cell `k` go
    `k + 1` places back, to the device that pays them; the send and copy tokens stay. -/
theorem toks_deal :
    (bigSep Finset.univ fun c : Dev nD => iprop(((bigSep Finset.univ fun k : Fin 31 => dutyTok ER (barCell c) 0 k)
        ∗ bigSep Finset.univ fun k : Fin 31 => dutyTok ER (recvCell c k) 0 0)
      ∗ (bigSep Finset.univ fun k : Fin 31 => dutyTok ER (sendCell c k) 0 0) ∗ dutyTok ER (copyCell c) 0 0) : sProp 𝕄)
      ⊢ bigSep Finset.univ fun c : Dev nD => payToks c := by
  unfold payToks
  rw [bigSep_sep', bigSep_sep', bigSep_sep', bigSep_sep',
    bigSep_congr (s := Finset.univ) (fun (c : Dev nD) _ => bigSep_sep' Finset.univ (fun k : Fin 31 => (dutyTok ER (barCell (dst c k)) 0 k : sProp 𝕄))
      (fun k => iprop(dutyTok ER (recvCell (dst c k) k) 0 0 ∗ dutyTok ER (sendCell c k) 0 0))),
    bigSep_sep',
    bigSep_congr (s := Finset.univ) (fun (c : Dev nD) _ => bigSep_sep' Finset.univ (fun k : Fin 31 => (dutyTok ER (recvCell (dst c k) k) 0 0 : sProp 𝕄))
      (fun k => dutyTok ER (sendCell c k) 0 0)),
    bigSep_sep',
    bigSep_rot (fun c k => (dutyTok ER (barCell c) 0 k : sProp 𝕄)),
    bigSep_rot (fun c k => (dutyTok ER (recvCell c k) 0 0 : sProp 𝕄))]
  iintro ⟨⟨HB, HR⟩, HS, HC⟩
  isplitr [HC]
  · isplitl [HB]; · iexact HB
    isplitl [HR]; · iexact HR
    iexact HS
  · iexact HC

omit [FloatOps F] in
theorem toks_around : (bigSep Finset.univ fun c : Dev nD => (toks c : sProp 𝕄)) ⊢ bigSep Finset.univ fun c : Dev nD => payToks c :=
  (bigSep_mono fun c _ => toks_own c).trans toks_deal

/-! ## The global step -/

theorem inv_at (K : Dev nD × Fin 64 → ℕ) (cj : Dev nD × Fin 64) :
    (bigSep Finset.univ fun cj : Dev nD × Fin 64 => (cellInv ER (rd m) (K cj) (kcell cj) : sProp 𝕄)) ⊢ cellInv ER (rd m) (K cj) (kcell cj) :=
  bigSep_elim (Finset.mem_univ cj)
omit [FloatOps F] in
theorem reached_at (cj : Dev nD × Fin 64) :
    (bigSep Finset.univ fun cj : Dev nD × Fin 64 => (reached ER (kcell cj) 0 : sProp 𝕄)) ⊢ reached ER (kcell cj) 0 :=
  bigSep_elim (Finset.mem_univ cj)

theorem ghost_intro (K : Dev nD × Fin 64 → ℕ) (c : Dev nD) : iprop(records m K ∗ positions c ∗ payToks c) ⊢ G' m c := by
  unfold G' ghost
  iintro H
  iexists K
  iexact H

omit [FloatOps F] in
/-- A persistent assertion beside a family serves every member of the family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (rd m) κ (kcell (c, j))))
          ∗ (bigSep Finset.univ fun j => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 64 => iprop(∃ κ : ℕ, cellInv ER (rd m) κ (kcell cj))),
    bigSep_congr (s := Finset.univ) (fun (c : Dev nD) _ => bigSep_sep' Finset.univ (fun j : Fin 64 => (atPos ER (kcell (c, j)) 0 ∅ 0 : sProp 𝕄)) (fun j => reached ER (kcell (c, j)) 0)),
    bigSep_sep', ← bigSep_univ_prod (fun cj : Dev nD × Fin 64 => (reached ER (kcell cj) 0 : sProp 𝕄))]
  iintro ⟨HI, ⟨Hat, #HR⟩, Htok⟩
  ihave HK := (BI.bigSep_exists_pi Finset.univ (fun (cj : Dev nD × Fin 64) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Mean.glob' depends on axioms: [propext, Classical.choice, Quot.sound] -/
#guard_msgs in #print axioms glob

end Cert.Kernel.Mean

end
-- ==== Proof.K.Launch.lean ====
/-
  The launch: from each device's body to the run of the whole program on the 32 devices.

  Given that every device's body, started from its entry invariant with what it owes and the result's staging buffer,
  ends in its exit invariant owing nothing with the staging buffer holding the device's result row, every weakly fair
  execution of @main terminates without a fault, and in every final state each device's result array holds its result
  row and its block's array holds what it held at launch.

  What the launch deals a device — its block's array (the one unscoped buffer no window stages), the levels, the
  credits of its barrier cell and of its 31 receive cells, its ghost state — is what the body starts from; the three
  scratch buffers are the scoped buffers that stage nothing; at exit the 63 own semaphores are back at zero and the
  block's array, still held whole, is read against the final state. The result array is written once, whole, by the one
  write-back after the one point: it ends at what the body left in the staging buffer.
-/
import proofs.«900937_g7700000000000938_dist_mean_ax0_shard0_i_m1024_n512_v7x_i32_f32_1_alg».proof.Proof.K.Data
import proofs.«900937_g7700000000000938_dist_mean_ax0_shard0_i_m1024_n512_v7x_i32_f32_1_alg».proof.Proof.K.LaunchGhost
import proofs.«900937_g7700000000000938_dist_mean_ax0_shard0_i_m1024_n512_v7x_i32_f32_1_alg».proof.Proof.Gen.Kernel.Points

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

/-- What the run ends with on every device: the result array at the device's result row, the block's array as launched. -/
def QC (m : (ℓ : Loc nD τ sig) → Buf (Elt F) ℓ) (ρ : Dev nD → PrngReg) : PUnit × MemSt nD τ sig (Elt F) → Prop := fun r =>
  ∀ c : Dev nD, r.2.mem ((c : Thread nD τ).loc main_v1) = outAt (xs m) c
    ∧ r.2.mem ((c : Thread nD τ).loc main_arg0) = m ((c : Thread nD τ).loc main_arg0)

variable (m : (ℓ : Loc nD τ sig) → Buf (Elt F) ℓ) (ρ : Dev nD → PrngReg)

/-! ## The theorem's side conditions -/

/-- The result's array is held at the full share. -/
theorem share_eq (c : Dev nD) (w : Fin cfg0.W) : (dats m ρ 0 c).share w = fullShare := by unfold Dat.share; split <;> rfl

/-- The one unscoped buffer that is no window's array is the block's array: the launch hands it over as launched. -/
theorem rest_eq (c : Dev nD) :
    (Pipeline.unscopedRestP Pipeline.Prefetch.none cfg0.spec c (fun b => m ((c : Thread nD τ).loc b)) : sProp 𝕄) = argPts m c := by
  rw [Pipeline.unscopedRestP_none, unscopedRest0_eq]; rfl

/-- From what the launch deals a device to what its body starts from: the credits regrouped by cell. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨Harg, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Harg
  · iempintro

/-- The entry invariant: the start and the three scratch buffers, which are the scoped buffers that stage nothing. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The exit invariant hands back the block's array, the 63 own semaphores at zero and the scratch buffers. -/
theorem phi1_exit (c : Dev nD) :
    (dats m ρ 0 c).Φ (Fin.last cfg0.N) ⊢ iprop(argPts m c ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨Ha, Hz, Hr⟩
  isplitl [Ha]; · iexact Ha
  isplitl [Hz]; · iapply (ownSems0_intro (F := F) c); iexact Hz
  iexact Hr

/-- The pipeline's own waits, on the one staging cell, are allowed before and after the point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The block's array, held whole beside the state, is the state's: it ends as launched. -/
theorem arg_read (c : Dev nD) (s' : Phys nD τ sig (Elt F)) :
    iprop(argPts m c ∗ emp ∗ SI s')
      ⊢ |={Set.univ}=> iprop(⌜s'.mem.mem ((c : Thread nD τ).loc main_arg0) = m ((c : Thread nD τ).loc main_arg0)⌝ ∗ SI s') := by
  unfold argPts
  iintro ⟨Hx, -, HSI⟩
  icombine HSI Hx gives %hx
  imodintro
  isplitr; · ipureintro; exact Buf.eq_of_forall_mem_univ hx
  iexact HSI

/-! ## The result array after the run -/

/-- The one write-back writes the whole result array (the block at index 0 with the array's own sizes): it ends
    holding what the body left in the staging buffer, the device's result row. -/
theorem final_out (c : Dev nD) : (dats m ρ 0 c).arrAt 0 cfg0.N = outAt (xs m) c := by
  have h := (dats (F := F) m ρ 0 c).arrAt_succ 0 t₀
  rw [flush0_0 t₀, if_pos rfl] at h
  refine h.trans ?_
  exact Memref.write_access_unit_zero_univ (Elt F) main_v1 (funext fun a => Nat.zero_mul _) _ _ _

/-! ## The run -/

set_option maxRecDepth 8000 in
/-- At the compiled mesh of 32 devices, for any float values, from any memory with zero counters: if every device's
    body meets its obligation, every weakly fair execution of @main terminates, and every final state has each
    device's result array at its result row and its block's array unchanged. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := arg_read m)
    (hQ := fun s h c => ⟨((h c).1 0).trans (final_out m ρ c), (h c).2.2⟩)

/-- info: 'Cert.Kernel.Mean.run_main' depends on axioms: [propext, Classical.choice, Quot.sound] -/
#guard_msgs in #print axioms run_main

end Cert.Kernel.Mean

end
-- ==== Proof.K.Regroup.lean ====
/-
  Regrouping of the ghost state between the launch's form and the body's.

  The launch hands a device its ghost state indexed by finite sets: its positions over its 64 cell indices, its tokens
  and credits over the 31 offsets.  The body consumes and produces them offset by offset, as chains over the list of the
  31 offsets in the kernel's order, and what it produces comes back in the reverse order.  A chain over a list without
  repetition that lists every offset is the separating conjunction over all offsets, whatever the order; a chain of
  pairs is the pair of the chains.  The 64 cell indices are 0 (barrier), `1 + k` (send cell `k`), `32 + k` (receive cell
  `k`) and 63 (copy), so a family over the indices other than 0 is its send part, its receive part and its copy member.
  The landing buffer is its 31 rows, and since `rev` is an involution of the offsets the rows may be listed as row
  `rev k` at offset `k`.  The source row held outright is a remainder and 31 read shares, one per offset.
-/
import proofs.«900937_g7700000000000938_dist_mean_ax0_shard0_i_m1024_n512_v7x_i32_f32_1_alg».proof.Proof.K.Data
import proofs.«900937_g7700000000000938_dist_mean_ax0_shard0_i_m1024_n512_v7x_i32_f32_1_alg».proof.Proof.K.LaunchGhost
import Mathlib.Logic.Equiv.Fin.Basic

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

/-! ## Chains over the list of offsets -/

omit [FloatOps F] in
theorem univ_eq_all31 (Φ : Fin 31 → sProp 𝕄) : bigSep Finset.univ Φ = bigSepL all31 Φ :=
  bigSep_univ_eq_bigSepL all31 (by decide) (by decide) Φ

omit [FloatOps F] in
/-- A chain of pairs is the pair of the chains. -/
theorem bigSepL_sep {I : Type} (l : List I) (Φ Ψ : I → sProp 𝕄) :
    bigSepL l (fun i => iprop(Φ i ∗ Ψ i)) ⊣⊢ iprop(bigSepL l Φ ∗ bigSepL l Ψ) := by
  induction l with
  | nil =>
    rw [bigSepL_nil, bigSepL_nil, bigSepL_nil]
    refine ⟨?_, ?_⟩
    · iintro -
      isplitl [] <;> iempintro
    · iintro ⟨-, -⟩
      iempintro
  | cons i l ih =>
    rw [bigSepL_cons, bigSepL_cons, bigSepL_cons]
    show iprop((Φ i ∗ Ψ i) ∗ bigSepL l fun i => iprop(Φ i ∗ Ψ i)) ⊣⊢ iprop((Φ i ∗ bigSepL l Φ) ∗ (Ψ i ∗ bigSepL l Ψ))
    refine ⟨?_, ?_⟩
    · iintro ⟨⟨H1, H2⟩, H⟩
      ihave H' := ih.1 $$ H
      icases H' with ⟨H3, H4⟩
      isplitl [H1 H3]
      · isplitl [H1]; · iexact H1
        iexact H3
      · isplitl [H2]; · iexact H2
        iexact H4
    · iintro ⟨⟨H1, H3⟩, ⟨H2, H4⟩⟩
      isplitl [H1 H2]
      · isplitl [H1]; · iexact H1
        iexact H2
      · iapply ih.2
        isplitl [H3]; · iexact H3
        iexact H4

omit [FloatOps F] in
/-- The offsets in reverse order are the same offsets: both chains are the conjunction over all of them. -/
theorem bigSepL_reverse_all31 (Φ : Fin 31 → sProp 𝕄) : bigSepL all31.reverse Φ = bigSepL all31 Φ :=
  (bigSep_univ_eq_bigSepL all31.reverse (by decide) (by decide) Φ).symm.trans (univ_eq_all31 Φ)

/-! ## The offsets read backwards -/

/-- `rev` as a permutation of the offsets: it is its own inverse. -/
def revEquiv : Fin 31 ≃ Fin 31 := ⟨rev, rev, rev_rev, rev_rev⟩

omit [FloatOps F] in
theorem bigSep_rev (Φ : Fin 31 → sProp 𝕄) : bigSep Finset.univ Φ = bigSep Finset.univ fun k : Fin 31 => Φ (rev k) :=
  bigSep_univ_equiv revEquiv Φ

/-! ## The 64 cell indices by role -/

/-- The 63 indices of a device's own cells, less one: the 31 send cells, then the 31 receive cells, then the copy cell. -/
def ownEquiv : (Fin 31 ⊕ Fin 31) ⊕ Fin 1 ≃ Fin 63 :=
  (Equiv.sumCongr (finSumFinEquiv (m := 31) (n := 31)) (Equiv.refl (Fin 1))).trans (finSumFinEquiv (m := 62) (n := 1))

omit [FloatOps F] in
theorem ownEquiv_send (k : Fin 31) : (ownEquiv (.inl (.inl k))).succ = jS k :=
  Fin.ext (by show k.val + 1 = 1 + k.val; omega)
omit [FloatOps F] in
theorem ownEquiv_recv (k : Fin 31) : (ownEquiv (.inl (.inr k))).succ = jR k :=
  Fin.ext (by show (31 + k.val) + 1 = 32 + k.val; omega)
omit [FloatOps F] in
theorem ownEquiv_copy (i : Fin 1) : (ownEquiv (.inr i)).succ = (63 : Fin 64) :=
  Fin.ext (by have := i.isLt; show (62 + i.val) + 1 = 63; omega)

omit [FloatOps F] in
/-- A family over the cell indices other than 0: its send part, its receive part, its copy member. -/
theorem own_split (Φ : Fin 64 → sProp 𝕄) :
    bigSep (Finset.univ.erase (0 : Fin 64)) Φ
      = iprop(((bigSep Finset.univ fun k : Fin 31 => Φ (jS k)) ∗ bigSep Finset.univ fun k : Fin 31 => Φ (jR k)) ∗ Φ 63) := by
  rw [erase_zero_eq, bigSep_map, bigSep_univ_equiv ownEquiv, bigSep_univ_sum, bigSep_univ_sum, bigSep_univ_of_subsingleton (0 : Fin 1)]
  show iprop(((bigSep Finset.univ fun k : Fin 31 => Φ (ownEquiv (.inl (.inl k))).succ)
      ∗ bigSep Finset.univ fun k : Fin 31 => Φ (ownEquiv (.inl (.inr k))).succ) ∗ Φ (ownEquiv (.inr 0)).succ) = _
  simp only [ownEquiv_send, ownEquiv_recv, ownEquiv_copy]

omit [FloatOps F] in
/-- A family over all 64 cell indices: the barrier member, and the rest by role. -/
theorem cells_split (Φ : Fin 64 → sProp 𝕄) :
    bigSep Finset.univ Φ
      = iprop(Φ 0 ∗ ((bigSep Finset.univ fun k : Fin 31 => Φ (jS k)) ∗ bigSep Finset.univ fun k : Fin 31 => Φ (jR k)) ∗ Φ 63) := by
  rw [bigSep_univ_at Φ (0 : Fin 64), own_split]

/-! ## The send waits: the credits the transfers left, with the positions -/

omit [FloatOps F] in
theorem mk_sendWaitRes (c : Dev nD) :
    iprop(bigSepL all31.reverse (credS (F := F) c) ∗ bigSepL all31 (sendPos (F := F) c)) ⊢ bigSepL all31 (sendWaitRes (F := F) c) := by
  rw [bigSepL_reverse_all31]
  exact (bigSepL_sep all31 (credS (F := F) c) (sendPos (F := F) c)).2

/-! ## The transfers: tokens, a read share of the source row, and the row the barrier brought -/

theorem mk_sendRes (c : Dev nD) :
    iprop(bigSepL all31 (sendToks (F := F) c) ∗ srcPts c fullShare (part (xs m) c) ∗ bigSep Finset.univ (fun d : Fin 31 => barPay (F := F) c d))
      ⊢ iprop(srcPts c (shareDrop fullShare 31) (part (xs m) c) ∗ bigSepL all31 (sendRes m c)) := by
  have hsrc : (srcPts c fullShare (part (xs m) c) : sProp 𝕄)
      ⊢ iprop(srcPts c (shareDrop fullShare 31) (part (xs m) c)
          ∗ bigSep Finset.univ fun k : Fin 31 => srcPts c (shareTok fullShare 31 k) (part (xs m) c)) :=
    pointsTo_toks_split fullShare 31
  have hbar (k : Fin 31) : barPay (F := F) c (rev k)
      = iprop((∃ f, rowPts (F := F) (dst c k) k f) ∗ reached ER (recvCell (dst c k) k) 0) :=
    congrArg (fun j : Fin 31 => (iprop((∃ f, rowPts (F := F) (dst c j) j f) ∗ reached ER (recvCell (dst c j) j) 0) : sProp 𝕄)) (rev_rev k)
  have hk (k : Fin 31) : iprop(sendToks (F := F) c k ∗ srcPts c (shareTok fullShare 31 k) (part (xs m) c) ∗ barPay (F := F) c (rev k))
      ⊢ sendRes m c k := by
    rw [hbar]; unfold sendToks sendRes
    iintro ⟨⟨H1, H2⟩, H3, H4, -⟩
    isplitl [H1]; · iexact H1
    isplitl [H2]; · iexact H2
    isplitl [H3]; · iexact H3
    iexact H4
  have hall : iprop((bigSep Finset.univ (sendToks (F := F) c))
        ∗ (bigSep Finset.univ fun k : Fin 31 => srcPts c (shareTok fullShare 31 k) (part (xs m) c))
        ∗ bigSep Finset.univ fun k : Fin 31 => barPay (F := F) c (rev k))
      ⊢ (bigSep Finset.univ (sendRes m c) : sProp 𝕄) := by
    rw [← bigSep_sep', ← bigSep_sep']
    exact bigSep_mono fun k _ => hk k
  rw [← univ_eq_all31, ← univ_eq_all31, bigSep_rev (fun d : Fin 31 => barPay (F := F) c d)]
  iintro ⟨Htok, Hsrc, Hbar⟩
  ihave Hs := hsrc $$ Hsrc
  icases Hs with ⟨Hdrop, Hsh⟩
  isplitl [Hdrop]; · iexact Hdrop
  iapply hall
  isplitl [Htok]; · iexact Htok
  isplitl [Hsh]; · iexact Hsh
  iexact Hbar

/-! ## The exit: the landing buffer joined, the source row whole again, the own cells at zero -/

theorem body_close (c : Dev nD) :
    iprop(bigSepL all31.reverse (recvGot m c) ∗ bigSepL all31.reverse (sendGot m c) ∗ srcPts c (shareDrop fullShare 31) (part (xs m) c) ∗ semVal (copyCell c) 0)
      ⊢ iprop((((c : Thread nD τ).loc cc0_scratch2) ↦{fullShare} recvd (xs m) c) ∗ srcPts c fullShare (part (xs m) c)
          ∗ bigSep (Finset.univ.erase (0 : Fin 64)) fun j => semVal (kcell (c, j)) 0) := by
  have hjoin : iprop(srcPts c (shareDrop fullShare 31) (part (xs m) c)
        ∗ bigSep Finset.univ fun k : Fin 31 => srcPts c (shareTok fullShare 31 k) (part (xs m) c))
      ⊢ (srcPts c fullShare (part (xs m) c) : sProp 𝕄) :=
    pointsTo_toks_join fullShare 31
  have hrows : (bigSep Finset.univ fun k : Fin 31 => recvPay m c k : sProp 𝕄)
      ⊢ (((c : Thread nD τ).loc cc0_scratch2) ↦{fullShare} recvd (xs m) c) :=
    rows_join_recvd (xs m) c
  have eR : (bigSep Finset.univ (recvGot m c) : sProp 𝕄)
      = iprop((bigSep Finset.univ fun k : Fin 31 => recvPay m c k) ∗ bigSep Finset.univ fun k : Fin 31 => semVal (recvCell c k) 0) :=
    bigSep_sep' Finset.univ (fun k : Fin 31 => recvPay m c k) (fun k => semVal (recvCell c k) 0)
  have eS : (bigSep Finset.univ (sendGot m c) : sProp 𝕄)
      = iprop((bigSep Finset.univ fun k : Fin 31 => srcPts c (shareTok fullShare 31 k) (part (xs m) c))
          ∗ bigSep Finset.univ fun k : Fin 31 => semVal (sendCell c k) 0) :=
    bigSep_sep' Finset.univ (fun k : Fin 31 => srcPts c (shareTok fullShare 31 k) (part (xs m) c)) (fun k => semVal (sendCell c k) 0)
  have eZ : (bigSep (Finset.univ.erase (0 : Fin 64)) fun j => (semVal (kcell (c, j)) 0 : sProp 𝕄))
      = iprop(((bigSep Finset.univ fun k : Fin 31 => semVal (sendCell c k) 0) ∗ bigSep Finset.univ fun k : Fin 31 => semVal (recvCell c k) 0)
          ∗ semVal (copyCell c) 0) := by
    rw [own_split (fun j => (semVal (kcell (c, j)) 0 : sProp 𝕄))]
    simp only [kcell_send, kcell_recv, kcell_copy]
  rw [bigSepL_reverse_all31, bigSepL_reverse_all31, ← univ_eq_all31, ← univ_eq_all31, eR, eS, eZ]
  iintro ⟨⟨Hrow, HzR⟩, ⟨Hsh, HzS⟩, Hdrop, HzC⟩
  isplitl [Hrow]; · iapply hrows; iexact Hrow
  isplitl [Hdrop Hsh]
  · iapply hjoin
    isplitl [Hdrop]; · iexact Hdrop
    iexact Hsh
  · isplitl [HzS HzR]
    · isplitl [HzS]; · iexact HzS
      iexact HzR
    · iexact HzC

/-! ## The entry: the ghost state dealt out offset by offset -/

theorem body_open (c : Dev nD) :
    iprop(ghost m K c ∗ cred (tallyAt (barCell c) () 31) ∗ (bigSep Finset.univ fun k : Fin 31 => cred (tallyAt (recvCell c k) () N))
        ∗ levAts L lv ∗ argPts m c ∗ scratch (F := F) c) ⊢ bodyOpen m K c := by
  have ePos : (positions (F := F) c : sProp 𝕄)
      = iprop(atPos ER (barCell c) 0 ∅ 0 ∗ ((bigSep Finset.univ fun k : Fin 31 => atPos ER (sendCell c k) 0 ∅ 0)
          ∗ bigSep Finset.univ fun k : Fin 31 => atPos ER (recvCell c k) 0 ∅ 0) ∗ atPos ER (copyCell c) 0 ∅ 0) := by
    unfold positions
    rw [cells_split (fun j => (atPos ER (kcell (c, j)) 0 ∅ 0 : sProp 𝕄))]
    simp only [kcell_bar, kcell_send, kcell_recv, kcell_copy]
  have eTok : (bigSep Finset.univ fun k : Fin 31 =>
        (iprop(dutyTok ER (barCell (dst c k)) 0 k ∗ dutyTok ER (recvCell (dst c k) k) 0 0 ∗ dutyTok ER (sendCell c k) 0 0) : sProp 𝕄))
      = iprop((bigSep Finset.univ fun k : Fin 31 => dutyTok ER (barCell (dst c k)) 0 k)
          ∗ (bigSep Finset.univ fun k : Fin 31 => dutyTok ER (recvCell (dst c k) k) 0 0)
          ∗ bigSep Finset.univ fun k : Fin 31 => dutyTok ER (sendCell c k) 0 0) := by
    rw [bigSep_sep', bigSep_sep']
  have hrow : iprop(∃ f : Buf (Elt F) ((c : Thread nD τ).loc cc0_scratch2), ((c : Thread nD τ).loc cc0_scratch2) ↦{fullShare} f)
      ⊢ (bigSep Finset.univ fun k : Fin 31 => iprop(∃ f, rowPts (F := F) c (rev k) f) : sProp 𝕄) :=
    (rows_split c).trans (Entails.of_eq (bigSep_rev (fun k : Fin 31 => (iprop(∃ f, rowPts (F := F) c k f) : sProp 𝕄))))
  have eSig : (bigSep Finset.univ (sigRes (F := F) c) : sProp 𝕄)
      = iprop((bigSep Finset.univ fun k : Fin 31 => dutyTok ER (barCell (dst c k)) 0 k)
          ∗ bigSep Finset.univ fun k : Fin 31 => iprop(∃ f, rowPts (F := F) c (rev k) f)) :=
    bigSep_sep' Finset.univ (fun k : Fin 31 => dutyTok ER (barCell (dst c k)) 0 k) (fun k => iprop(∃ f, rowPts (F := F) c (rev k) f))
  have eSend : (bigSep Finset.univ (sendToks (F := F) c) : sProp 𝕄)
      = iprop((bigSep Finset.univ fun k : Fin 31 => dutyTok ER (sendCell c k) 0 0)
          ∗ bigSep Finset.univ fun k : Fin 31 => dutyTok ER (recvCell (dst c k) k) 0 0) :=
    bigSep_sep' Finset.univ (fun k : Fin 31 => dutyTok ER (sendCell c k) 0 0) (fun k => dutyTok ER (recvCell (dst c k) k) 0 0)
  have eRecv : (bigSep Finset.univ (recvRes (F := F) c) : sProp 𝕄)
      = iprop((bigSep Finset.univ fun k : Fin 31 => cred (tallyAt (recvCell c k) () N))
          ∗ bigSep Finset.univ fun k : Fin 31 => atPos ER (recvCell c k) 0 ∅ 0) :=
    bigSep_sep' Finset.univ (fun k : Fin 31 => cred (tallyAt (recvCell c k) () N)) (fun k => atPos ER (recvCell c k) 0 ∅ 0)
  have eSP : (bigSep Finset.univ (sendPos (F := F) c) : sProp 𝕄) = bigSep Finset.univ fun k : Fin 31 => atPos ER (sendCell c k) 0 ∅ 0 := rfl
  unfold ghost payToks scratch bodyOpen
  rw [ePos, eTok, ← univ_eq_all31, ← univ_eq_all31, ← univ_eq_all31, ← univ_eq_all31, eSig, eSend, eRecv, eSP]
  iintro ⟨⟨HR, ⟨HaB, ⟨HaS, HaR⟩, HaC⟩, ⟨HtB, HtR, HtS⟩, HtC⟩, HcB, HcR, Hlev, Harg, Hs0, Hs1, Hs2⟩
  ihave Hrows := hrow $$ Hs2
  isplitl [HR]; · iexact HR
  isplitl [Hlev]; · iexact Hlev
  isplitl [Harg]; · iexact Harg
  isplitl [Hs0]; · iexact Hs0
  isplitl [Hs1]; · iexact Hs1
  isplitl [HaB HcB]
  · isplitl [HaB]; · iexact HaB
    iexact HcB
  isplitl [HaC HtC]
  · isplitl [HaC]; · iexact HaC
    iexact HtC
  isplitl [HtB Hrows]
  · isplitl [HtB]; · iexact HtB
    iexact Hrows
  isplitl [HtS HtR]
  · isplitl [HtS]; · iexact HtS
    iexact HtR
  isplitl [HcR HaR]
  · isplitl [HcR]; · iexact HcR
    iexact HaR
  iexact HaS

/-- info: 'Cert.Kernel.Mean.body_open' depends on axioms: [propext, Classical.choice, Quot.sound] -/
#guard_msgs in #print axioms body_open

/-- info: 'Cert.Kernel.Mean.body_close' depends on axioms: [propext, Classical.choice, Quot.sound] -/
#guard_msgs in #print axioms body_close

/-- info: 'Cert.Kernel.Mean.mk_sendRes' depends on axioms: [propext, Classical.choice, Quot.sound] -/
#guard_msgs in #print axioms mk_sendRes

/-- info: 'Cert.Kernel.Mean.mk_sendWaitRes' depends on axioms: [propext, Classical.choice, Quot.sound] -/
#guard_msgs in #print axioms mk_sendWaitRes

end Cert.Kernel.Mean

end
-- ==== Proof.K.RingDevs.lean ====
/-
  The closed forms of the device-id chains 1 to 62 of the printed program.

  Each chain computes, in 32-bit words, `((c mod 32) + off) mod 32` with the sign correction of a floored
  remainder, for one offset `off` in 1, …, 31: chains 1 to 31 (the barrier signals) take off = 1, …, 31 in
  order, and chains 32 to 62 (the remote copies) take off = 1, …, 31 in order again.  So chain N names the
  device `dst c k` with `k + 1 = off`.  Each equation is checked by evaluating both sides at the 32 devices.
-/
import proofs.«900937_g7700000000000938_dist_mean_ax0_shard0_i_m1024_n512_v7x_i32_f32_1_alg».proof.Proof.K.Spec

noncomputable section

namespace Cert.Kernel.Mean

open Cert.Kernel Idealize.ShloMosaic

theorem dev1_val : ∀ c : Dev nD, k0_dev1 c = (dst c ⟨0, by decide⟩).val := by decide +kernel
theorem dev1_eq (c : Dev nD) (h : k0_dev1 c < nD) : (⟨k0_dev1 c, h⟩ : Dev nD) = dst c ⟨0, by decide⟩ :=
  Fin.ext (dev1_val c)

theorem dev2_val : ∀ c : Dev nD, k0_dev2 c = (dst c ⟨1, by decide⟩).val := by decide +kernel
theorem dev2_eq (c : Dev nD) (h : k0_dev2 c < nD) : (⟨k0_dev2 c, h⟩ : Dev nD) = dst c ⟨1, by decide⟩ :=
  Fin.ext (dev2_val c)

theorem dev3_val : ∀ c : Dev nD, k0_dev3 c = (dst c ⟨2, by decide⟩).val := by decide +kernel
theorem dev3_eq (c : Dev nD) (h : k0_dev3 c < nD) : (⟨k0_dev3 c, h⟩ : Dev nD) = dst c ⟨2, by decide⟩ :=
  Fin.ext (dev3_val c)

theorem dev4_val : ∀ c : Dev nD, k0_dev4 c = (dst c ⟨3, by decide⟩).val := by decide +kernel
theorem dev4_eq (c : Dev nD) (h : k0_dev4 c < nD) : (⟨k0_dev4 c, h⟩ : Dev nD) = dst c ⟨3, by decide⟩ :=
  Fin.ext (dev4_val c)

theorem dev5_val : ∀ c : Dev nD, k0_dev5 c = (dst c ⟨4, by decide⟩).val := by decide +kernel
theorem dev5_eq (c : Dev nD) (h : k0_dev5 c < nD) : (⟨k0_dev5 c, h⟩ : Dev nD) = dst c ⟨4, by decide⟩ :=
  Fin.ext (dev5_val c)

theorem dev6_val : ∀ c : Dev nD, k0_dev6 c = (dst c ⟨5, by decide⟩).val := by decide +kernel
theorem dev6_eq (c : Dev nD) (h : k0_dev6 c < nD) : (⟨k0_dev6 c, h⟩ : Dev nD) = dst c ⟨5, by decide⟩ :=
  Fin.ext (dev6_val c)

theorem dev7_val : ∀ c : Dev nD, k0_dev7 c = (dst c ⟨6, by decide⟩).val := by decide +kernel
theorem dev7_eq (c : Dev nD) (h : k0_dev7 c < nD) : (⟨k0_dev7 c, h⟩ : Dev nD) = dst c ⟨6, by decide⟩ :=
  Fin.ext (dev7_val c)

theorem dev8_val : ∀ c : Dev nD, k0_dev8 c = (dst c ⟨7, by decide⟩).val := by decide +kernel
theorem dev8_eq (c : Dev nD) (h : k0_dev8 c < nD) : (⟨k0_dev8 c, h⟩ : Dev nD) = dst c ⟨7, by decide⟩ :=
  Fin.ext (dev8_val c)

theorem dev9_val : ∀ c : Dev nD, k0_dev9 c = (dst c ⟨8, by decide⟩).val := by decide +kernel
theorem dev9_eq (c : Dev nD) (h : k0_dev9 c < nD) : (⟨k0_dev9 c, h⟩ : Dev nD) = dst c ⟨8, by decide⟩ :=
  Fin.ext (dev9_val c)

theorem dev10_val : ∀ c : Dev nD, k0_dev10 c = (dst c ⟨9, by decide⟩).val := by decide +kernel
theorem dev10_eq (c : Dev nD) (h : k0_dev10 c < nD) : (⟨k0_dev10 c, h⟩ : Dev nD) = dst c ⟨9, by decide⟩ :=
  Fin.ext (dev10_val c)

theorem dev11_val : ∀ c : Dev nD, k0_dev11 c = (dst c ⟨10, by decide⟩).val := by decide +kernel
theorem dev11_eq (c : Dev nD) (h : k0_dev11 c < nD) : (⟨k0_dev11 c, h⟩ : Dev nD) = dst c ⟨10, by decide⟩ :=
  Fin.ext (dev11_val c)

theorem dev12_val : ∀ c : Dev nD, k0_dev12 c = (dst c ⟨11, by decide⟩).val := by decide +kernel
theorem dev12_eq (c : Dev nD) (h : k0_dev12 c < nD) : (⟨k0_dev12 c, h⟩ : Dev nD) = dst c ⟨11, by decide⟩ :=
  Fin.ext (dev12_val c)

theorem dev13_val : ∀ c : Dev nD, k0_dev13 c = (dst c ⟨12, by decide⟩).val := by decide +kernel
theorem dev13_eq (c : Dev nD) (h : k0_dev13 c < nD) : (⟨k0_dev13 c, h⟩ : Dev nD) = dst c ⟨12, by decide⟩ :=
  Fin.ext (dev13_val c)

theorem dev14_val : ∀ c : Dev nD, k0_dev14 c = (dst c ⟨13, by decide⟩).val := by decide +kernel
theorem dev14_eq (c : Dev nD) (h : k0_dev14 c < nD) : (⟨k0_dev14 c, h⟩ : Dev nD) = dst c ⟨13, by decide⟩ :=
  Fin.ext (dev14_val c)

theorem dev15_val : ∀ c : Dev nD, k0_dev15 c = (dst c ⟨14, by decide⟩).val := by decide +kernel
theorem dev15_eq (c : Dev nD) (h : k0_dev15 c < nD) : (⟨k0_dev15 c, h⟩ : Dev nD) = dst c ⟨14, by decide⟩ :=
  Fin.ext (dev15_val c)

theorem dev16_val : ∀ c : Dev nD, k0_dev16 c = (dst c ⟨15, by decide⟩).val := by decide +kernel
theorem dev16_eq (c : Dev nD) (h : k0_dev16 c < nD) : (⟨k0_dev16 c, h⟩ : Dev nD) = dst c ⟨15, by decide⟩ :=
  Fin.ext (dev16_val c)

theorem dev17_val : ∀ c : Dev nD, k0_dev17 c = (dst c ⟨16, by decide⟩).val := by decide +kernel
theorem dev17_eq (c : Dev nD) (h : k0_dev17 c < nD) : (⟨k0_dev17 c, h⟩ : Dev nD) = dst c ⟨16, by decide⟩ :=
  Fin.ext (dev17_val c)

theorem dev18_val : ∀ c : Dev nD, k0_dev18 c = (dst c ⟨17, by decide⟩).val := by decide +kernel
theorem dev18_eq (c : Dev nD) (h : k0_dev18 c < nD) : (⟨k0_dev18 c, h⟩ : Dev nD) = dst c ⟨17, by decide⟩ :=
  Fin.ext (dev18_val c)

theorem dev19_val : ∀ c : Dev nD, k0_dev19 c = (dst c ⟨18, by decide⟩).val := by decide +kernel
theorem dev19_eq (c : Dev nD) (h : k0_dev19 c < nD) : (⟨k0_dev19 c, h⟩ : Dev nD) = dst c ⟨18, by decide⟩ :=
  Fin.ext (dev19_val c)

theorem dev20_val : ∀ c : Dev nD, k0_dev20 c = (dst c ⟨19, by decide⟩).val := by decide +kernel
theorem dev20_eq (c : Dev nD) (h : k0_dev20 c < nD) : (⟨k0_dev20 c, h⟩ : Dev nD) = dst c ⟨19, by decide⟩ :=
  Fin.ext (dev20_val c)

theorem dev21_val : ∀ c : Dev nD, k0_dev21 c = (dst c ⟨20, by decide⟩).val := by decide +kernel
theorem dev21_eq (c : Dev nD) (h : k0_dev21 c < nD) : (⟨k0_dev21 c, h⟩ : Dev nD) = dst c ⟨20, by decide⟩ :=
  Fin.ext (dev21_val c)

theorem dev22_val : ∀ c : Dev nD, k0_dev22 c = (dst c ⟨21, by decide⟩).val := by decide +kernel
theorem dev22_eq (c : Dev nD) (h : k0_dev22 c < nD) : (⟨k0_dev22 c, h⟩ : Dev nD) = dst c ⟨21, by decide⟩ :=
  Fin.ext (dev22_val c)

theorem dev23_val : ∀ c : Dev nD, k0_dev23 c = (dst c ⟨22, by decide⟩).val := by decide +kernel
theorem dev23_eq (c : Dev nD) (h : k0_dev23 c < nD) : (⟨k0_dev23 c, h⟩ : Dev nD) = dst c ⟨22, by decide⟩ :=
  Fin.ext (dev23_val c)

theorem dev24_val : ∀ c : Dev nD, k0_dev24 c = (dst c ⟨23, by decide⟩).val := by decide +kernel
theorem dev24_eq (c : Dev nD) (h : k0_dev24 c < nD) : (⟨k0_dev24 c, h⟩ : Dev nD) = dst c ⟨23, by decide⟩ :=
  Fin.ext (dev24_val c)

theorem dev25_val : ∀ c : Dev nD, k0_dev25 c = (dst c ⟨24, by decide⟩).val := by decide +kernel
theorem dev25_eq (c : Dev nD) (h : k0_dev25 c < nD) : (⟨k0_dev25 c, h⟩ : Dev nD) = dst c ⟨24, by decide⟩ :=
  Fin.ext (dev25_val c)

theorem dev26_val : ∀ c : Dev nD, k0_dev26 c = (dst c ⟨25, by decide⟩).val := by decide +kernel
theorem dev26_eq (c : Dev nD) (h : k0_dev26 c < nD) : (⟨k0_dev26 c, h⟩ : Dev nD) = dst c ⟨25, by decide⟩ :=
  Fin.ext (dev26_val c)

theorem dev27_val : ∀ c : Dev nD, k0_dev27 c = (dst c ⟨26, by decide⟩).val := by decide +kernel
theorem dev27_eq (c : Dev nD) (h : k0_dev27 c < nD) : (⟨k0_dev27 c, h⟩ : Dev nD) = dst c ⟨26, by decide⟩ :=
  Fin.ext (dev27_val c)

theorem dev28_val : ∀ c : Dev nD, k0_dev28 c = (dst c ⟨27, by decide⟩).val := by decide +kernel
theorem dev28_eq (c : Dev nD) (h : k0_dev28 c < nD) : (⟨k0_dev28 c, h⟩ : Dev nD) = dst c ⟨27, by decide⟩ :=
  Fin.ext (dev28_val c)

theorem dev29_val : ∀ c : Dev nD, k0_dev29 c = (dst c ⟨28, by decide⟩).val := by decide +kernel
theorem dev29_eq (c : Dev nD) (h : k0_dev29 c < nD) : (⟨k0_dev29 c, h⟩ : Dev nD) = dst c ⟨28, by decide⟩ :=
  Fin.ext (dev29_val c)

theorem dev30_val : ∀ c : Dev nD, k0_dev30 c = (dst c ⟨29, by decide⟩).val := by decide +kernel
theorem dev30_eq (c : Dev nD) (h : k0_dev30 c < nD) : (⟨k0_dev30 c, h⟩ : Dev nD) = dst c ⟨29, by decide⟩ :=
  Fin.ext (dev30_val c)

theorem dev31_val : ∀ c : Dev nD, k0_dev31 c = (dst c ⟨30, by decide⟩).val := by decide +kernel
theorem dev31_eq (c : Dev nD) (h : k0_dev31 c < nD) : (⟨k0_dev31 c, h⟩ : Dev nD) = dst c ⟨30, by decide⟩ :=
  Fin.ext (dev31_val c)

theorem dev32_val : ∀ c : Dev nD, k0_dev32 c = (dst c ⟨0, by decide⟩).val := by decide +kernel
theorem dev32_eq (c : Dev nD) (h : k0_dev32 c < nD) : (⟨k0_dev32 c, h⟩ : Dev nD) = dst c ⟨0, by decide⟩ :=
  Fin.ext (dev32_val c)

theorem dev33_val : ∀ c : Dev nD, k0_dev33 c = (dst c ⟨1, by decide⟩).val := by decide +kernel
theorem dev33_eq (c : Dev nD) (h : k0_dev33 c < nD) : (⟨k0_dev33 c, h⟩ : Dev nD) = dst c ⟨1, by decide⟩ :=
  Fin.ext (dev33_val c)

theorem dev34_val : ∀ c : Dev nD, k0_dev34 c = (dst c ⟨2, by decide⟩).val := by decide +kernel
theorem dev34_eq (c : Dev nD) (h : k0_dev34 c < nD) : (⟨k0_dev34 c, h⟩ : Dev nD) = dst c ⟨2, by decide⟩ :=
  Fin.ext (dev34_val c)

theorem dev35_val : ∀ c : Dev nD, k0_dev35 c = (dst c ⟨3, by decide⟩).val := by decide +kernel
theorem dev35_eq (c : Dev nD) (h : k0_dev35 c < nD) : (⟨k0_dev35 c, h⟩ : Dev nD) = dst c ⟨3, by decide⟩ :=
  Fin.ext (dev35_val c)

theorem dev36_val : ∀ c : Dev nD, k0_dev36 c = (dst c ⟨4, by decide⟩).val := by decide +kernel
theorem dev36_eq (c : Dev nD) (h : k0_dev36 c < nD) : (⟨k0_dev36 c, h⟩ : Dev nD) = dst c ⟨4, by decide⟩ :=
  Fin.ext (dev36_val c)

theorem dev37_val : ∀ c : Dev nD, k0_dev37 c = (dst c ⟨5, by decide⟩).val := by decide +kernel
theorem dev37_eq (c : Dev nD) (h : k0_dev37 c < nD) : (⟨k0_dev37 c, h⟩ : Dev nD) = dst c ⟨5, by decide⟩ :=
  Fin.ext (dev37_val c)

theorem dev38_val : ∀ c : Dev nD, k0_dev38 c = (dst c ⟨6, by decide⟩).val := by decide +kernel
theorem dev38_eq (c : Dev nD) (h : k0_dev38 c < nD) : (⟨k0_dev38 c, h⟩ : Dev nD) = dst c ⟨6, by decide⟩ :=
  Fin.ext (dev38_val c)

theorem dev39_val : ∀ c : Dev nD, k0_dev39 c = (dst c ⟨7, by decide⟩).val := by decide +kernel
theorem dev39_eq (c : Dev nD) (h : k0_dev39 c < nD) : (⟨k0_dev39 c, h⟩ : Dev nD) = dst c ⟨7, by decide⟩ :=
  Fin.ext (dev39_val c)

theorem dev40_val : ∀ c : Dev nD, k0_dev40 c = (dst c ⟨8, by decide⟩).val := by decide +kernel
theorem dev40_eq (c : Dev nD) (h : k0_dev40 c < nD) : (⟨k0_dev40 c, h⟩ : Dev nD) = dst c ⟨8, by decide⟩ :=
  Fin.ext (dev40_val c)

theorem dev41_val : ∀ c : Dev nD, k0_dev41 c = (dst c ⟨9, by decide⟩).val := by decide +kernel
theorem dev41_eq (c : Dev nD) (h : k0_dev41 c < nD) : (⟨k0_dev41 c, h⟩ : Dev nD) = dst c ⟨9, by decide⟩ :=
  Fin.ext (dev41_val c)

theorem dev42_val : ∀ c : Dev nD, k0_dev42 c = (dst c ⟨10, by decide⟩).val := by decide +kernel
theorem dev42_eq (c : Dev nD) (h : k0_dev42 c < nD) : (⟨k0_dev42 c, h⟩ : Dev nD) = dst c ⟨10, by decide⟩ :=
  Fin.ext (dev42_val c)

theorem dev43_val : ∀ c : Dev nD, k0_dev43 c = (dst c ⟨11, by decide⟩).val := by decide +kernel
theorem dev43_eq (c : Dev nD) (h : k0_dev43 c < nD) : (⟨k0_dev43 c, h⟩ : Dev nD) = dst c ⟨11, by decide⟩ :=
  Fin.ext (dev43_val c)

theorem dev44_val : ∀ c : Dev nD, k0_dev44 c = (dst c ⟨12, by decide⟩).val := by decide +kernel
theorem dev44_eq (c : Dev nD) (h : k0_dev44 c < nD) : (⟨k0_dev44 c, h⟩ : Dev nD) = dst c ⟨12, by decide⟩ :=
  Fin.ext (dev44_val c)

theorem dev45_val : ∀ c : Dev nD, k0_dev45 c = (dst c ⟨13, by decide⟩).val := by decide +kernel
theorem dev45_eq (c : Dev nD) (h : k0_dev45 c < nD) : (⟨k0_dev45 c, h⟩ : Dev nD) = dst c ⟨13, by decide⟩ :=
  Fin.ext (dev45_val c)

theorem dev46_val : ∀ c : Dev nD, k0_dev46 c = (dst c ⟨14, by decide⟩).val := by decide +kernel
theorem dev46_eq (c : Dev nD) (h : k0_dev46 c < nD) : (⟨k0_dev46 c, h⟩ : Dev nD) = dst c ⟨14, by decide⟩ :=
  Fin.ext (dev46_val c)

theorem dev47_val : ∀ c : Dev nD, k0_dev47 c = (dst c ⟨15, by decide⟩).val := by decide +kernel
theorem dev47_eq (c : Dev nD) (h : k0_dev47 c < nD) : (⟨k0_dev47 c, h⟩ : Dev nD) = dst c ⟨15, by decide⟩ :=
  Fin.ext (dev47_val c)

theorem dev48_val : ∀ c : Dev nD, k0_dev48 c = (dst c ⟨16, by decide⟩).val := by decide +kernel
theorem dev48_eq (c : Dev nD) (h : k0_dev48 c < nD) : (⟨k0_dev48 c, h⟩ : Dev nD) = dst c ⟨16, by decide⟩ :=
  Fin.ext (dev48_val c)

theorem dev49_val : ∀ c : Dev nD, k0_dev49 c = (dst c ⟨17, by decide⟩).val := by decide +kernel
theorem dev49_eq (c : Dev nD) (h : k0_dev49 c < nD) : (⟨k0_dev49 c, h⟩ : Dev nD) = dst c ⟨17, by decide⟩ :=
  Fin.ext (dev49_val c)

theorem dev50_val : ∀ c : Dev nD, k0_dev50 c = (dst c ⟨18, by decide⟩).val := by decide +kernel
theorem dev50_eq (c : Dev nD) (h : k0_dev50 c < nD) : (⟨k0_dev50 c, h⟩ : Dev nD) = dst c ⟨18, by decide⟩ :=
  Fin.ext (dev50_val c)

theorem dev51_val : ∀ c : Dev nD, k0_dev51 c = (dst c ⟨19, by decide⟩).val := by decide +kernel
theorem dev51_eq (c : Dev nD) (h : k0_dev51 c < nD) : (⟨k0_dev51 c, h⟩ : Dev nD) = dst c ⟨19, by decide⟩ :=
  Fin.ext (dev51_val c)

theorem dev52_val : ∀ c : Dev nD, k0_dev52 c = (dst c ⟨20, by decide⟩).val := by decide +kernel
theorem dev52_eq (c : Dev nD) (h : k0_dev52 c < nD) : (⟨k0_dev52 c, h⟩ : Dev nD) = dst c ⟨20, by decide⟩ :=
  Fin.ext (dev52_val c)

theorem dev53_val : ∀ c : Dev nD, k0_dev53 c = (dst c ⟨21, by decide⟩).val := by decide +kernel
theorem dev53_eq (c : Dev nD) (h : k0_dev53 c < nD) : (⟨k0_dev53 c, h⟩ : Dev nD) = dst c ⟨21, by decide⟩ :=
  Fin.ext (dev53_val c)

theorem dev54_val : ∀ c : Dev nD, k0_dev54 c = (dst c ⟨22, by decide⟩).val := by decide +kernel
theorem dev54_eq (c : Dev nD) (h : k0_dev54 c < nD) : (⟨k0_dev54 c, h⟩ : Dev nD) = dst c ⟨22, by decide⟩ :=
  Fin.ext (dev54_val c)

theorem dev55_val : ∀ c : Dev nD, k0_dev55 c = (dst c ⟨23, by decide⟩).val := by decide +kernel
theorem dev55_eq (c : Dev nD) (h : k0_dev55 c < nD) : (⟨k0_dev55 c, h⟩ : Dev nD) = dst c ⟨23, by decide⟩ :=
  Fin.ext (dev55_val c)

theorem dev56_val : ∀ c : Dev nD, k0_dev56 c = (dst c ⟨24, by decide⟩).val := by decide +kernel
theorem dev56_eq (c : Dev nD) (h : k0_dev56 c < nD) : (⟨k0_dev56 c, h⟩ : Dev nD) = dst c ⟨24, by decide⟩ :=
  Fin.ext (dev56_val c)

theorem dev57_val : ∀ c : Dev nD, k0_dev57 c = (dst c ⟨25, by decide⟩).val := by decide +kernel
theorem dev57_eq (c : Dev nD) (h : k0_dev57 c < nD) : (⟨k0_dev57 c, h⟩ : Dev nD) = dst c ⟨25, by decide⟩ :=
  Fin.ext (dev57_val c)

theorem dev58_val : ∀ c : Dev nD, k0_dev58 c = (dst c ⟨26, by decide⟩).val := by decide +kernel
theorem dev58_eq (c : Dev nD) (h : k0_dev58 c < nD) : (⟨k0_dev58 c, h⟩ : Dev nD) = dst c ⟨26, by decide⟩ :=
  Fin.ext (dev58_val c)

theorem dev59_val : ∀ c : Dev nD, k0_dev59 c = (dst c ⟨27, by decide⟩).val := by decide +kernel
theorem dev59_eq (c : Dev nD) (h : k0_dev59 c < nD) : (⟨k0_dev59 c, h⟩ : Dev nD) = dst c ⟨27, by decide⟩ :=
  Fin.ext (dev59_val c)

theorem dev60_val : ∀ c : Dev nD, k0_dev60 c = (dst c ⟨28, by decide⟩).val := by decide +kernel
theorem dev60_eq (c : Dev nD) (h : k0_dev60 c < nD) : (⟨k0_dev60 c, h⟩ : Dev nD) = dst c ⟨28, by decide⟩ :=
  Fin.ext (dev60_val c)

theorem dev61_val : ∀ c : Dev nD, k0_dev61 c = (dst c ⟨29, by decide⟩).val := by decide +kernel
theorem dev61_eq (c : Dev nD) (h : k0_dev61 c < nD) : (⟨k0_dev61 c, h⟩ : Dev nD) = dst c ⟨29, by decide⟩ :=
  Fin.ext (dev61_val c)

theorem dev62_val : ∀ c : Dev nD, k0_dev62 c = (dst c ⟨30, by decide⟩).val := by decide +kernel
theorem dev62_eq (c : Dev nD) (h : k0_dev62 c < nD) : (⟨k0_dev62 c, h⟩ : Dev nD) = dst c ⟨30, by decide⟩ :=
  Fin.ext (dev62_val c)

end Cert.Kernel.Mean

end
-- ==== Proof.K.Body.lean ====
/-
  One device's body, stepped from its entry invariant to its exit invariant: the 31 signals (each hands a row of
  the landing buffer to the device it addresses), the local copy of the block and its wait, the partial (the block's
  column sums times 2^-15) stored in the source row, the wait for all 31 units on the barrier cell (which brings the
  31 rows this device may write), the 31 transfers of the source row (each from its own share of it), the 31 waits on
  the receive cells (each brings a landed row), the 31 waits on the send cells (each brings a share back), and the
  result: the own partial plus the column sums of the landed rows.
-/
import proofs.«900937_g7700000000000938_dist_mean_ax0_shard0_i_m1024_n512_v7x_i32_f32_1_alg».proof.Proof.K.Regroup
import proofs.«900937_g7700000000000938_dist_mean_ax0_shard0_i_m1024_n512_v7x_i32_f32_1_alg».proof.Proof.K.RingDevs
import proofs.«900937_g7700000000000938_dist_mean_ax0_shard0_i_m1024_n512_v7x_i32_f32_1_alg».proof.Proof.Gen.Kernel.Points

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Transfers

variable (m : (ℓ : Loc nD τ sig) → Buf (Elt F) ℓ) (ρ : Dev nD → PrngReg)
variable (K : Dev nD × Fin 64 → ℕ)

abbrev xvM : Memref sig .tc .vmem S1024x512 .f32 := Memref.whole cc0_scratch0
abbrev outM : Memref sig .tc .vmem S1x512 .f32 := Memref.whole cc0_stg0_0

set_option hygiene false in
/-- One signal: the rule at the head of the offsets still to be signalled. -/
macro "sig_step" : tactic => `(tactic|
  (iapply (step_signal m K c _ _ _ _) $$ [HO Hsig]
   · (isplitr; · iexact HR); (isplitl [HO]; · iexact HO); iexact Hsig
   iintro ⟨HO, Hsig⟩))

set_option hygiene false in
/-- One transfer, at offset `k + 1`, with the closed form of the device it addresses. -/
macro "send_step" k:term:max h:term:max : tactic => `(tactic|
  (iapply (step_send m K c $k _ ($h c _) _ _ _ _) $$ [HO Hsnd Hacc]
   · (isplitr; · iexact HR); (isplitl [HO]; · iexact HO); (isplitl [Hsnd]; · iexact Hsnd); iexact Hacc
   iintro ⟨HO, Hsnd, Hacc⟩))

set_option hygiene false in
/-- One wait on receive cell `k`. -/
macro "recv_step" k:term:max : tactic => `(tactic|
  (iapply (step_recv_wait m K c $k _ _ _) $$ [HO Hrcv HaccR]
   · (isplitr; · iexact HR); (isplitl [HO]; · iexact HO); (isplitl [Hrcv]; · iexact Hrcv); iexact HaccR
   iintro ⟨HO, Hrcv, HaccR⟩))

set_option hygiene false in
/-- One wait on send cell `k`. -/
macro "sendw_step" k:term:max : tactic => `(tactic|
  (iapply (step_send_wait m K c $k _ _ _) $$ [HO Hsw HaccS]
   · (isplitr; · iexact HR); (isplitl [HO]; · iexact HO); (isplitl [Hsw]; · iexact Hsw); iexact HaccS
   iintro ⟨HO, Hsw, HaccS⟩))

omit [FloatOps F] in
/-- The source row's assertion is the points-to of its whole buffer. -/
theorem srcPts_eq (c : Dev nD) (q : PosShare TreeShare) (f : (cc0_scratch1 : Ref sig .tc).ty.Contents (Elt F)) :
    srcPts c q f = (((c : Thread nD τ).loc cc0_scratch1) ↦{q} f : sProp 𝕄) := by
  unfold srcPts; simp only [Memref.view_whole, View.set_whole]

omit [FloatOps F] in
/-- Once every signal and transfer is made, nothing is owed. -/
theorem owes_done (c : Dev nD) (W : Waits sig Unit) :
    (owes (c : Thread nD τ) (owedR c [] + owedB c []) W : sProp 𝕄) ⊢ owes (c : Thread nD τ) 0 W :=
  Entails.of_eq (congrArg (fun O => (owes (c : Thread nD τ) O W : sProp 𝕄)) (add_zero (0 : CellTallies nD τ sig Unit)))

/-- What the body ends with, handed to its continuation. -/
def bodyEnd (c : Dev nD) : sProp 𝕄 :=
  iprop((∃ W, owes (c : Thread nD τ) 0 W) ∗ argPts m c
    ∗ (bigSep (Finset.univ.erase (0 : Fin 64)) fun j => semVal (kcell (c, j)) 0)
    ∗ scratch (F := F) c
    ∗ (((c : Thread nD τ).loc cc0_stg0_0) ↦{fullShare} (outAt (xs m) c : Buf (Elt F) ((c : Thread nD τ).loc cc0_stg0_0))))

set_option maxHeartbeats 8000000 in
set_option maxRecDepth 65536 in
theorem sound_body (c : Dev nD) (Kt : PUnit → sProp 𝕄) (W : Waits sig Unit) (g1 : Buf (Elt F) ((c : Thread nD τ).loc cc0_stg0_0)) :
    iprop(bodyOpen m K c ∗ owes (c : Thread nD τ) (O₀ c) W ∗ (((c : Thread nD τ).loc cc0_stg0_0) ↦{fullShare} g1) ∗ (bodyEnd m c -∗ Kt ⟨⟩))
      ⊢ wp frame (wpE (defs₀ (F := F)) 𝒱₀ (c : Thread nD τ) none) Set.univ
          (cc0_body (Memref.whole main_arg0) (Memref.isWhole_whole _) (Memref.whole cc0_stg0_0) (hstage0_0 0) (Memref.whole cc0_scratch0) (Memref.isWhole_whole _)
            (Memref.whole cc0_scratch1) (Memref.isWhole_whole _) (Memref.whole cc0_scratch2) (Memref.isWhole_whole _) cc0_scratch3 cc0_scratch4 cc0_scratch5) Kt := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c, dev46_eq c, dev47_eq c, dev48_eq c, dev49_eq c, dev50_eq c, dev51_eq c, dev52_eq c, dev53_eq c, dev54_eq c, dev55_eq c, dev56_eq c, dev57_eq c, dev58_eq c, dev59_eq c, dev60_eq c, dev61_eq c, dev62_eq c]
  unfold bodyOpen O₀ all31 argPts
  iintro ⟨⟨#HR, #Hlev, Harg, ⟨%fx, Hxv⟩, ⟨%fp, Hsrc⟩, ⟨HatB, HcB⟩, ⟨HatC, HtC⟩, Hsig, Hstk, Hrcv, Hspos⟩, HO, Hout, Hk⟩
  -- the 31 signals
  iterate 31 sig_step
  -- the local copy of the block and its wait
  iapply (step_copy m K c fx) $$ [Harg Hxv HtC]
  · (isplitr; · iexact HR); (isplitl [Harg]; · iexact Harg); (isplitl [Hxv]; · iexact Hxv); iexact HtC
  iintro HcC
  iapply (step_copy_wait m K c _ _ (mayWait_low c (.dma copyQ) (lv_copy c ()) _ [])) $$ [HcC HO HatC]
  · (isplitr; · iexact HR); (isplitr; · iexact Hlev); (isplitl [HcC]; · iexact HcC); (isplitl [HO]; · iexact HO); iexact HatC
  iintro ⟨HO, Hcp, HzC⟩
  unfold copyPay
  icases Hcp with ⟨Hxv, Harg⟩
  -- the partial: the block's column sums, scaled, into the source row
  iapply (wp_load 𝒱₀ (c : Thread nD τ) none Set.univ (m := xvM) (Finset.subset_univ _)) $$ Hxv; iintro Hxv
  rw [read_xvmem]
  iapply (wp_load 𝒱₀ (c : Thread nD τ) none Set.univ (m := srcM) (Finset.subset_univ _)) $$ Hsrc; iintro Hsrc
  iapply (wp_store 𝒱₀ (c : Thread nD τ) none Set.univ (m := srcM) (r := Rect.unit (s := S1x512) ![0, 0] S1x512.size inb_S1x512_S1x512_0_0) (Mk := Finset.univ) (Finset.subset_univ _)) $$ Hsrc; iintro Hsrc
  rw [write_src]
  -- the barrier wait: the 31 rows this device may write
  iapply (step_bar_wait m K c _ _ (mayWait_bar c _)) $$ [HcB HO HatB]
  · (isplitr; · iexact HR); (isplitr; · iexact Hlev); (isplitl [HcB]; · iexact HcB); (isplitl [HO]; · iexact HO); iexact HatB
  iintro ⟨HO, Hbar⟩
  ihave Hsnd := (mk_sendRes m c) $$ [Hstk Hsrc Hbar]
  · (isplitl [Hstk]; · unfold all31; iexact Hstk); (isplitl [Hsrc]; · unfold srcPts part xs; simp only [Memref.view_whole, View.set_whole]; iexact Hsrc); iexact Hbar
  icases Hsnd with ⟨Hrem, Hsnd⟩
  unfold all31
  ihave HO := (sep_emp.2 : _ ⊢ iprop(_ ∗ emp)) $$ HO
  icases HO with ⟨HO, Hacc⟩
  ihave Hacc := (show (iprop(emp) : sProp 𝕄) ⊢ bigSepL ([] : List (Fin 31)) (credS (F := F) c) from Entails.of_eq rfl) $$ Hacc
  -- the 31 transfers
  send_step 0 dev32_eq
  send_step 1 dev33_eq
  send_step 2 dev34_eq
  send_step 3 dev35_eq
  send_step 4 dev36_eq
  send_step 5 dev37_eq
  send_step 6 dev38_eq
  send_step 7 dev39_eq
  send_step 8 dev40_eq
  send_step 9 dev41_eq
  send_step 10 dev42_eq
  send_step 11 dev43_eq
  send_step 12 dev44_eq
  send_step 13 dev45_eq
  send_step 14 dev46_eq
  send_step 15 dev47_eq
  send_step 16 dev48_eq
  send_step 17 dev49_eq
  send_step 18 dev50_eq
  send_step 19 dev51_eq
  send_step 20 dev52_eq
  send_step 21 dev53_eq
  send_step 22 dev54_eq
  send_step 23 dev55_eq
  send_step 24 dev56_eq
  send_step 25 dev57_eq
  send_step 26 dev58_eq
  send_step 27 dev59_eq
  send_step 28 dev60_eq
  send_step 29 dev61_eq
  send_step 30 dev62_eq
  ihave HO := (owes_done (F := F) c _) $$ HO
  ihave Hsw := (mk_sendWaitRes (F := F) c) $$ [Hacc Hspos]
  · (isplitl [Hacc]; · iexact Hacc); unfold all31; iexact Hspos
  unfold all31
  ihave HO := (sep_emp.2 : _ ⊢ iprop(_ ∗ emp)) $$ HO
  icases HO with ⟨HO, HaccR⟩
  ihave HaccR := (show (iprop(emp) : sProp 𝕄) ⊢ bigSepL ([] : List (Fin 31)) (recvGot m c) from Entails.of_eq rfl) $$ HaccR
  -- the 31 waits on the receive cells
  recv_step 0
  recv_step 1
  recv_step 2
  recv_step 3
  recv_step 4
  recv_step 5
  recv_step 6
  recv_step 7
  recv_step 8
  recv_step 9
  recv_step 10
  recv_step 11
  recv_step 12
  recv_step 13
  recv_step 14
  recv_step 15
  recv_step 16
  recv_step 17
  recv_step 18
  recv_step 19
  recv_step 20
  recv_step 21
  recv_step 22
  recv_step 23
  recv_step 24
  recv_step 25
  recv_step 26
  recv_step 27
  recv_step 28
  recv_step 29
  recv_step 30
  ihave HO := (sep_emp.2 : _ ⊢ iprop(_ ∗ emp)) $$ HO
  icases HO with ⟨HO, HaccS⟩
  ihave HaccS := (show (iprop(emp) : sProp 𝕄) ⊢ bigSepL ([] : List (Fin 31)) (sendGot m c) from Entails.of_eq rfl) $$ HaccS
  -- the 31 waits on the send cells
  sendw_step 0
  sendw_step 1
  sendw_step 2
  sendw_step 3
  sendw_step 4
  sendw_step 5
  sendw_step 6
  sendw_step 7
  sendw_step 8
  sendw_step 9
  sendw_step 10
  sendw_step 11
  sendw_step 12
  sendw_step 13
  sendw_step 14
  sendw_step 15
  sendw_step 16
  sendw_step 17
  sendw_step 18
  sendw_step 19
  sendw_step 20
  sendw_step 21
  sendw_step 22
  sendw_step 23
  sendw_step 24
  sendw_step 25
  sendw_step 26
  sendw_step 27
  sendw_step 28
  sendw_step 29
  sendw_step 30
  ihave Hend := (body_close m c) $$ [HaccR HaccS Hrem HzC]
  · (isplitl [HaccR]; · iexact HaccR); (isplitl [HaccS]; · iexact HaccS); (isplitl [Hrem]; · iexact Hrem); iexact HzC
  icases Hend with ⟨Hrows, Hsrc, Hsems⟩
  -- the result: the own partial plus the column sums of the landed rows
  ihave Hsrc := (Entails.of_eq (srcPts_eq (F := F) c _ _)) $$ Hsrc
  iapply (wp_load 𝒱₀ (c : Thread nD τ) none Set.univ (m := srcM) (Finset.subset_univ _)) $$ Hsrc; iintro Hsrc
  rw [read_src]
  iapply (wp_load 𝒱₀ (c : Thread nD τ) none Set.univ (m := rcvM) (Finset.subset_univ _)) $$ Hrows; iintro Hrows
  rw [read_rcv]
  iapply (wp_load 𝒱₀ (c : Thread nD τ) none Set.univ (m := outM) (Finset.subset_univ _)) $$ Hout; iintro Hout
  iapply (wp_store 𝒱₀ (c : Thread nD τ) none Set.univ (m := outM) (r := Rect.unit (s := S1x512) ![0, 0] S1x512.size inb_S1x512_S1x512_0_0) (Mk := Finset.univ) (Finset.subset_univ _)) $$ Hout; iintro Hout
  rw [write_out, wp_ret]; imodintro
  iapply Hk
  unfold bodyEnd scratch argPts
  isplitl [HO]; · iexists _; iexact HO
  isplitl [Harg]; · iexact Harg
  isplitl [Hsems]; · iexact Hsems
  isplitl [Hxv Hsrc Hrows]
  · (isplitl [Hxv]; · iexists _; iexact Hxv); (isplitl [Hsrc]; · iexists _; simp only [Memref.view_whole, View.set_whole]; iexact Hsrc); iexists _; iexact Hrows
  iexact Hout

/-! ## The library's body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
/-- The body obligation of the launch on device `c`: the entry invariant opened, the body stepped, the exit
    invariant put together. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body (Memref.whole main_arg0) (Memref.isWhole_whole _) (Memref.whole cc0_stg0_0) (hstage0_0 0) (Memref.whole cc0_scratch0) (Memref.isWhole_whole _)
      (Memref.whole cc0_scratch1) (Memref.isWhole_whole _) (Memref.whole cc0_scratch2) (Memref.isWhole_whole _) cc0_scratch3 cc0_scratch4 cc0_scratch5) (fun _ => bodyPost m ρ c)
  unfold bodyPre' Φ₀ start G'
  iintro ⟨⟨⟨⟨%K, Hg⟩, HcB, HcR, Hlev, Harg⟩, Hscr⟩, Ho, ⟨%d, %g1, %hg1, Hout⟩⟩
  unfold Dat.owesAt Pipeline.owesWithin
  icases Ho with ⟨%W, %hW, HO⟩
  rw [show (dats m ρ 0 c).owed t₀.castSucc = O₀ c from rfl]
  iapply (sound_body m K c (fun _ => bodyPost m ρ c) W g1)
  isplitl [Hg HcB HcR Hlev Harg Hscr]
  · iapply (body_open m K c)
    isplitl [Hg]; · iexact Hg
    isplitl [HcB]; · iexact HcB
    isplitl [HcR]; · iexact HcR
    isplitl [Hlev]; · iexact Hlev
    isplitl [Harg]; · iexact Harg
    iexact Hscr
  isplitl [HO]; · iexact HO
  isplitl [Hout]; · iexact Hout
  iintro Hend
  unfold bodyEnd bodyPost Φ₁ Dat.owesAt Pipeline.owesWithin
  icases Hend with ⟨⟨%W', HO⟩, Harg, Hsems, Hscr, Hout⟩
  rw [show (dats m ρ 0 c).owed t₀.succ = 0 from rfl]
  isplitl [Harg Hsems Hscr]
  · isplitl [Harg]; · iexact Harg
    isplitl [Hsems]; · iexact Hsems
    iexact Hscr
  isplitl [HO]
  · iexists W'; isplitr; · ipureintro; exact fun _ _ => Or.inl trivial
    iexact HO
  iexists _; isplitr; · (ipureintro; rfl)
  iexact Hout

end Cert.Kernel.Mean

end
-- ==== Proof.RefValue.lean ====
/-
  The reference on one device: the mean over axis 0 of a 32768 × 512 array, as ONE function of the array.
  At column j its result row holds (∑ R, X (R, j)) / 32768 on the extended reals: the sum over the 32768 rows
  from the initial value 0 (which adds nothing), divided by the constant 32768.  The run of the reference ends
  with that function of its argument in its result and the argument unchanged; dropping the value gives its frame.
  The two float words of the certificate are read here once: 0x47000000 is 32768 and 0x38000000 is 1 / 32768.
-/
import proofs.«900937_g7700000000000938_dist_mean_ax0_shard0_i_m1024_n512_v7x_i32_f32_1_alg».proof.Defs
import proofs.«900937_g7700000000000938_dist_mean_ax0_shard0_i_m1024_n512_v7x_i32_f32_1_alg».proof.Proof.Gen.ReferenceIdeal
import proofs.«900937_g7700000000000938_dist_mean_ax0_shard0_i_m1024_n512_v7x_i32_f32_1_alg».proof.Proof.Gen.ReferenceIdeal.Run
import proofs.«900937_g7700000000000938_dist_mean_ax0_shard0_i_m1024_n512_v7x_i32_f32_1_alg».proof.Proof.Gen.ReferenceIdeal.Read
import proofs.«900937_g7700000000000938_dist_mean_ax0_shard0_i_m1024_n512_v7x_i32_f32_1_alg».proof.Proof.Gen.Pre_finite_inputs_ReferenceIdeal
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen

/-- The word 0x47000000 denotes the real 32768 = 2^15. -/
theorem ofBits_32768 : Ideal.ofBits .f32 0x47000000#32 = ((32768 : ℝ) : EReal) := by
  simp [Ideal.ofBits, Ideal.ieee, -EReal.coe_mul]; norm_num

/-- The word 0x38000000 denotes the real 1 / 32768 = 2^-15. -/
theorem ofBits_inv_32768 : Ideal.ofBits .f32 0x38000000#32 = ((1 / 32768 : ℝ) : EReal) := by
  simp [Ideal.ofBits, Ideal.ieee, -EReal.coe_mul]; norm_num

/-- The reference's result as one function of its argument: the last stage of its operations' composed term. -/
def refTerm (X : Vec Ideal S32768x512 .f32) : Vec Ideal S1x512 .f32 :=
  Cert.ReferenceIdeal.Read.val_main_v3 (F := Ideal) X

/-- At column j the reference's result is the sum of column j over the 32768 rows, divided by 32768
    (the reduction's initial value 0 is dropped: 0 + s = s). -/
theorem refTerm_apply (X : Vec Ideal S32768x512 .f32) (j : Fin 512) :
    refTerm X (ix2 (0 : Fin 1) j) = Ideal.div (∑ R : Fin 32768, X (ix2 R j)) ((32768 : ℝ) : EReal) := by
  unfold refTerm
  rw [Read.val_main_v3_apply, Read.val_main_v1_apply, Read.val_main_v0_apply, Read.val_main_v2_apply,
    Read.val_main_cst_0_apply, Read.val_main_cst_apply]
  simp only [Ideal.hostDivf_def, Ideal.ofBits_def, Ideal.ofBits_zero_f32, zero_add, ofBits_32768]
  have hs : ∀ k : Fin 32768, Read.idx_main_v0 (Read.idx_main_v1 (ix2 (0 : Fin 1) j)) k = ix2 k j := fun k =>
    funext fun a => Fin.ext (by match a with | ⟨0, _⟩ => rfl | ⟨1, _⟩ => rfl)
  simp only [hs]

/-- Every fair run of the reference ends with `refTerm` of its argument in the result and the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v3)
          = refTerm (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Read.val_main_v3_eq _), (h 0).2⟩)
    (Cert.ReferenceIdeal.Value.run (F := Ideal) m' g')

/-- The reference runs to the end, faults nowhere and leaves its argument as it was: its run with the value dropped. -/
theorem frame_ref : Cert.frame_ReferenceIdeal := fun m ρ _ =>
  (θ_run Cert.ReferenceIdeal.defs _ _).mono (fun _ h c => (h c).2) (Cert.ReferenceIdeal.Value.run (F := Ideal) m ρ)

/-- info: 'Cert.ReferenceIdeal.RefValue.ref_run' depends on axioms: [propext, Classical.choice, Quot.sound] -/
#guard_msgs in #print axioms ref_run
/-- info: 'Cert.ReferenceIdeal.RefValue.refTerm_apply' depends on axioms: [propext, Classical.choice, Quot.sound] -/
#guard_msgs in #print axioms refTerm_apply

end Cert.ReferenceIdeal.RefValue

end
-- ==== Proof.MeanValue.lean ====
/-
  Each device's result row is the reference's mean, at the ideal instance (floats are extended reals, every operation exact).

  Device c's partial is, at column j, (∑ r, x c (r, j)) · 2^-15: the column sums of its 1024 rows, scaled.  Its result
  row adds to its own partial the column sums of the 31 landed rows, which are the partials of the 31 other devices:
      out c (0, j) = (∑ r, x c (r, j)) · 2^-15 + ∑ k : Fin 31, (∑ r, x (src c k) (r, j)) · 2^-15 .
  The reference's row is (∑ R : Fin 32768, X (R, j)) / 32768, and division by the nonzero real 32768 is the product
  with 1 / 32768 = 2^-15 on every extended real.  Device d's block holds rows 1024·d … 1024·d + 1023 of X, so the sum
  over the 32768 rows is the sum over the 32 devices of their 1024 rows, and the 32 devices are c and the 31 devices
  src c k.  The scale moves across the sums in ℝ: every entry is a real, because the finiteness precondition says that
  its absolute value lies below +∞.
-/
import proofs.«900937_g7700000000000938_dist_mean_ax0_shard0_i_m1024_n512_v7x_i32_f32_1_alg».proof.Proof.Spec
import proofs.«900937_g7700000000000938_dist_mean_ax0_shard0_i_m1024_n512_v7x_i32_f32_1_alg».proof.Proof.Ring
import proofs.«900937_g7700000000000938_dist_mean_ax0_shard0_i_m1024_n512_v7x_i32_f32_1_alg».proof.Proof.RefValue
import proofs.«900937_g7700000000000938_dist_mean_ax0_shard0_i_m1024_n512_v7x_i32_f32_1_alg».proof.Proof.Gen.Pre_finite_inputs_Kernel
import Idealize.ShloMosaic.Lib.Layout
import Idealize.ShloMosaic.Lib.ReduceAll
import Idealize.ShloMosaic.Lib.ValueIdx
import Idealize.ShloMosaic.Lib.Pipeline.Value
import Idealize.ShloMosaic.PureOps.Ideal.Laws
import Mathlib.Data.EReal.Basic
import Mathlib.Algebra.BigOperators.Fin
import Mathlib.Algebra.BigOperators.Ring.Finset
import Mathlib.Logic.Equiv.Fin.Basic

noncomputable section

namespace Cert.Proof.MeanValue

open Idealize.ShloMosaic Idealize.ShloMosaic.TcCoe Idealize.SL.Sem Idealize.ShloMosaic.ValueIdx
open Cert.KernelIdeal Cert.KernelIdeal.Gen Cert.KernelIdeal.Mean
open scoped BigOperators

/-! ## The kernel's two payloads read at a column -/

/-- A sum over axis 0 of an n × 512 array, read at column j: the sum over the n rows of the entries of column j. -/
theorem colsum_apply {n : Nat} (v : FVec Ideal ⟨2, ![n, 512]⟩ .f32) (h : Shape.Reduces ⟨2, ![n, 512]⟩ [0] ⟨1, ![512]⟩)
    (hφ : FKind.Formats .f32) (hacc : (0x00000000#32 : BitVec 32) = 0x00000000#32) (j : Fin 512) :
    multiReduction .add [0] ⟨1, ![512]⟩ v 0x00000000#32 h hφ hacc (ix1 j) = ∑ r : Fin n, v (ix2 r j) := by
  refine (Ideal.multiReduction_add_single v 0x00000000#32 h hφ hacc (ix1 j)).trans ?_
  refine Finset.sum_congr rfl fun k _ => congrArg v (funext fun a => Fin.ext ?_)
  match a with
  | ⟨0, _⟩ => rfl
  | ⟨1, _⟩ => rfl

/-- The partial's payload at column j: the column's sum over the block's 1024 rows, times the scale word's value. -/
theorem pay2_apply (v : Vec Ideal S1024x512 .f32) (j : Fin 512) :
    k0_pay2 (F := Ideal) v (ix2 (0 : Fin 1) j) = (∑ r : Fin 1024, v (ix2 r j)) * Ideal.ofBits .f32 0x38000000#32 := by
  unfold k0_pay2
  rw [shapeCast_self, mulf_apply, broadcast_apply]
  rw [shapeCast_apply _ _ (ix2 (0 : Fin 1) j) (ix1 j) (by rw [Shape.rowMajor_val_one, Shape.rowMajor_val_two]; simp)]
  exact congrArg (· * _) (colsum_apply v _ _ _ j)

/-- The result's payload at column j: the own row's entry plus the sum, over the 31 landed rows, of their entries. -/
theorem pay1_apply (a : Vec Ideal S1x512 .f32) (b : Vec Ideal S31x1x512 .f32) (j : Fin 512) :
    k0_pay1 (F := Ideal) a b (ix2 (0 : Fin 1) j) = a (ix2 (0 : Fin 1) j) + ∑ k : Fin 31, b (ix3 k (0 : Fin 1) j) := by
  unfold k0_pay1
  rw [shapeCast_apply _ _ (ix2 (0 : Fin 1) j) (ix1 j) (by rw [Shape.rowMajor_val_one, Shape.rowMajor_val_two]; simp)]
  rw [addf_apply]
  rw [shapeCast_apply a _ (ix1 j) (ix2 (0 : Fin 1) j) (by rw [Shape.rowMajor_val_one, Shape.rowMajor_val_two]; simp)]
  refine congrArg (_ + ·) ((colsum_apply _ _ _ _ j).trans ?_)
  refine Finset.sum_congr rfl fun k _ => ?_
  exact shapeCast_apply b _ (ix2 k j) (ix3 k (0 : Fin 1) j) (by rw [Shape.rowMajor_val_two, Shape.rowMajor_val_three]; simp)

/-- Device c's partial at column j: its block's column sum, scaled. -/
theorem part_apply (x : Dev nD → Vec Ideal S1024x512 .f32) (c : Dev nD) (j : Fin 512) :
    part (F := Ideal) x c (ix2 (0 : Fin 1) j) = (∑ r : Fin 1024, x c (ix2 r j)) * Ideal.ofBits .f32 0x38000000#32 :=
  pay2_apply (x c) j

/-- Device c's result at column j: its own partial plus the partials of the 31 devices before it on the ring. -/
theorem outAt_apply (x : Dev nD → Vec Ideal S1024x512 .f32) (c : Dev nD) (j : Fin 512) :
    outAt (F := Ideal) x c (ix2 (0 : Fin 1) j)
      = part (F := Ideal) x c (ix2 (0 : Fin 1) j) + ∑ k : Fin 31, part (F := Ideal) x (src c k) (ix2 (0 : Fin 1) j) := by
  unfold outAt
  rw [pay1_apply]
  rfl

/-! ## The algebra, over the reals -/

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over 32768 rows is the sum over 32 blocks of 1024 rows: row R = 1024·d + r. -/
theorem sum_blocks {M : Type} [AddCommMonoid M] (F : Fin 32768 → M) :
    ∑ R : Fin 32768, F R = ∑ d : Fin 32, ∑ r : Fin 1024, F ⟨d.val * 1024 + r.val, by omega⟩ := by
  rw [← Fintype.sum_prod_type']
  refine (Fintype.sum_equiv (finProdFinEquiv (m := 32) (n := 1024)) _ _ (fun p => congrArg F (Fin.ext ?_))).symm
  show p.1.val * 1024 + p.2.val = p.2.val + 1024 * p.1.val
  omega

/-- The scale crosses the sum over the devices: with g d the real row sum of device d, and the 32 devices listed as c
    and the 31 devices σ k, the scaled own sum plus the scaled sums of the others is the scaled sum over all. -/
theorem scaled_sum (g : Fin 32 → ℝ) (w : ℝ) (c : Fin 32) (σ : Fin 31 → Fin 32)
    (hσ : ∑ d : Fin 32, g d = g c + ∑ k : Fin 31, g (σ k)) :
    ((g c : ℝ) : EReal) * (w : EReal) + ∑ k : Fin 31, ((g (σ k) : ℝ) : EReal) * (w : EReal)
      = ((∑ d : Fin 32, g d : ℝ) : EReal) * (w : EReal) := by
  have h1 : ∀ k : Fin 31, ((g (σ k) : ℝ) : EReal) * (w : EReal) = ((g (σ k) * w : ℝ) : EReal) := fun k => (EReal.coe_mul _ _).symm
  rw [Finset.sum_congr rfl fun k _ => h1 k, coe_sum, ← EReal.coe_mul, ← EReal.coe_mul, ← EReal.coe_add, hσ, add_mul, Finset.sum_mul]

/-! ## Finiteness: the precondition makes every entry a real -/

/-- The word 0x7F800000 denotes +∞. -/
theorem ofBits_inf : Ideal.ofBits .f32 0x7F800000#32 = ⊤ := by
  simp [Ideal.ofBits, Ideal.ieee]

/-- An array on which the printed finiteness predicate holds (every |entry| < +∞) has a real at every index. -/
theorem finite_of_fn (x : FVec Ideal Cert.Pre_finite_inputs_Kernel.S1024x512 .f32)
    (h : Cert.Pre_finite_inputs_Kernel.fn (F := Ideal) x = (fun _ => 1#1)) (i : Cert.Pre_finite_inputs_Kernel.S1024x512.Idx) :
    ∃ r : ℝ, x i = (r : EReal) := by
  have h0 := congrFun h ix0
  dsimp only [Cert.Pre_finite_inputs_Kernel.fn] at h0
  haveI : Subsingleton (Cert.Pre_finite_inputs_Kernel.S_.Idx) := ⟨fun a b => funext fun d => d.elim0⟩
  have h1 := Host.reduce_andi_all _ _ _ _ _ h0 i
  have h2 : Ideal.cmp .olt (max (x i) (-(x i))) (Ideal.ofBits .f32 0x7F800000#32) = 1#1 := h1
  rw [ofBits_inf] at h2
  generalize x i = y at h2 ⊢
  have h3 : max y (-y) < ⊤ := by
    by_contra hn
    have h0' : Ideal.cmp .olt (max y (-y)) ⊤ = 0#1 := by
      show BitVec.ofBool (decide (max y (-y) < ⊤)) = 0#1
      rw [decide_eq_false hn]; rfl
    rw [h0'] at h2
    exact absurd h2 (by decide)
  induction y using EReal.rec with
  | bot => simp at h3
  | coe r => exact ⟨r, rfl⟩
  | top => simp at h3

/-- Under the kernel's precondition every entry of every device's block is a real. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  fun i => finite_of_fn _ (h c) i

/-! ## Each device's result row is the reference's -/

/-- With device d's block the rows 1024·d … 1024·d + 1023 of X and every entry a real, device c's result row is the
    reference's row: the column sums of all 32768 rows, divided by 32768. -/
theorem out_eq_ref (X : Vec Ideal Cert.ReferenceIdeal.S32768x512 .f32)
    (x : Dev Cert.KernelIdeal.nD → Vec Ideal Cert.KernelIdeal.S1024x512 .f32)
    (hx : ∀ c, x c = Layout.block ⟨2, ![1024, 512]⟩ ⟨2, ![32768, 512]⟩ 0 32 c X)
    (hfin : ∀ c i, ∃ r : ℝ, x c i = (r : EReal)) (c : Dev Cert.KernelIdeal.nD) :
    outAt (F := Ideal) x c = Cert.ReferenceIdeal.RefValue.refTerm X := by
  funext i
  obtain ⟨p, j, rfl⟩ : ∃ (p : Fin 1) (j : Fin 512), i = ix2 p j := ⟨i 0, i 1, eq_ix2 i⟩
  obtain rfl : p = 0 := Subsingleton.elim _ _
  rw [outAt_apply, Cert.ReferenceIdeal.RefValue.refTerm_apply, Ideal.div_coe (by norm_num : (32768 : ℝ) ≠ 0)]
  simp only [part_apply, Cert.ReferenceIdeal.RefValue.ofBits_inv_32768]
  choose f hf using hfin
  have hX : ∀ (d : Fin 32) (r : Fin 1024),
      X (ix2 (⟨d.val * 1024 + r.val, by omega⟩ : Fin 32768) j) = ((f d (ix2 r j) : ℝ) : EReal) := by
    intro d r
    rw [← hf d, hx d, Layout.block_apply]
    refine congrArg X (funext fun a => Fin.ext ?_)
    match a with
    | ⟨0, _⟩ => rfl
    | ⟨1, _⟩ => rfl
  rw [sum_blocks (fun R => X (ix2 R j))]
  simp only [hX, hf, coe_sum]
  exact scaled_sum (fun d => ∑ r : Fin 1024, f d (ix2 r j)) (1 / 32768) c (src c) (sum_all_devices _ c)

/-- info: 'Cert.Proof.MeanValue.out_eq_ref' depends on axioms: [propext, Classical.choice, Quot.sound] -/
#guard_msgs in #print axioms out_eq_ref
/-- info: 'Cert.Proof.MeanValue.finite_of_pre' depends on axioms: [propext, Classical.choice, Quot.sound] -/
#guard_msgs in #print axioms finite_of_pre

end Cert.Proof.MeanValue

end
-- ==== Proof.Claims.lean ====
/-
  The five claims about the all-to-all mean on the ring of 32 devices, assembled.

  Every fair run of the kernel, from any memory with all semaphores at zero, ends with each device's result row
  holding its own partial plus the column sums of the 31 landed rows, and its block as it was (the launch theorem over
  the body obligation, at the word-level instance and at the ideal one). Dropping the value gives the kernel's two
  frames. At the ideal instance, when device d's block is rows 1024·d … 1024·d + 1023 of the reference's array and
  every entry is a real (the finiteness precondition), that result row is the reference's: the column sums over all
  32768 rows divided by 32768; the reference's own run ends with that row and its argument unchanged, and dropping
  the value gives its frame. The idealization rewrote no operation, so there is nothing to preserve.
-/
import proofs.«900937_g7700000000000938_dist_mean_ax0_shard0_i_m1024_n512_v7x_i32_f32_1_alg».proof.Defs
import proofs.«900937_g7700000000000938_dist_mean_ax0_shard0_i_m1024_n512_v7x_i32_f32_1_alg».proof.Proof.Launch
import proofs.«900937_g7700000000000938_dist_mean_ax0_shard0_i_m1024_n512_v7x_i32_f32_1_alg».proof.Proof.Body
import proofs.«900937_g7700000000000938_dist_mean_ax0_shard0_i_m1024_n512_v7x_i32_f32_1_alg».proof.Proof.K.Launch
import proofs.«900937_g7700000000000938_dist_mean_ax0_shard0_i_m1024_n512_v7x_i32_f32_1_alg».proof.Proof.K.Body
import proofs.«900937_g7700000000000938_dist_mean_ax0_shard0_i_m1024_n512_v7x_i32_f32_1_alg».proof.Proof.RefValue
import proofs.«900937_g7700000000000938_dist_mean_ax0_shard0_i_m1024_n512_v7x_i32_f32_1_alg».proof.Proof.MeanValue
import proofs.«900937_g7700000000000938_dist_mean_ax0_shard0_i_m1024_n512_v7x_i32_f32_1_alg».proof.Proof.Gen.Kernel
import proofs.«900937_g7700000000000938_dist_mean_ax0_shard0_i_m1024_n512_v7x_i32_f32_1_alg».proof.Proof.Gen.KernelIdeal
import proofs.«900937_g7700000000000938_dist_mean_ax0_shard0_i_m1024_n512_v7x_i32_f32_1_alg».proof.Proof.Gen.ReferenceIdeal
import proofs.«900937_g7700000000000938_dist_mean_ax0_shard0_i_m1024_n512_v7x_i32_f32_1_alg».proof.Proof.Gen.Pre_finite_inputs_Kernel
import proofs.«900937_g7700000000000938_dist_mean_ax0_shard0_i_m1024_n512_v7x_i32_f32_1_alg».proof.Proof.Gen.Pre_finite_inputs_ReferenceIdeal

noncomputable section

namespace Cert.Proof.MeanClaims

open Idealize.ShloMosaic Idealize.ShloMosaic.TcCoe Idealize.SL.Sem

/-- The word-level kernel runs to the end, faults nowhere and leaves every device's block as it was: its run with
    the result's value dropped. -/
theorem frame_k : Cert.frame_Kernel := fun m g _ =>
  (θ_run Cert.Kernel.defs _ _).mono (fun _ h c => (h c).2)
    (Cert.Kernel.Mean.run_main (F := Bits) m g fun c => Cert.Kernel.Mean.body_obligation (F := Bits) m g c)

/-- The same of the kernel read at the ideal instance. -/
theorem frame_ki : Cert.frame_KernelIdeal := fun m g _ =>
  (θ_run Cert.KernelIdeal.defs _ _).mono (fun _ h c => (h c).2)
    (Cert.KernelIdeal.Mean.run_main (F := Ideal) m g fun c => Cert.KernelIdeal.Mean.body_obligation (F := Ideal) m g c)

/-- The reference runs to the end, faults nowhere and leaves its argument as it was. -/
theorem frame_ri : Cert.frame_ReferenceIdeal := Cert.ReferenceIdeal.RefValue.frame_ref

/-- The ideal pass rewrote no operation: the idealization is the kernel's own text read at the ideal instance. -/
theorem preserves : Cert.preserves_Kernel_KernelIdeal := trivial

/-- At the ideal instance, from memories where device `c`'s block is block `c` of the reference's array, both run; the
    reference's result ends holding the column means of the whole array, every device's result row ends holding the
    same row, and the arguments of both end unchanged. -/
theorem algebraic : Cert.algebraic_KernelIdeal_ReferenceIdeal := by
  intro m g m' g' hpre hagree
  refine ⟨Cert.ReferenceIdeal.RefValue.refTerm
      (m' (((0 : Dev Cert.ReferenceIdeal.nD).tc : Thread Cert.ReferenceIdeal.nD Cert.ReferenceIdeal.τ).loc Cert.ReferenceIdeal.main_arg0)),
    ?_, Cert.ReferenceIdeal.RefValue.ref_run m' g'⟩
  refine (θ_run Cert.KernelIdeal.defs _ _).mono (fun _ h c => ⟨(h c).1.trans ?_, (h c).2⟩)
    (Cert.KernelIdeal.Mean.run_main (F := Ideal) m g fun c => Cert.KernelIdeal.Mean.body_obligation (F := Ideal) m g c)
  exact Cert.Proof.MeanValue.out_eq_ref _ (Cert.KernelIdeal.Mean.xs m) (fun d => hagree d)
    (fun d i => Cert.Proof.MeanValue.finite_of_pre m hpre d i) c

/-- info: 'Cert.Proof.MeanClaims.algebraic' depends on axioms: [propext, Classical.choice, Quot.sound] -/
#guard_msgs in #print axioms algebraic
/-- info: 'Cert.Proof.MeanClaims.frame_k' depends on axioms: [propext, Classical.choice, Quot.sound] -/
#guard_msgs in #print axioms frame_k

end Cert.Proof.MeanClaims

end
-- ==== Proof.lean ====
/-
  On a ring of 32 devices every device reduces its 1024 × 512 block to the row of its column sums times 2^-15, sends
  that row to the 31 other devices and adds to its own row the 31 rows that land; the reference, on one device, takes
  the column means of the whole 32768 × 512 array. Because 2^-15 = 1 / 32768 and the 32 blocks partition the array's
  rows, each device's row is the reference's row of means whenever every entry is a real number, which the finiteness
  precondition says; the five conjuncts are proved in Proof/Claims.lean under the facts the generated modules prove.
-/
import proofs.«900937_g7700000000000938_dist_mean_ax0_shard0_i_m1024_n512_v7x_i32_f32_1_alg».proof.Defs
import proofs.«900937_g7700000000000938_dist_mean_ax0_shard0_i_m1024_n512_v7x_i32_f32_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, MeanClaims.frame_k, MeanClaims.frame_ki, MeanClaims.frame_ri,
    MeanClaims.preserves, MeanClaims.algebraic⟩

end Cert.Proof

end
